-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x1000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S16384 : Shape := ⟨1, ![16384]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_arg3 : IVec S16384 32) (main_v13 : IVec S_ 1) (main_v15 : IVec S16384 1) (main_c_5 : IVec S_ 1) : IVec S_ 1 :=
  let main_v16 : IVec S_ 1 := (fun x v => Host.reduce IntOp.andi x v reducesTo_S16384_S_d0 h_S_) main_v15 main_c_5
  let main_v17 : IVec S_ 1 := andi main_v13 main_v16
  let main_c_6 : IVec S_ 32 := constantI S_ 32 1000#32
  let main_v18 : IVec S16384 32 := broadcastInDim S16384 ![] bcast_S_S16384 main_c_6
  let main_v19 : IVec S16384 1 := cmpi .slt main_arg3 main_v18
  let main_c_7 : IVec S_ 1 := constantI S_ 1 1#1
  let main_v20 : IVec S_ 1 := (fun x v => Host.reduce IntOp.andi x v reducesTo_S16384_S_d0 h_S_) main_v19 main_c_7
  let main_v21 : IVec S_ 1 := andi main_v17 main_v20
  main_v21

def fn {F : FTy → Type} [FloatOps F] (main_arg0 : FVec F S16384x1000 .f32) (main_arg1 : FVec F S16384x1000 .f32) (main_arg2 : FVec F S16384x1000 .f32) (main_arg3 : IVec S16384 32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S16384x1000 .f32 := Host.absf main_arg1
  let main_cst_0 : FVec F S_ .f32 := constant S_ .f32 0x7F800000#32
  let main_v5 : FVec F S16384x1000 .f32 := broadcastInDim S16384x1000 ![] bcast_S_S16384x1000 main_cst_0
  let main_v6 : IVec S16384x1000 1 := cmpf .olt main_v4 main_v5
  let main_c_1 : IVec S_ 1 := constantI S_ 1 1#1
  let main_v7 : IVec S_ 1 := (fun x v => Host.reduce IntOp.andi x v reducesTo_S16384x1000_S_d0_1 h_S_) main_v6 main_c_1
  let main_v8 : IVec S_ 1 := andi main_v3 main_v7
  let main_v9 : FVec F S16384x1000 .f32 := Host.absf main_arg2
  let main_cst_2 : FVec F S_ .f32 := constant S_ .f32 0x7F800000#32
  let main_v10 : FVec F S16384x1000 .f32 := broadcastInDim S16384x1000 ![] bcast_S_S16384x1000 main_cst_2
  let main_v11 : IVec S16384x1000 1 := cmpf .olt main_v9 main_v10
  let main_c_3 : IVec S_ 1 := constantI S_ 1 1#1
  let main_v12 : IVec S_ 1 := (fun x v => Host.reduce IntOp.andi x v reducesTo_S16384x1000_S_d0_1 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg3 main_v14
  let main_c_5 : IVec S_ 1 := constantI S_ 1 1#1
  fn_part1 (F := F) main_arg3 main_v13 main_v15 main_c_5
-- ==== Kernel.lean ====
abbrev S16384x1000 : Shape := ⟨2, ![16384, 1000]⟩
abbrev S16384 : Shape := ⟨1, ![16384]⟩
abbrev S16384x1 : Shape := ⟨2, ![16384, 1]⟩
abbrev S_ : Shape := ⟨0, ![]⟩
abbrev S1000 : Shape := ⟨1, ![1000]⟩
abbrev S1x1000 : Shape := ⟨2, ![1, 1000]⟩
abbrev S2x1000x1000 : Shape := ⟨3, ![2, 1000, 1000]⟩
abbrev S2x1x1 : Shape := ⟨3, ![2, 1, 1]⟩
abbrev S1024x1000 : Shape := ⟨2, ![1024, 1000]⟩
abbrev S1024x1 : Shape := ⟨2, ![1024, 1]⟩
abbrev S1x1000x1000 : Shape := ⟨3, ![1, 1000, 1000]⟩
abbrev S1x1x1 : Shape := ⟨3, ![1, 1, 1]⟩
abbrev S1000x1000 : Shape := ⟨2, ![1000, 1000]⟩
abbrev S1x1 : Shape := ⟨2, ![1, 1]⟩
abbrev S1024 : Shape := ⟨1, ![1024]⟩
abbrev S1x1024x1 : Shape := ⟨3, ![1, 1024, 1]⟩
abbrev S1 : Shape := ⟨1, ![1]⟩
abbrev S1000x1 : Shape := ⟨2, ![1000, 1]⟩

abbrev nBuf : Space → Nat
  | .hbm => 41
  | .vmem => 13
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S16384x1000, .f32⟩
  | .hbm, ⟨3, _⟩ => ⟨S16384, .i32⟩
  | .hbm, ⟨4, _⟩ => ⟨S16384x1, .i32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S1000, .f32⟩
  | .hbm, ⟨9, _⟩ => ⟨S16384x1, .i32⟩
  | .hbm, ⟨10, _⟩ => ⟨S1000, .f32⟩
  | .hbm, ⟨11, _⟩ => ⟨S_, .f32⟩
  | .hbm, ⟨12, _⟩ => ⟨S1000, .f32⟩
  | .hbm, ⟨13, _⟩ => ⟨S1000, .f32⟩
  | .hbm, ⟨14, _⟩ => ⟨S1x1000, .f32⟩
  | .hbm, ⟨15, _⟩ => ⟨S2x1000x1000, .f32⟩
  | .hbm, ⟨16, _⟩ => ⟨S2x1x1, .f32⟩
  | .hbm, ⟨17, _⟩ => ⟨S_, .f32⟩
  | .hbm, ⟨18, _⟩ => ⟨S1000x1000, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1000, .f32⟩
  | .hbm, ⟨23, _⟩ => ⟨S1000, .f32⟩
  | .hbm, ⟨24, _⟩ => ⟨S1000x1, .f32⟩
  | .hbm, ⟨25, _⟩ => ⟨S1000x1000, .f32⟩
  | .hbm, ⟨26, _⟩ => ⟨S1000x1000, .f32⟩
  | .hbm, ⟨27, _⟩ => ⟨S_, .f32⟩
  | .hbm, ⟨28, _⟩ => ⟨S_, .f32⟩
  | .hbm, ⟨29, _⟩ => ⟨S1000x1000, .f32⟩
  | .hbm, ⟨30, _⟩ => ⟨S1000x1000, .f32⟩
  | .hbm, ⟨31, _⟩ => ⟨S1000x1000, .f32⟩
  | .hbm, ⟨32, _⟩ => ⟨S1000x1, .f32⟩
  | .hbm, ⟨33, _⟩ => ⟨S1000x1000, .f32⟩
  | .hbm, ⟨34, _⟩ => ⟨S1000x1000, .f32⟩
  | .hbm, ⟨35, _⟩ => ⟨S1000x1000, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1000, .f32⟩
  | .local _ .vmem, ⟨3, _⟩ => ⟨S1024x1000, .f32⟩
  | .local _ .vmem, ⟨4, _⟩ => ⟨S1024x1000, .f32⟩
  | .local _ .vmem, ⟨5, _⟩ => ⟨S1024x1000, .f32⟩
  | .local _ .vmem, ⟨6, _⟩ => ⟨S1024x1, .i32⟩
  | .local _ .vmem, ⟨7, _⟩ => ⟨S1024x1, .i32⟩
  | .local _ .vmem, ⟨8, _⟩ => ⟨S1x1000, .f32⟩
  | .local _ .vmem, ⟨9, _⟩ => ⟨S1x1000x1000, .f32⟩
  | .local _ .vmem, ⟨10, _⟩ => ⟨S1x1000x1000, .f32⟩
  | .local _ .vmem, ⟨11, _⟩ => ⟨S1x1x1, .f32⟩
  | .local _ .vmem, ⟨12, _⟩ => ⟨S1x1x1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_cst_2 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1000x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S16384_S16384x1 : S16384.ShapeCasts S16384x1
  bcast_S_S16384 : S_.BroadcastsInDim S16384 (![] : Fin 0 → Fin S16384.rank)
  bcast_S_S1000 : S_.BroadcastsInDim S1000 (![] : Fin 0 → Fin S1000.rank)
  bcast_S16384_S16384x1_0 : S16384.BroadcastsInDim S16384x1 (![0] : Fin 1 → Fin S16384x1.rank)
  shapeCasts_S1000_S1x1000 : S1000.ShapeCasts S1x1000
  inb_S1x1000x1000_S1x1000x1000_0_0_0 : ∀ a, (![0, 0, 0] : Fin 3 → Nat) a + S1x1000x1000.size a ≤ S1x1000x1000.size a
  h_S1x1000x1000 : 0 < S1x1000x1000.numel
  shapeCasts_S1x1000x1000_S1000x1000 : S1x1000x1000.ShapeCasts S1000x1000
  shapeCasts_S1000x1000_S1x1000x1000 : S1000x1000.ShapeCasts S1x1000x1000
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1000_d1_w32 : S1024x1000.Iotas .tc 32 [1]
  broadcasts_S1024x1_S1024x1000 : S1024x1.Broadcasts S1024x1000
  natLt_1_32 : 1 < 32
  bitsLt_bf16_f32 : FTy.bits .bf16 < FTy.bits .f32
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1024x1000 : S1x1000.Broadcasts S1024x1000
  reduces_S1024x1000_S1024 : S1024x1000.Reduces [1] S1024
  shapeCasts_S1024_S1024x1 : S1024.ShapeCasts S1024x1
  inb_S1024x1000_S1024x1000_0_0 : ∀ a, (![0, 0] : Fin 2 → Nat) a + S1024x1000.size a ≤ S1024x1000.size a
  h_S1024x1000 : 0 < S1024x1000.numel
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  reducesTo_S2x1000x1000_S1000x1000_d0 : S2x1000x1000.ReducesTo [0] S1000x1000
  h_S_ : 0 < S_.numel
  reducesTo_S2x1x1_S_d0_1_2 : S2x1x1.ReducesTo [0, 1, 2] S_
  bcast_S1000_S1000x1_0 : S1000.BroadcastsInDim S1000x1 (![0] : Fin 1 → Fin S1000x1.rank)
  bcast_S1000x1_S1000x1000_0_1 : S1000x1.BroadcastsInDim S1000x1000 (![0, 1] : Fin 2 → Fin S1000x1000.rank)
  bcast_S_S1000x1000 : S_.BroadcastsInDim S1000x1000 (![] : Fin 0 → Fin S1000x1000.rank)
  reducesTo_S1000x1000_S_d0_1 : S1000x1000.ReducesTo [0, 1] S_
  scatter_S1000_S16384x1_S16384_n_0_0_1_wf : ScatterDims.WF S1000 S16384x1 S16384 [] [0] [0] 1
  dot_S1024x1000_S1024x1000_S1000x1000_0_0_1_1_n_n_wf : DotDims.WF S1024x1000 S1024x1000 S1000x1000 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S16384x1000.size a
  hwx0_0 : ∀ i : grid0.Coords, EltTy.bits .f32 = 32 ∨ (Rect.block (s := S16384x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S16384x1000.size a
  hwx0_1 : ∀ i : grid0.Coords, EltTy.bits .f32 = 32 ∨ (Rect.block (s := S16384x1000) S1024x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1000.size a ≤ S16384x1000.size a
  hwx0_2 : ∀ i : grid0.Coords, EltTy.bits .f32 = 32 ∨ (Rect.block (s := S16384x1000) S1024x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .i32 = 32 ∨ (Rect.block (s := S16384x1) S1024x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1000.size a ≤ S1x1000.size a
  hwx0_4 : ∀ i : grid0.Coords, EltTy.bits .f32 = 32 ∨ (Rect.block (s := S1x1000) S1x1000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1000x1000.size a ≤ S2x1000x1000.size a
  hwx0_5 : ∀ i : grid0.Coords, EltTy.bits .f32 = 32 ∨ (Rect.block (s := S2x1000x1000) S1x1000x1000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)

variable [Facts₀]

def scatter_S1000_S16384x1_S16384_n_0_0_1 : ScatterDims S1000 S16384x1 S16384 where
  updateWindowDims := []
  insertedWindowDims := [0]
  scatterDimsToOperandDims := [0]
  indexVectorDim := 1
  wf := scatter_S1000_S16384x1_S16384_n_0_0_1_wf
def dot_S1024x1000_S1024x1000_S1000x1000_0_0_1_1_n_n : DotDims S1024x1000 S1024x1000 S1000x1000 where
  lhsContracting := [0]
  rhsContracting := [0]
  lhsNonContracting := [1]
  rhsNonContracting := [1]
  lhsBatch := []
  rhsBatch := []
  wf := dot_S1024x1000_S1024x1000_S1000x1000_0_0_1_1_n_n_wf

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S1x1000x1000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S16384 : Shape := ⟨1, ![16384]⟩
abbrev S1x16384x1000 : Shape := ⟨3, ![1, 16384, 1000]⟩
abbrev S3x16384x1000 : Shape := ⟨3, ![3, 16384, 1000]⟩
abbrev S_ : Shape := ⟨0, ![]⟩
abbrev S3x16384 : Shape := ⟨2, ![3, 16384]⟩
abbrev S3x16384x1 : Shape := ⟨3, ![3, 16384, 1]⟩
abbrev S49152x1000 : Shape := ⟨2, ![49152, 1000]⟩
abbrev S1x16384 : Shape := ⟨2, ![1, 16384]⟩
abbrev S49152 : Shape := ⟨1, ![49152]⟩
abbrev S1000 : Shape := ⟨1, ![1000]⟩
abbrev S49152x1 : Shape := ⟨2, ![49152, 1]⟩
abbrev S1000x1000 : Shape := ⟨2, ![1000, 1000]⟩
abbrev S1000x1 : Shape := ⟨2, ![1000, 1]⟩

abbrev nBuf : Space → Nat
  | .hbm => 85
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S16384x1000, .f32⟩
  | .hbm, ⟨3, _⟩ => ⟨S16384, .i32⟩
  | .hbm, ⟨4, _⟩ => ⟨S1x16384x1000, .f32⟩
  | .hbm, ⟨5, _⟩ => ⟨S1x16384x1000, .f32⟩
  | .hbm, ⟨6, _⟩ => ⟨S1x16384x1000, .f32⟩
  | .hbm, ⟨7, _⟩ => ⟨S3x16384x1000, .f32⟩
  | .hbm, ⟨8, _⟩ => ⟨S_, .f32⟩
  | .hbm, ⟨9, _⟩ => ⟨S3x16384, .f32⟩
  | .hbm, ⟨10, _⟩ => ⟨S_, .f32⟩
  | .hbm, ⟨11, _⟩ => ⟨S3x16384, .f32⟩
  | .hbm, ⟨12, _⟩ => ⟨S3x16384, .f32⟩
  | .hbm, ⟨13, _⟩ => ⟨S3x16384x1, .f32⟩
  | .hbm, ⟨14, _⟩ => ⟨S3x16384x1000, .f32⟩
  | .hbm, ⟨15, _⟩ => ⟨S3x16384x1000, .f32⟩
  | .hbm, ⟨16, _⟩ => ⟨S3x16384x1000, .f32⟩
  | .hbm, ⟨17, _⟩ => ⟨S_, .f32⟩
  | .hbm, ⟨18, _⟩ => ⟨S3x16384, .f32⟩
  | .hbm, ⟨19, _⟩ => ⟨S3x16384x1, .f32⟩
  | .hbm, ⟨20, _⟩ => ⟨S3x16384x1000, .f32⟩
  | .hbm, ⟨21, _⟩ => ⟨S3x16384x1000, .f32⟩
  | .hbm, ⟨22, _⟩ => ⟨S49152x1000, .f32⟩
  | .hbm, ⟨23, _⟩ => ⟨S1x16384, .i32⟩
  | .hbm, ⟨24, _⟩ => ⟨S3x16384, .i32⟩
  | .hbm, ⟨25, _⟩ => ⟨S49152, .i32⟩
  | .hbm, ⟨26, _⟩ => ⟨S_, .f32⟩
  | .hbm, ⟨27, _⟩ => ⟨S49152, .f32⟩
  | .hbm, ⟨28, _⟩ => ⟨S_, .f32⟩
  | .hbm, ⟨29, _⟩ => ⟨S1000, .f32⟩
  | .hbm, ⟨30, _⟩ => ⟨S49152x1, .i32⟩
  | .hbm, ⟨31, _⟩ => ⟨S1000, .f32⟩
  | .hbm, ⟨32, _⟩ => ⟨S_, .f32⟩
  | .hbm, ⟨33, _⟩ => ⟨S1000x1000, .f32⟩
  | .hbm, ⟨34, _⟩ => ⟨S49152x1, .i32⟩
  | .hbm, ⟨35, _⟩ => ⟨S1000x1000, .f32⟩
  | .hbm, ⟨36, _⟩ => ⟨S_, .f32⟩
  | .hbm, ⟨37, _⟩ => ⟨S1000, .f32⟩
  | .hbm, ⟨38, _⟩ => ⟨S1000, .f32⟩
  | .hbm, ⟨39, _⟩ => ⟨S1000x1, .f32⟩
  | .hbm, ⟨40, _⟩ => ⟨S1000x1000, .f32⟩
  | .hbm, ⟨41, _⟩ => ⟨S1000x1000, .f32⟩
  | .hbm, ⟨42, _⟩ => ⟨S_, .f32⟩
  | .hbm, ⟨43, _⟩ => ⟨S_, .f32⟩
  | .hbm, ⟨44, _⟩ => ⟨S1000x1000, .f32⟩
  | .hbm, ⟨45, _⟩ => ⟨S1000x1000, .f32⟩
  | .hbm, ⟨46, _⟩ => ⟨S1000x1000, .f32⟩
  | .hbm, ⟨47, _⟩ => ⟨S_, .f32⟩
  | .hbm, ⟨48, _⟩ => ⟨S49152x1000, .f32⟩
  | .hbm, ⟨49, _⟩ => ⟨S49152x1000, .i1⟩
  | .hbm, ⟨50, _⟩ => ⟨S49152x1000, .i1⟩
  | .hbm, ⟨51, _⟩ => ⟨S49152x1000, .i1⟩
  | .hbm, ⟨52, _⟩ => ⟨S49152x1000, .f32⟩
  | .hbm, ⟨53, _⟩ => ⟨S49152x1000, .f32⟩
  | .hbm, ⟨54, _⟩ => ⟨S_, .f32⟩
  | .hbm, ⟨55, _⟩ => ⟨S49152x1000, .f32⟩
  | .hbm, ⟨56, _⟩ => ⟨S49152x1000, .f32⟩
  | .hbm, ⟨57, _⟩ => ⟨S_, .i32⟩
  | .hbm, ⟨58, _⟩ => ⟨S49152, .i32⟩
  | .hbm, ⟨59, _⟩ => ⟨S49152, .i1⟩
  | .hbm, ⟨60, _⟩ => ⟨S_, .i32⟩
  | .hbm, ⟨61, _⟩ => ⟨S49152, .i32⟩
  | .hbm, ⟨62, _⟩ => ⟨S49152, .i32⟩
  | .hbm, ⟨63, _⟩ => ⟨S49152, .i32⟩
  | .hbm, ⟨64, _⟩ => ⟨S49152x1, .i32⟩
  | .hbm, ⟨65, _⟩ => ⟨S49152x1000, .f32⟩
  | .hbm, ⟨66, _⟩ => ⟨S49152x1000, .f32⟩
  | .hbm, ⟨67, _⟩ => ⟨S49152x1000, .f32⟩
  | .hbm, ⟨68, _⟩ => ⟨S_, .f32⟩
  | .hbm, ⟨69, _⟩ => ⟨S49152, .f32⟩
  | .hbm, ⟨70, _⟩ => ⟨S_, .f32⟩
  | .hbm, ⟨71, _⟩ => ⟨S49152, .f32⟩
  | .hbm, ⟨72, _⟩ => ⟨S49152, .f32⟩
  | .hbm, ⟨73, _⟩ => ⟨S_, .i32⟩
  | .hbm, ⟨74, _⟩ => ⟨S49152, .i32⟩
  | .hbm, ⟨75, _⟩ => ⟨S49152, .i1⟩
  | .hbm, ⟨76, _⟩ => ⟨S_, .i32⟩
  | .hbm, ⟨77, _⟩ => ⟨S49152, .i32⟩
  | .hbm, ⟨78, _⟩ => ⟨S49152, .i32⟩
  | .hbm, ⟨79, _⟩ => ⟨S49152, .i32⟩
  | .hbm, ⟨80, _⟩ => ⟨S49152x1, .i32⟩
  | .hbm, ⟨81, _⟩ => ⟨S49152, .f32⟩
  | .hbm, ⟨82, _⟩ => ⟨S49152, .f32⟩
  | .hbm, ⟨83, _⟩ => ⟨S_, .f32⟩
  | .hbm, ⟨84, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_call0_v0 : Ref sig .tc := ⟨.hbm, 43, rfl⟩
abbrev main_call0_v1 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_c : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_c_12 : Ref sig .tc := ⟨.hbm, 73, rfl⟩
abbrev main_v53 : Ref sig .tc := ⟨.hbm, 74, rfl⟩
abbrev main_v54 : Ref sig .tc := ⟨.hbm, 75, rfl⟩
abbrev main_c_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_14 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  bcast_S16384x1000_S1x16384x1000_1_2 : S16384x1000.BroadcastsInDim S1x16384x1000 (![1, 2] : Fin 2 → Fin S1x16384x1000.rank)
  concatenates_S1x16384x1000_S1x16384x1000_S1x16384x1000_S3x16384x1000_d0 : Shape.Concatenates [S1x16384x1000, S1x16384x1000, S1x16384x1000] S3x16384x1000 0
  reducesTo_S3x16384x1000_S3x16384_d2 : S3x16384x1000.ReducesTo [2] S3x16384
  h_S_ : 0 < S_.numel
  bcast_S_S3x16384 : S_.BroadcastsInDim S3x16384 (![] : Fin 0 → Fin S3x16384.rank)
  bcast_S3x16384_S3x16384x1_0_1 : S3x16384.BroadcastsInDim S3x16384x1 (![0, 1] : Fin 2 → Fin S3x16384x1.rank)
  bcast_S3x16384x1_S3x16384x1000_0_1_2 : S3x16384x1.BroadcastsInDim S3x16384x1000 (![0, 1, 2] : Fin 3 → Fin S3x16384x1000.rank)
  shapeCasts_S3x16384x1000_S49152x1000 : S3x16384x1000.ShapeCasts S49152x1000
  shapeCasts_S16384_S1x16384 : S16384.ShapeCasts S1x16384
  bcast_S1x16384_S3x16384_0_1 : S1x16384.BroadcastsInDim S3x16384 (![0, 1] : Fin 2 → Fin S3x16384.rank)
  shapeCasts_S3x16384_S49152 : S3x16384.ShapeCasts S49152
  bcast_S_S49152 : S_.BroadcastsInDim S49152 (![] : Fin 0 → Fin S49152.rank)
  bcast_S_S1000 : S_.BroadcastsInDim S1000 (![] : Fin 0 → Fin S1000.rank)
  bcast_S49152_S49152x1_0 : S49152.BroadcastsInDim S49152x1 (![0] : Fin 1 → Fin S49152x1.rank)
  bcast_S_S1000x1000 : S_.BroadcastsInDim S1000x1000 (![] : Fin 0 → Fin S1000x1000.rank)
  bcast_S1000_S1000x1_0 : S1000.BroadcastsInDim S1000x1 (![0] : Fin 1 → Fin S1000x1.rank)
  bcast_S1000x1_S1000x1000_0_1 : S1000x1.BroadcastsInDim S1000x1000 (![0, 1] : Fin 2 → Fin S1000x1000.rank)
  bcast_S_S49152x1000 : S_.BroadcastsInDim S49152x1000 (![] : Fin 0 → Fin S49152x1000.rank)
  reducesTo_S49152x1000_S49152_d1 : S49152x1000.ReducesTo [1] S49152
  reducesTo_S49152_S_d0 : S49152.ReducesTo [0] S_
  scatter_S1000_S49152x1_S49152_n_0_0_1_wf : ScatterDims.WF S1000 S49152x1 S49152 [] [0] [0] 1
  scatter_S1000x1000_S49152x1_S49152x1000_1_0_0_1_wf : ScatterDims.WF S1000x1000 S49152x1 S49152x1000 [1] [0] [0] 1
  gather_S1000x1000_S49152x1_S49152x1000_1_0_n_n_0_1_11000_wf : GatherDims.WF S1000x1000 S49152x1 S49152x1000 [1] [0] [] [0] [] 1 ![1, 1000]
  gather_S1000_S49152x1_S49152_n_0_n_n_0_1_1_wf : GatherDims.WF S1000 S49152x1 S49152 [] [0] [] [0] [] 1 ![1]

variable [Facts₀]

def scatter_S1000_S49152x1_S49152_n_0_0_1 : ScatterDims S1000 S49152x1 S49152 where
  updateWindowDims := []
  insertedWindowDims := [0]
  scatterDimsToOperandDims := [0]
  indexVectorDim := 1
  wf := scatter_S1000_S49152x1_S49152_n_0_0_1_wf
def scatter_S1000x1000_S49152x1_S49152x1000_1_0_0_1 : ScatterDims S1000x1000 S49152x1 S49152x1000 where
  updateWindowDims := [1]
  insertedWindowDims := [0]
  scatterDimsToOperandDims := [0]
  indexVectorDim := 1
  wf := scatter_S1000x1000_S49152x1_S49152x1000_1_0_0_1_wf
def gather_S1000x1000_S49152x1_S49152x1000_1_0_n_n_0_1_11000 : GatherDims S1000x1000 S49152x1 S49152x1000 where
  offsetDims := [1]
  collapsedSliceDims := [0]
  operandBatchingDims := []
  startIndicesBatchingDims := []
  startIndexMap := [0]
  indexVectorDim := 1
  sliceSizes := ![1, 1000]
  wf := gather_S1000x1000_S49152x1_S49152x1000_1_0_n_n_0_1_11000_wf
def gather_S1000_S49152x1_S49152_n_0_n_n_0_1_1 : GatherDims S1000 S49152x1 S49152 where
  offsetDims := []
  collapsedSliceDims := [0]
  operandBatchingDims := []
  startIndicesBatchingDims := []
  startIndexMap := [0]
  indexVectorDim := 1
  sliceSizes := ![1]
  wf := gather_S1000_S49152x1_S49152_n_0_n_n_0_1_1_wf

class Facts : Prop extends Facts₀ where

variable [Facts]
-- ==== Proof.Spec.lean ====
/-
  The two computations of the loss, as functions of the argument arrays over the extended reals.

  Three arrays of logits, 16384 rows of 1000 classes each, and one label per row.  Every row of every array is turned
  into a probability vector p (the softmax of the row); H = Σ_c p_c · log p_c is the row's negative entropy.  With
  n_k = 3 · (number of rows labelled k), S[k, c] = Σ over the three arrays and the rows labelled k of p_c, and
  LM[k, c] = log (max (ε, S[k, c] / max (n_k, 1))), the loss is

      Σ over arrays and rows r of ((Σ_c (p_c · log p_c − p_c · LM[label r, c])) / 1000) / n_(label r).

  The first program below (`resK`) computes it tile by tile: rows are cut into 16 tiles of 1024, eight tiles per core; it
  accumulates per core S and Σ_rows H / max (n_(label), 1), sums the two cores, and finishes with
  (Σ H/n − Σ_{k,c} S[k,c] · (LM[k,c] / max (n_k, 1))) / 1000.  The second (`resR`) computes it row by row over the
  3 · 16384 stacked rows.  Each definition follows its program's own order of operations, so that reading a program
  off against it is layout bookkeeping only; that the two agree on finite logits and labels in range is a separate
  theorem.
-/
import Idealize.ShloMosaic.PureOps.Ideal
import Idealize.ShloMosaic.Lib.ValueIdx

noncomputable section

namespace SupJsd

open Idealize.ShloMosaic Idealize.ShloMosaic.ValueIdx
open scoped BigOperators

/-! ## The literals -/

abbrev cZero : EReal := Ideal.ofBits .f32 0x00000000#32
abbrev cOne : EReal := Ideal.ofBits .f32 0x3F800000#32
abbrev cThree : EReal := Ideal.ofBits .f32 0x40400000#32
abbrev cThousand : EReal := Ideal.ofBits .f32 0x447A0000#32
abbrev cEps : EReal := Ideal.ofBits .f32 0x33D6BF95#32
abbrev cNegInf : EReal := Ideal.ofBits .f32 0xFF800000#32

/-! ## The arrays -/

/-- An array of logits: 16384 rows, 1000 classes. -/
abbrev Logits := (⟨2, ![16384, 1000]⟩ : Shape).Idx → EReal
/-- The labels, one 32-bit word per row. -/
abbrev Labels := (⟨1, ![16384]⟩ : Shape).Idx → BitVec 32
/-- A tile of logits: 1024 rows. -/
abbrev Blk := (⟨2, ![1024, 1000]⟩ : Shape).Idx → EReal
/-- A tile's labels, as a column. -/
abbrev LBlk := (⟨2, ![1024, 1]⟩ : Shape).Idx → BitVec 32
/-- The per-label counts, as a row. -/
abbrev CBlk := (⟨2, ![1, 1000]⟩ : Shape).Idx → EReal

/-- Row `r` of an array of logits. -/
def row (x : Logits) (r : Fin 16384) : Fin 1000 → EReal := fun c => x (ix2 r c)
/-- Row `q` of a tile. -/
def brow (b : Blk) (q : Fin 1024) : Fin 1000 → EReal := fun c => b (ix2 q c)

/-! ## One row of logits -/

section Row
variable (x : Fin 1000 → EReal)

/-- The row's maximum, folded from −∞. -/
def rowMax : EReal := max cNegInf ((Finset.univ : Finset (Fin 1000)).fold max cNegInf x)
/-- The row shifted by its maximum. -/
def shifted (c : Fin 1000) : EReal := x c - rowMax x
/-- The normaliser Σ_c exp (x_c − max). -/
def expSum : EReal := ∑ c : Fin 1000, Ideal.exp (shifted x c)
/-- log-softmax, as the first program takes it. -/
def logProb (c : Fin 1000) : EReal := shifted x c - Ideal.log (expSum x)
/-- The probability as the first program takes it: the exponential of the log-softmax. -/
def probK (c : Fin 1000) : EReal := Ideal.exp (logProb x c)
/-- Σ_c p_c · log p_c as the first program takes it. -/
def negEnt : EReal := ∑ c : Fin 1000, probK x c * logProb x c
/-- The probability as the second program takes it: the quotient by the normaliser. -/
def probR (c : Fin 1000) : EReal := Ideal.div (Ideal.exp (shifted x c)) (expSum x)

end Row

/-- p · log p, and 0 at p = 0. -/
def xlogx (p : EReal) : EReal := if p ≠ cZero then p * Ideal.log p else cZero

/-- Whether a label word names class `k`: 1 or 0. -/
def hot (b : BitVec 32) (k : Fin 1000) : EReal := if b.toInt = (k.val : Int) then 1 else 0

/-- The sum of three rows' probabilities at class `c`. -/
def psum3 (r0 r1 r2 : Fin 1000 → EReal) (c : Fin 1000) : EReal := probK r0 c + probK r1 c + probK r2 c
/-- The sum of three rows' negative entropies. -/
def ent3 (r0 r1 r2 : Fin 1000 → EReal) : EReal := negEnt r0 + negEnt r1 + negEnt r2

/-! ## One tile, as the first program's body computes it -/

/-- What one tile adds to S[k, c]: the rows labelled k, their probability sums; then the same rows' sums of
    (p − p), the low part of a split that is exact over the reals. -/
def blkMix (b0 b1 b2 : Blk) (lb : LBlk) (k c : Fin 1000) : EReal :=
  (∑ q : Fin 1024, hot (lb (ix2 q 0)) k * psum3 (brow b0 q) (brow b1 q) (brow b2 q) c)
  + (∑ q : Fin 1024, hot (lb (ix2 q 0)) k
      * (psum3 (brow b0 q) (brow b1 q) (brow b2 q) c - psum3 (brow b0 q) (brow b1 q) (brow b2 q) c))

/-- The count of a row's own label, picked out of the counts by the row's one-hot vector, and at least 1. -/
def rowCount (b : BitVec 32) (cn : CBlk) : EReal := max (∑ k : Fin 1000, hot b k * cn (ix2 0 k)) cOne

/-- What one tile adds to Σ H / n. -/
def blkEnt (b0 b1 b2 : Blk) (lb : LBlk) (cn : CBlk) : EReal :=
  ∑ q : Fin 1024, Ideal.div (ent3 (brow b0 q) (brow b1 q) (brow b2 q)) (rowCount (lb (ix2 q 0)) cn)

/-! ## The first program: tiles, cores, and the closing arithmetic -/

section Kernel
variable (x0 x1 x2 : Logits) (lab : Labels)

/-- n_k as the first program counts it: three times the number of rows whose label is k. -/
def countK (k : Fin 1000) : EReal :=
  cThree * (cZero + ∑ r : Fin 16384, if (lab (ix1 r)).toInt = (k.val : Int) then cOne else 0)

/-- The counts as the row the body reads. -/
def countRow : CBlk := fun j => countK lab ⟨(j 1).val, (j 1).isLt⟩

/-- Global row of row `q` of tile `t`. -/
def rowAt (t : Fin 16) (q : Fin 1024) : Fin 16384 := ⟨t.val * 1024 + q.val, by have := t.isLt; have := q.isLt; omega⟩

/-- Tile `t` of an array of logits. -/
def blkOf (x : Logits) (t : Fin 16) : Blk := fun j => x (ix2 (rowAt t ⟨(j 0).val, (j 0).isLt⟩) ⟨(j 1).val, (j 1).isLt⟩)
/-- Tile `t` of the labels, as a column. -/
def lblkOf (t : Fin 16) : LBlk := fun j => lab (ix1 (rowAt t ⟨(j 0).val, (j 0).isLt⟩))

def tileMix (t : Fin 16) (k c : Fin 1000) : EReal := blkMix (blkOf x0 t) (blkOf x1 t) (blkOf x2 t) (lblkOf lab t) k c
def tileEnt (t : Fin 16) : EReal := blkEnt (blkOf x0 t) (blkOf x1 t) (blkOf x2 t) (lblkOf lab t) (countRow lab)

/-- Tile `j` of core `core`. -/
def pointOf (core : Fin 2) (j : Fin 8) : Fin 16 := ⟨core.val * 8 + j.val, by have := core.isLt; have := j.isLt; omega⟩

/-- One core's share of S[k, c]: from zero, its eight tiles added in turn. -/
def coreMix (core : Fin 2) (k c : Fin 1000) : EReal := cZero + ∑ j : Fin 8, tileMix x0 x1 x2 lab (pointOf core j) k c
/-- One core's share of Σ H / n. -/
def coreEnt (core : Fin 2) : EReal := cZero + ∑ j : Fin 8, tileEnt x0 x1 x2 lab (pointOf core j)

def mixSum (k c : Fin 1000) : EReal := cZero + ∑ core : Fin 2, coreMix x0 x1 x2 lab core k c
def entSum : EReal := cZero + ∑ core : Fin 2, coreEnt x0 x1 x2 lab core
/-- max (n_k, 1). -/
def clippedCount (k : Fin 1000) : EReal := max (countK lab k) cOne
def mixK (k c : Fin 1000) : EReal := Ideal.div (mixSum x0 x1 x2 lab k c) (clippedCount lab k)
def logMixK (k c : Fin 1000) : EReal := Ideal.log (max cEps (mixK x0 x1 x2 lab k c))
def cross : EReal :=
  cZero + ∑ k : Fin 1000, ∑ c : Fin 1000, mixSum x0 x1 x2 lab k c * Ideal.div (logMixK x0 x1 x2 lab k c) (clippedCount lab k)

/-- The first program's result. -/
def resK : EReal := Ideal.div (entSum x0 x1 x2 lab - cross x0 x1 x2 lab) cThousand

end Kernel

/-! ## The second program: the 3 · 16384 stacked rows -/

section Reference
variable (x0 x1 x2 : Logits) (lab : Labels)

/-- Which array stacked row `q` comes from. -/
def viewOf (q : Fin 49152) : Fin 3 := ⟨q.val / 16384, by have := q.isLt; omega⟩
/-- Which of its rows. -/
def rowOf (q : Fin 49152) : Fin 16384 := ⟨q.val % 16384, Nat.mod_lt _ (by decide)⟩

/-- The stacked probabilities. -/
def probs (q : Fin 49152) (c : Fin 1000) : EReal := probR (row (![x0, x1, x2] (viewOf q)) (rowOf q)) c
/-- The stacked labels. -/
def lab3 (q : Fin 49152) : BitVec 32 := lab (ix1 (rowOf q))

/-- n_k as the second program counts it: the number of stacked rows labelled k. -/
def countR (k : Fin 1000) : EReal := cZero + ∑ q : Fin 49152, if (lab3 lab q).toInt = (k.val : Int) then cOne else 0
def mixSumR (k c : Fin 1000) : EReal :=
  cZero + ∑ q : Fin 49152, if (lab3 lab q).toInt = (k.val : Int) then probs x0 x1 x2 q c else 0
def mixR (k c : Fin 1000) : EReal := Ideal.div (mixSumR x0 x1 x2 lab k c) (max (countR lab k) cOne)
def logMixR (k c : Fin 1000) : EReal := Ideal.log (max cEps (mixR x0 x1 x2 lab k c))

/-- A negative label word counted from the end. -/
def wrapLabel (b : BitVec 32) : BitVec 32 := if b.toInt < 0 then b + 1000#32 else b
/-- The table row a label word reads: the wrapped word, signed, clamped into the table. -/
def gatherRow (b : BitVec 32) : Fin 1000 := ⟨min (wrapLabel b).toInt.toNat 999, by omega⟩

def rowKl (q : Fin 49152) : EReal :=
  cZero + ∑ c : Fin 1000, (xlogx (probs x0 x1 x2 q c) - probs x0 x1 x2 q c * logMixR x0 x1 x2 lab (gatherRow (lab3 lab q)) c)
def perRow (q : Fin 49152) : EReal :=
  Ideal.div (Ideal.div (rowKl x0 x1 x2 lab q) cThousand) (countR lab (gatherRow (lab3 lab q)))

/-- The second program's result. -/
def resR : EReal := cZero + ∑ q : Fin 49152, perRow x0 x1 x2 lab q

end Reference

end SupJsd

end
-- ==== Proof.SpecReal.lean ====
/-
  The loss over the real numbers.  For real logits `a v r c` (array v, row r, class c) and labels `ℓ r` among the 1000
  classes: softmax `P`, log-softmax `LP`, negative entropy `H`, counts n_k = 3 · #{r | ℓ r = k}, per-label sums `S`,
  the clamped log-mixture `lm`, and the two arrangements of the loss, `RK` (entropy term minus cross term, each
  gathered per label, divided by 1000 at the end) and `RR` (row by row).
-/
import Mathlib.Analysis.SpecialFunctions.Log.Basic
import Mathlib.Algebra.BigOperators.Fin

noncomputable section

namespace SupJsd.Real

open scoped BigOperators

/-- softmax of a row. -/
def P (x : Fin 1000 → ℝ) (c : Fin 1000) : ℝ := Real.exp (x c) / ∑ c' : Fin 1000, Real.exp (x c')
/-- log-softmax of a row. -/
def LP (x : Fin 1000 → ℝ) (c : Fin 1000) : ℝ := x c - Real.log (∑ c' : Fin 1000, Real.exp (x c'))
/-- Σ_c p_c · log p_c. -/
def H (x : Fin 1000 → ℝ) : ℝ := ∑ c : Fin 1000, P x c * LP x c

variable (a : Fin 3 → Fin 16384 → Fin 1000 → ℝ) (ℓ : Fin 16384 → Fin 1000) (ε : ℝ)

/-- n_k. -/
def cnt (k : Fin 1000) : ℝ := 3 * ((Finset.univ.filter fun r : Fin 16384 => ℓ r = k).card : ℝ)
/-- S[k, c]. -/
def S (k c : Fin 1000) : ℝ := ∑ r : Fin 16384, if ℓ r = k then P (a 0 r) c + P (a 1 r) c + P (a 2 r) c else 0
/-- LM[k, c]. -/
def lm (k c : Fin 1000) : ℝ := Real.log (max ε (S a ℓ k c / max (cnt ℓ k) 1))

/-- The loss, per-label arrangement. -/
def RK : ℝ :=
  ((∑ r : Fin 16384, (H (a 0 r) + H (a 1 r) + H (a 2 r)) / max (cnt ℓ (ℓ r)) 1)
    - ∑ k : Fin 1000, ∑ c : Fin 1000, S a ℓ k c * (lm a ℓ ε k c / max (cnt ℓ k) 1)) / 1000

/-- The loss, row by row. -/
def RR : ℝ :=
  ∑ v : Fin 3, ∑ r : Fin 16384,
    ((∑ c : Fin 1000, (P (a v r) c * LP (a v r) c - P (a v r) c * lm a ℓ ε (ℓ r) c)) / 1000) / cnt ℓ (ℓ r)

end SupJsd.Real

end
-- ==== Proof.Basics.lean ====
/-
  Elementary facts about extended reals used throughout: a finite sum of real numbers, read in the extended
  reals, is the real sum.
-/
import Mathlib.Data.EReal.Basic
import Mathlib.Algebra.BigOperators.Group.Finset.Basic

namespace SupJsd

open scoped BigOperators

/-- The coercion of reals into extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end SupJsd
-- ==== Proof.RowFacts.lean ====
/-
  One row of finite logits: the extended-real row functions of the specification are the coercions of the real
  softmax, log-softmax and negative entropy; and the literals' values.
-/
import proofs.«417588_j592705487350_3_alg».proof.Proof.Spec
import proofs.«417588_j592705487350_3_alg».proof.Proof.SpecReal
import proofs.«417588_j592705487350_3_alg».proof.Proof.Basics
import Mathlib.Data.Finset.Fold

noncomputable section

namespace SupJsd

open Idealize.ShloMosaic
open scoped BigOperators

/-- The real value of the clamp literal ε (the 32-bit pattern 0x33D6BF95). -/
def epsR : ℝ := 14073749 / 2 ^ 47

theorem epsR_pos : 0 < epsR := by unfold epsR; positivity

/-! The literals.  Each pattern is decoded as sign, biased exponent and fraction; what is left is a product of a
    natural number and a power of two. -/

theorem cNegInf_eq : cNegInf = ⊥ := by simp [Ideal.ofBits, Ideal.ieee]
theorem cZero_eq : cZero = 0 := by simp [Ideal.ofBits, Ideal.ieee]
theorem cOne_eq : cOne = ((1 : ℝ) : EReal) := by
  simp [Ideal.ofBits, Ideal.ieee]
  rw [← EReal.coe_mul, ← EReal.coe_one]; congr 1; norm_num
theorem cThree_eq : cThree = ((3 : ℝ) : EReal) := by
  simp [Ideal.ofBits, Ideal.ieee]
  rw [← EReal.coe_mul]; congr 1; norm_num
theorem cThousand_eq : cThousand = ((1000 : ℝ) : EReal) := by
  simp [Ideal.ofBits, Ideal.ieee]
  rw [← EReal.coe_mul]; congr 1; norm_num
theorem cEps_eq : cEps = ((epsR : ℝ) : EReal) := by
  simp [Ideal.ofBits, Ideal.ieee, epsR]
  rw [← EReal.coe_mul]; congr 1

/-! The real softmax. -/

/-- The normaliser Σ exp a_c is positive. -/
private theorem norm_pos (a : Fin 1000 → ℝ) : 0 < ∑ c' : Fin 1000, Real.exp (a c') :=
  Finset.sum_pos (fun _ _ => Real.exp_pos _) Finset.univ_nonempty

/-- Shifting every logit by M divides the normaliser by exp M. -/
private theorem norm_shift (a : Fin 1000 → ℝ) (M : ℝ) :
    ∑ c' : Fin 1000, Real.exp (a c' - M) = (∑ c' : Fin 1000, Real.exp (a c')) / Real.exp M := by
  rw [Finset.sum_div]
  exact Finset.sum_congr rfl (fun c _ => Real.exp_sub _ _)

private theorem norm_shift_pos (a : Fin 1000 → ℝ) (M : ℝ) : 0 < ∑ c' : Fin 1000, Real.exp (a c' - M) :=
  Finset.sum_pos (fun _ _ => Real.exp_pos _) Finset.univ_nonempty

theorem P_pos (a : Fin 1000 → ℝ) (c : Fin 1000) : 0 < Real.P a c :=
  div_pos (Real.exp_pos _) (norm_pos a)

/-- exp of the log-softmax is the softmax; the log of the softmax is the log-softmax. -/
theorem log_P (a : Fin 1000 → ℝ) (c : Fin 1000) : Real.log (Real.P a c) = Real.LP a c := by
  unfold Real.P Real.LP
  rw [Real.log_div (Real.exp_pos _).ne' (norm_pos a).ne', Real.log_exp]

/-! The row's maximum is a real number: the fold from −∞ is at least the first entry, so it is not −∞, and every entry
    and −∞ lie below +∞, so it is not +∞. -/

private theorem rowMax_real (a : Fin 1000 → ℝ) :
    ∃ M : ℝ, rowMax (fun c => ((a c : ℝ) : EReal)) = (M : EReal) := by
  unfold rowMax
  rw [cNegInf_eq, max_bot_left]
  have h1 : (Finset.univ : Finset (Fin 1000)).fold max ⊥ (fun c => ((a c : ℝ) : EReal)) ≠ ⊥ := by
    have h : ((a 0 : ℝ) : EReal) ≤ (Finset.univ : Finset (Fin 1000)).fold max ⊥ (fun c => ((a c : ℝ) : EReal)) :=
      (Finset.le_fold_max _).2 (Or.inr ⟨0, Finset.mem_univ _, le_rfl⟩)
    exact fun hb => EReal.coe_ne_bot _ (le_bot_iff.1 (hb ▸ h))
  have h2 : (Finset.univ : Finset (Fin 1000)).fold max ⊥ (fun c => ((a c : ℝ) : EReal)) ≠ ⊤ :=
    ((Finset.fold_max_lt _).2 ⟨bot_lt_top, fun x _ => EReal.coe_lt_top _⟩).ne
  exact ⟨_, (EReal.coe_toReal h2 h1).symm⟩

/-- The shifted row and its normaliser are real. -/
private theorem row_real (a : Fin 1000 → ℝ) : ∃ M : ℝ,
    (∀ c, shifted (fun c => ((a c : ℝ) : EReal)) c = ((a c - M : ℝ) : EReal)) ∧
    expSum (fun c => ((a c : ℝ) : EReal)) = ((∑ c' : Fin 1000, Real.exp (a c' - M) : ℝ) : EReal) := by
  obtain ⟨M, hM⟩ := rowMax_real a
  have hs : ∀ c, shifted (fun c => ((a c : ℝ) : EReal)) c = ((a c - M : ℝ) : EReal) := by
    intro c
    unfold shifted
    rw [hM, EReal.coe_sub]
  refine ⟨M, hs, ?_⟩
  unfold expSum
  rw [coe_sum]
  refine Finset.sum_congr rfl (fun c _ => ?_)
  rw [hs, Ideal.exp_coe]

/-! The coercions.  The shift cancels: (a_c − M) − log (Z / exp M) = a_c − log Z and
    exp (a_c − M) / (Z / exp M) = exp a_c / Z, where Z = Σ exp a_c'. -/

theorem logProb_coe (a : Fin 1000 → ℝ) (c : Fin 1000) :
    logProb (fun c => ((a c : ℝ) : EReal)) c = ((Real.LP a c : ℝ) : EReal) := by
  obtain ⟨M, hs, he⟩ := row_real a
  unfold logProb
  have key : a c - M - Real.log (∑ c' : Fin 1000, Real.exp (a c' - M)) = Real.LP a c := by
    unfold Real.LP
    rw [norm_shift, Real.log_div (norm_pos a).ne' (Real.exp_pos M).ne', Real.log_exp]
    ring
  rw [hs, he, Ideal.log_coe, if_neg (not_le.2 (norm_shift_pos a M)), ← EReal.coe_sub, key]

theorem probK_coe (a : Fin 1000 → ℝ) (c : Fin 1000) :
    probK (fun c => ((a c : ℝ) : EReal)) c = ((Real.P a c : ℝ) : EReal) := by
  unfold probK
  have key : Real.exp (Real.LP a c) = Real.P a c := by
    unfold Real.LP Real.P
    rw [Real.exp_sub, Real.exp_log (norm_pos a)]
  rw [logProb_coe, Ideal.exp_coe, key]

theorem probR_coe (a : Fin 1000 → ℝ) (c : Fin 1000) :
    probR (fun c => ((a c : ℝ) : EReal)) c = ((Real.P a c : ℝ) : EReal) := by
  obtain ⟨M, hs, he⟩ := row_real a
  unfold probR
  have key : Real.exp (a c - M) * (1 / ∑ c' : Fin 1000, Real.exp (a c' - M)) = Real.P a c := by
    unfold Real.P
    have h1 := (Real.exp_pos M).ne'
    have h2 := (norm_pos a).ne'
    rw [norm_shift, Real.exp_sub]
    field_simp
  rw [hs, he, Ideal.exp_coe, Ideal.div_coe (norm_shift_pos a M).ne', ← EReal.coe_mul, key]

theorem negEnt_coe (a : Fin 1000 → ℝ) :
    negEnt (fun c => ((a c : ℝ) : EReal)) = ((Real.H a : ℝ) : EReal) := by
  unfold negEnt Real.H
  rw [coe_sum]
  refine Finset.sum_congr rfl (fun c _ => ?_)
  rw [probK_coe, logProb_coe, EReal.coe_mul]

theorem xlogx_coe (a : Fin 1000 → ℝ) (c : Fin 1000) :
    xlogx ((Real.P a c : ℝ) : EReal) = ((Real.P a c * Real.LP a c : ℝ) : EReal) := by
  have hp := P_pos a c
  have hne : ((Real.P a c : ℝ) : EReal) ≠ cZero := by
    rw [cZero_eq]; exact EReal.coe_ne_zero.2 hp.ne'
  unfold xlogx
  rw [if_pos hne, Ideal.log_coe, if_neg (not_le.2 hp), log_P, EReal.coe_mul]

end SupJsd

end
-- ==== Proof.KernelReal.lean ====
/-
  On finite logits and labels in range the first program's value is the coercion of the real loss in its per-label
  arrangement.
-/
import proofs.«417588_j592705487350_3_alg».proof.Proof.RowFacts

noncomputable section

namespace SupJsd

open Idealize.ShloMosaic Idealize.ShloMosaic.ValueIdx
open scoped BigOperators

/-! ## Regrouping the rows: two cores of eight tiles of 1024 rows are the 16384 rows -/

/-- A sum over the tiles and the rows of a tile is the sum over all rows. -/
private theorem sum_tiles {M : Type*} [AddCommMonoid M] (f : Fin 16384 → M) :
    ∑ t : Fin 16, ∑ q : Fin 1024, f (rowAt t q) = ∑ r : Fin 16384, f r := by
  rw [← Fintype.sum_prod_type']
  refine Fintype.sum_equiv (finProdFinEquiv : Fin 16 × Fin 1024 ≃ Fin 16384) _ _ (fun x => ?_)
  congr 1
  apply Fin.ext
  show x.1.val * 1024 + x.2.val = x.2.val + 1024 * x.1.val
  omega

/-- A sum over the cores and the tiles of a core is the sum over all tiles. -/
private theorem sum_cores {M : Type*} [AddCommMonoid M] (g : Fin 16 → M) :
    ∑ core : Fin 2, ∑ j : Fin 8, g (pointOf core j) = ∑ t : Fin 16, g t := by
  rw [← Fintype.sum_prod_type']
  refine Fintype.sum_equiv (finProdFinEquiv : Fin 2 × Fin 8 ≃ Fin 16) _ _ (fun x => ?_)
  congr 1
  apply Fin.ext
  show x.1.val * 8 + x.2.val = x.2.val + 8 * x.1.val
  omega

/-- Cores, tiles and rows of a tile together run over every row once. -/
private theorem sum_rows {M : Type*} [AddCommMonoid M] (f : Fin 16384 → M) :
    ∑ core : Fin 2, ∑ j : Fin 8, ∑ q : Fin 1024, f (rowAt (pointOf core j) q) = ∑ r : Fin 16384, f r := by
  rw [sum_cores (fun t => ∑ q : Fin 1024, f (rowAt t q)), sum_tiles]

/-! ## Small facts over the extended reals -/

/-- The quotient of two reals with a nonzero divisor, taken in the extended reals, is the real quotient. -/
private theorem div_coe_coe (x y : ℝ) (hy : y ≠ 0) : Ideal.div ((x : ℝ) : EReal) ((y : ℝ) : EReal) = ((x / y : ℝ) : EReal) := by
  rw [Ideal.div_coe hy, ← EReal.coe_mul, mul_one_div]

/-- A maximum with 1 is positive, so not zero. -/
private theorem max_one_ne_zero (x : ℝ) : max x 1 ≠ 0 :=
  ne_of_gt (lt_of_lt_of_le one_pos (le_max_right x 1))

/-- The coercion of reals into extended reals commutes with the maximum. -/
private theorem coe_max (x y : ℝ) : ((max x y : ℝ) : EReal) = max (x : EReal) (y : EReal) :=
  EReal.coe_strictMono.monotone.map_max

/-- The maximum of a real and the literal 1, in the extended reals. -/
private theorem max_cOne (x : ℝ) : max ((x : ℝ) : EReal) cOne = ((max x 1 : ℝ) : EReal) := by
  rw [cOne_eq, coe_max]

section
variable (a : Fin 3 → Fin 16384 → Fin 1000 → ℝ) (ℓ : Fin 16384 → Fin 1000) (lab : Labels)

/-! ## Rows and tiles of finite logits -/

/-- A row of a tile of an array of finite logits is the corresponding row of reals. -/
private theorem brow_blkOf (v : Fin 3) (x : Logits) (hx : ∀ r c, x (ix2 r c) = ((a v r c : ℝ) : EReal)) (t : Fin 16)
    (q : Fin 1024) : brow (blkOf x t) q = fun c => ((a v (rowAt t q) c : ℝ) : EReal) := by
  funext c
  exact hx (rowAt t q) c

/-- The three probabilities of one class add up in the reals. -/
private theorem psum3_coe (r0 r1 r2 : Fin 1000 → ℝ) (c : Fin 1000) :
    psum3 (fun c => ((r0 c : ℝ) : EReal)) (fun c => ((r1 c : ℝ) : EReal)) (fun c => ((r2 c : ℝ) : EReal)) c
      = ((Real.P r0 c + Real.P r1 c + Real.P r2 c : ℝ) : EReal) := by
  unfold psum3
  rw [probK_coe, probK_coe, probK_coe, EReal.coe_add, EReal.coe_add]

/-- The three negative entropies add up in the reals. -/
private theorem ent3_coe (r0 r1 r2 : Fin 1000 → ℝ) :
    ent3 (fun c => ((r0 c : ℝ) : EReal)) (fun c => ((r1 c : ℝ) : EReal)) (fun c => ((r2 c : ℝ) : EReal))
      = ((Real.H r0 + Real.H r1 + Real.H r2 : ℝ) : EReal) := by
  unfold ent3
  rw [negEnt_coe, negEnt_coe, negEnt_coe, EReal.coe_add, EReal.coe_add]

/-! ## Labels -/

/-- A label word in range names class k exactly when the label is k. -/
private theorem label_iff (hl : ∀ r, (lab (ix1 r)).toInt = (((ℓ r).val : ℕ) : Int)) (r : Fin 16384) (k : Fin 1000) :
    (lab (ix1 r)).toInt = ((k.val : ℕ) : Int) ↔ ℓ r = k := by
  rw [hl r]
  constructor
  · intro h
    exact Fin.ext (Int.ofNat_inj.mp h)
  · intro h
    rw [h]

/-- The one-hot entry of a label word in range is the real indicator of the label. -/
private theorem hot_coe (hl : ∀ r, (lab (ix1 r)).toInt = (((ℓ r).val : ℕ) : Int)) (r : Fin 16384) (k : Fin 1000) :
    hot (lab (ix1 r)) k = (((if ℓ r = k then 1 else 0 : ℝ)) : EReal) := by
  unfold hot
  by_cases h : ℓ r = k
  · rw [if_pos ((label_iff ℓ lab hl r k).mpr h), if_pos h, EReal.coe_one]
  · rw [if_neg (fun h' => h ((label_iff ℓ lab hl r k).mp h')), if_neg h, EReal.coe_zero]

/-- The first program's count of label k is the real count. -/
private theorem countK_coe (hl : ∀ r, (lab (ix1 r)).toInt = (((ℓ r).val : ℕ) : Int)) (k : Fin 1000) :
    countK lab k = ((Real.cnt ℓ k : ℝ) : EReal) := by
  unfold countK Real.cnt
  have hs : (∑ r : Fin 16384, if (lab (ix1 r)).toInt = ((k.val : ℕ) : Int) then cOne else 0)
      = (((Finset.univ.filter fun r : Fin 16384 => ℓ r = k).card : ℝ) : EReal) := by
    rw [← Finset.sum_boole, coe_sum]
    refine Finset.sum_congr rfl (fun r _ => ?_)
    by_cases h : ℓ r = k
    · rw [if_pos ((label_iff ℓ lab hl r k).mpr h), if_pos h, cOne_eq]
    · rw [if_neg (fun h' => h ((label_iff ℓ lab hl r k).mp h')), if_neg h, EReal.coe_zero]
  rw [hs, cZero_eq, zero_add, cThree_eq, ← EReal.coe_mul]

/-- The count a row picks out of the table of counts by its one-hot vector, clipped below at 1. -/
private theorem rowCount_coe (hl : ∀ r, (lab (ix1 r)).toInt = (((ℓ r).val : ℕ) : Int)) (r : Fin 16384) :
    rowCount (lab (ix1 r)) (countRow lab) = ((max (Real.cnt ℓ (ℓ r)) 1 : ℝ) : EReal) := by
  unfold rowCount
  have hs : (∑ k : Fin 1000, hot (lab (ix1 r)) k * countRow lab (ix2 0 k)) = ((Real.cnt ℓ (ℓ r) : ℝ) : EReal) := by
    have h1 : ∀ k : Fin 1000, hot (lab (ix1 r)) k * countRow lab (ix2 0 k)
        = (((if ℓ r = k then Real.cnt ℓ k else 0 : ℝ)) : EReal) := by
      intro k
      have hc : countRow lab (ix2 0 k) = countK lab k := rfl
      rw [hc, hot_coe ℓ lab hl r k, countK_coe ℓ lab hl k, ← EReal.coe_mul]
      by_cases h : ℓ r = k
      · rw [if_pos h, if_pos h, one_mul]
      · rw [if_neg h, if_neg h, zero_mul]
    rw [Finset.sum_congr rfl (fun k _ => h1 k), ← coe_sum, Finset.sum_ite_eq]
    rw [if_pos (Finset.mem_univ _)]
  rw [hs, max_cOne]

end

section
variable (a : Fin 3 → Fin 16384 → Fin 1000 → ℝ) (ℓ : Fin 16384 → Fin 1000) (x0 x1 x2 : Logits) (lab : Labels)

/-! ## One tile -/

/-- What a tile adds to S[k, c]: the rows of the tile labelled k contribute their three probabilities; the low part
    of the split is a sum of p − p and vanishes. -/
private theorem tileMix_coe (h0 : ∀ r c, x0 (ix2 r c) = ((a 0 r c : ℝ) : EReal))
    (h1 : ∀ r c, x1 (ix2 r c) = ((a 1 r c : ℝ) : EReal)) (h2 : ∀ r c, x2 (ix2 r c) = ((a 2 r c : ℝ) : EReal))
    (hl : ∀ r, (lab (ix1 r)).toInt = (((ℓ r).val : ℕ) : Int)) (t : Fin 16) (k c : Fin 1000) :
    tileMix x0 x1 x2 lab t k c
      = ((∑ q : Fin 1024, (if ℓ (rowAt t q) = k
            then Real.P (a 0 (rowAt t q)) c + Real.P (a 1 (rowAt t q)) c + Real.P (a 2 (rowAt t q)) c else 0) : ℝ) : EReal) := by
  unfold tileMix blkMix
  have hq : ∀ q : Fin 1024, lblkOf lab t (ix2 q 0) = lab (ix1 (rowAt t q)) := fun _ => rfl
  have hA : ∀ q : Fin 1024,
      hot (lblkOf lab t (ix2 q 0)) k * psum3 (brow (blkOf x0 t) q) (brow (blkOf x1 t) q) (brow (blkOf x2 t) q) c
        = (((if ℓ (rowAt t q) = k
            then Real.P (a 0 (rowAt t q)) c + Real.P (a 1 (rowAt t q)) c + Real.P (a 2 (rowAt t q)) c else 0 : ℝ)) : EReal) := by
    intro q
    rw [hq q, hot_coe ℓ lab hl, brow_blkOf a 0 x0 h0, brow_blkOf a 1 x1 h1, brow_blkOf a 2 x2 h2, psum3_coe,
      ← EReal.coe_mul]
    by_cases h : ℓ (rowAt t q) = k
    · rw [if_pos h, if_pos h, one_mul]
    · rw [if_neg h, if_neg h, zero_mul]
  have hB : ∀ q : Fin 1024,
      hot (lblkOf lab t (ix2 q 0)) k
        * (psum3 (brow (blkOf x0 t) q) (brow (blkOf x1 t) q) (brow (blkOf x2 t) q) c
            - psum3 (brow (blkOf x0 t) q) (brow (blkOf x1 t) q) (brow (blkOf x2 t) q) c) = 0 := by
    intro q
    rw [hq q, hot_coe ℓ lab hl, brow_blkOf a 0 x0 h0, brow_blkOf a 1 x1 h1, brow_blkOf a 2 x2 h2, psum3_coe,
      ← EReal.coe_sub, sub_self, EReal.coe_zero, mul_zero]
  rw [Finset.sum_congr rfl (fun q _ => hA q), Finset.sum_congr rfl (fun q _ => hB q), Finset.sum_const_zero, add_zero,
    ← coe_sum]

/-- What a tile adds to Σ H / n: each of its rows' three negative entropies over the clipped count of its label. -/
private theorem tileEnt_coe (h0 : ∀ r c, x0 (ix2 r c) = ((a 0 r c : ℝ) : EReal))
    (h1 : ∀ r c, x1 (ix2 r c) = ((a 1 r c : ℝ) : EReal)) (h2 : ∀ r c, x2 (ix2 r c) = ((a 2 r c : ℝ) : EReal))
    (hl : ∀ r, (lab (ix1 r)).toInt = (((ℓ r).val : ℕ) : Int)) (t : Fin 16) :
    tileEnt x0 x1 x2 lab t
      = ((∑ q : Fin 1024, (Real.H (a 0 (rowAt t q)) + Real.H (a 1 (rowAt t q)) + Real.H (a 2 (rowAt t q)))
            / max (Real.cnt ℓ (ℓ (rowAt t q))) 1 : ℝ) : EReal) := by
  unfold tileEnt blkEnt
  rw [coe_sum]
  refine Finset.sum_congr rfl (fun q _ => ?_)
  have hq : lblkOf lab t (ix2 q 0) = lab (ix1 (rowAt t q)) := rfl
  rw [hq, rowCount_coe ℓ lab hl, brow_blkOf a 0 x0 h0, brow_blkOf a 1 x1 h1, brow_blkOf a 2 x2 h2, ent3_coe,
    div_coe_coe _ _ (max_one_ne_zero _)]

/-! ## The two gathered sums -/

/-- The accumulated S[k, c] is the real per-label sum. -/
private theorem mixSum_coe (h0 : ∀ r c, x0 (ix2 r c) = ((a 0 r c : ℝ) : EReal))
    (h1 : ∀ r c, x1 (ix2 r c) = ((a 1 r c : ℝ) : EReal)) (h2 : ∀ r c, x2 (ix2 r c) = ((a 2 r c : ℝ) : EReal))
    (hl : ∀ r, (lab (ix1 r)).toInt = (((ℓ r).val : ℕ) : Int)) (k c : Fin 1000) :
    mixSum x0 x1 x2 lab k c = ((Real.S a ℓ k c : ℝ) : EReal) := by
  unfold mixSum Real.S
  have hcore : ∀ core : Fin 2, coreMix x0 x1 x2 lab core k c
      = ((∑ j : Fin 8, ∑ q : Fin 1024, (if ℓ (rowAt (pointOf core j) q) = k
            then Real.P (a 0 (rowAt (pointOf core j) q)) c + Real.P (a 1 (rowAt (pointOf core j) q)) c
              + Real.P (a 2 (rowAt (pointOf core j) q)) c else 0) : ℝ) : EReal) := by
    intro core
    unfold coreMix
    rw [cZero_eq, zero_add, coe_sum]
    exact Finset.sum_congr rfl (fun j _ => tileMix_coe a ℓ x0 x1 x2 lab h0 h1 h2 hl (pointOf core j) k c)
  rw [cZero_eq, zero_add, Finset.sum_congr rfl (fun core _ => hcore core), ← coe_sum]
  exact congrArg (fun s : ℝ => (s : EReal))
    (sum_rows (fun r : Fin 16384 => if ℓ r = k then Real.P (a 0 r) c + Real.P (a 1 r) c + Real.P (a 2 r) c else 0))

/-- The accumulated Σ H / n is the real sum over all rows. -/
private theorem entSum_coe (h0 : ∀ r c, x0 (ix2 r c) = ((a 0 r c : ℝ) : EReal))
    (h1 : ∀ r c, x1 (ix2 r c) = ((a 1 r c : ℝ) : EReal)) (h2 : ∀ r c, x2 (ix2 r c) = ((a 2 r c : ℝ) : EReal))
    (hl : ∀ r, (lab (ix1 r)).toInt = (((ℓ r).val : ℕ) : Int)) :
    entSum x0 x1 x2 lab
      = ((∑ r : Fin 16384, (Real.H (a 0 r) + Real.H (a 1 r) + Real.H (a 2 r)) / max (Real.cnt ℓ (ℓ r)) 1 : ℝ) : EReal) := by
  unfold entSum
  have hcore : ∀ core : Fin 2, coreEnt x0 x1 x2 lab core
      = ((∑ j : Fin 8, ∑ q : Fin 1024,
            (Real.H (a 0 (rowAt (pointOf core j) q)) + Real.H (a 1 (rowAt (pointOf core j) q))
              + Real.H (a 2 (rowAt (pointOf core j) q))) / max (Real.cnt ℓ (ℓ (rowAt (pointOf core j) q))) 1 : ℝ) : EReal) := by
    intro core
    unfold coreEnt
    rw [cZero_eq, zero_add, coe_sum]
    exact Finset.sum_congr rfl (fun j _ => tileEnt_coe a ℓ x0 x1 x2 lab h0 h1 h2 hl (pointOf core j))
  rw [cZero_eq, zero_add, Finset.sum_congr rfl (fun core _ => hcore core), ← coe_sum]
  exact congrArg (fun s : ℝ => (s : EReal))
    (sum_rows (fun r : Fin 16384 => (Real.H (a 0 r) + Real.H (a 1 r) + Real.H (a 2 r)) / max (Real.cnt ℓ (ℓ r)) 1))

/-! ## The closing arithmetic -/

/-- The clipped count of label k. -/
private theorem clippedCount_coe (hl : ∀ r, (lab (ix1 r)).toInt = (((ℓ r).val : ℕ) : Int)) (k : Fin 1000) :
    clippedCount lab k = ((max (Real.cnt ℓ k) 1 : ℝ) : EReal) := by
  unfold clippedCount
  rw [countK_coe ℓ lab hl, max_cOne]

/-- The clamped log-mixture: the clamp keeps the argument of the logarithm at least ε, which is positive. -/
private theorem logMixK_coe (h0 : ∀ r c, x0 (ix2 r c) = ((a 0 r c : ℝ) : EReal))
    (h1 : ∀ r c, x1 (ix2 r c) = ((a 1 r c : ℝ) : EReal)) (h2 : ∀ r c, x2 (ix2 r c) = ((a 2 r c : ℝ) : EReal))
    (hl : ∀ r, (lab (ix1 r)).toInt = (((ℓ r).val : ℕ) : Int)) (k c : Fin 1000) :
    logMixK x0 x1 x2 lab k c = ((Real.lm a ℓ epsR k c : ℝ) : EReal) := by
  unfold logMixK mixK Real.lm
  rw [mixSum_coe a ℓ x0 x1 x2 lab h0 h1 h2 hl, clippedCount_coe ℓ lab hl, div_coe_coe _ _ (max_one_ne_zero _), cEps_eq,
    ← coe_max, Ideal.log_coe, if_neg (not_le.mpr (lt_of_lt_of_le epsR_pos (le_max_left _ _)))]

/-- The cross term. -/
private theorem cross_coe (h0 : ∀ r c, x0 (ix2 r c) = ((a 0 r c : ℝ) : EReal))
    (h1 : ∀ r c, x1 (ix2 r c) = ((a 1 r c : ℝ) : EReal)) (h2 : ∀ r c, x2 (ix2 r c) = ((a 2 r c : ℝ) : EReal))
    (hl : ∀ r, (lab (ix1 r)).toInt = (((ℓ r).val : ℕ) : Int)) :
    cross x0 x1 x2 lab
      = ((∑ k : Fin 1000, ∑ c : Fin 1000, Real.S a ℓ k c * (Real.lm a ℓ epsR k c / max (Real.cnt ℓ k) 1) : ℝ) : EReal) := by
  unfold cross
  rw [cZero_eq, zero_add, coe_sum]
  refine Finset.sum_congr rfl (fun k _ => ?_)
  rw [coe_sum]
  refine Finset.sum_congr rfl (fun c _ => ?_)
  rw [mixSum_coe a ℓ x0 x1 x2 lab h0 h1 h2 hl, logMixK_coe a ℓ x0 x1 x2 lab h0 h1 h2 hl, clippedCount_coe ℓ lab hl,
    div_coe_coe _ _ (max_one_ne_zero _), ← EReal.coe_mul]

end

theorem resK_coe (a : Fin 3 → Fin 16384 → Fin 1000 → ℝ) (ℓ : Fin 16384 → Fin 1000) (x0 x1 x2 : Logits) (lab : Labels)
    (h0 : ∀ r c, x0 (ix2 r c) = ((a 0 r c : ℝ) : EReal)) (h1 : ∀ r c, x1 (ix2 r c) = ((a 1 r c : ℝ) : EReal))
    (h2 : ∀ r c, x2 (ix2 r c) = ((a 2 r c : ℝ) : EReal)) (hl : ∀ r, (lab (ix1 r)).toInt = (((ℓ r).val : ℕ) : Int)) :
    resK x0 x1 x2 lab = ((Real.RK a ℓ epsR : ℝ) : EReal) := by
  unfold resK
  rw [entSum_coe a ℓ x0 x1 x2 lab h0 h1 h2 hl, cross_coe a ℓ x0 x1 x2 lab h0 h1 h2 hl, ← EReal.coe_sub, cThousand_eq,
    div_coe_coe _ _ (by norm_num)]
  rfl

end SupJsd

end
-- ==== Proof.RefReal.lean ====
/-
  On finite logits and labels in range the second program's value is the coercion of the real loss taken row by row.
-/
import proofs.«417588_j592705487350_3_alg».proof.Proof.RowFacts

noncomputable section

namespace SupJsd

open Idealize.ShloMosaic Idealize.ShloMosaic.ValueIdx
open scoped BigOperators

/-! ## Stacked rows as pairs (array, row) -/

/-- A stacked row is the pair of its array and of its row within that array: q = 16384 · v + r. -/
private def stackEquiv : Fin 49152 ≃ Fin 3 × Fin 16384 where
  toFun q := (viewOf q, rowOf q)
  invFun p := ⟨p.1.val * 16384 + p.2.val, by have := p.1.isLt; have := p.2.isLt; omega⟩
  left_inv q := by
    apply Fin.ext
    show q.val / 16384 * 16384 + q.val % 16384 = q.val
    omega
  right_inv p := by
    obtain ⟨v, r⟩ := p
    have hr := r.isLt
    apply Prod.ext
    · apply Fin.ext
      show (v.val * 16384 + r.val) / 16384 = v.val
      omega
    · apply Fin.ext
      show (v.val * 16384 + r.val) % 16384 = r.val
      omega

/-- The coercion of reals into extended reals is monotone, so it commutes with max. -/
private theorem coe_max' (x y : ℝ) : ((max x y : ℝ) : EReal) = max (x : EReal) (y : EReal) :=
  EReal.coe_strictMono.monotone.map_max

/-- A sum over the stacked rows is the double sum over arrays and rows. -/
private theorem sum_stack {M : Type*} [AddCommMonoid M] (f : Fin 3 → Fin 16384 → M) :
    ∑ q : Fin 49152, f (viewOf q) (rowOf q) = ∑ v : Fin 3, ∑ r : Fin 16384, f v r := by
  rw [← Fintype.sum_prod_type']
  exact Fintype.sum_equiv stackEquiv _ _ (fun _ => rfl)

section
variable (a : Fin 3 → Fin 16384 → Fin 1000 → ℝ) (ℓ : Fin 16384 → Fin 1000) (x0 x1 x2 : Logits) (lab : Labels)

/-! ## One stacked row -/

/-- Row r of array v is the row of real logits a v r. -/
private theorem row_stack (h0 : ∀ r c, x0 (ix2 r c) = ((a 0 r c : ℝ) : EReal))
    (h1 : ∀ r c, x1 (ix2 r c) = ((a 1 r c : ℝ) : EReal)) (h2 : ∀ r c, x2 (ix2 r c) = ((a 2 r c : ℝ) : EReal))
    (v : Fin 3) (r : Fin 16384) : row (![x0, x1, x2] v) r = fun c => ((a v r c : ℝ) : EReal) := by
  funext c
  fin_cases v
  · exact h0 r c
  · exact h1 r c
  · exact h2 r c

/-- The stacked probabilities are the real softmax. -/
private theorem probs_coe (h0 : ∀ r c, x0 (ix2 r c) = ((a 0 r c : ℝ) : EReal))
    (h1 : ∀ r c, x1 (ix2 r c) = ((a 1 r c : ℝ) : EReal)) (h2 : ∀ r c, x2 (ix2 r c) = ((a 2 r c : ℝ) : EReal))
    (q : Fin 49152) (c : Fin 1000) :
    probs x0 x1 x2 q c = ((Real.P (a (viewOf q) (rowOf q)) c : ℝ) : EReal) := by
  unfold probs
  rw [row_stack a x0 x1 x2 h0 h1 h2]
  exact probR_coe _ c

/-! ## The labels -/

/-- A label word names class k exactly when the real label is k. -/
private theorem label_iff (hl : ∀ r, (lab (ix1 r)).toInt = (((ℓ r).val : ℕ) : Int)) (r : Fin 16384) (k : Fin 1000) :
    (lab (ix1 r)).toInt = (k.val : Int) ↔ ℓ r = k := by
  rw [hl r]
  constructor
  · intro h; exact Fin.ext (by exact_mod_cast h)
  · rintro rfl; rfl

/-- A label word in range is not wrapped and not clamped: the table row it reads is the label itself. -/
private theorem gatherRow_label (hl : ∀ r, (lab (ix1 r)).toInt = (((ℓ r).val : ℕ) : Int)) (r : Fin 16384) :
    gatherRow (lab (ix1 r)) = ℓ r := by
  have h := hl r
  have hlt := (ℓ r).isLt
  have hw : wrapLabel (lab (ix1 r)) = lab (ix1 r) := by
    unfold wrapLabel
    rw [if_neg]
    rw [h]; omega
  apply Fin.ext
  show min (wrapLabel (lab (ix1 r))).toInt.toNat 999 = (ℓ r).val
  rw [hw, h, Int.toNat_natCast]
  omega

private theorem gatherRow_lab3 (hl : ∀ r, (lab (ix1 r)).toInt = (((ℓ r).val : ℕ) : Int)) (q : Fin 49152) :
    gatherRow (lab3 lab q) = ℓ (rowOf q) := gatherRow_label ℓ lab hl (rowOf q)

/-! ## Counts and per-label sums -/

/-- The count of stacked rows labelled k is three times the number of rows labelled k. -/
private theorem countR_coe (hl : ∀ r, (lab (ix1 r)).toInt = (((ℓ r).val : ℕ) : Int)) (k : Fin 1000) :
    countR lab k = ((Real.cnt ℓ k : ℝ) : EReal) := by
  have hq : ∀ q : Fin 49152, (if (lab3 lab q).toInt = (k.val : Int) then cOne else 0)
      = (((fun (_ : Fin 3) (r : Fin 16384) => if ℓ r = k then (1 : ℝ) else 0) (viewOf q) (rowOf q) : ℝ) : EReal) := by
    intro q
    show (if (lab (ix1 (rowOf q))).toInt = (k.val : Int) then cOne else 0)
      = ((if ℓ (rowOf q) = k then (1 : ℝ) else 0 : ℝ) : EReal)
    by_cases h : ℓ (rowOf q) = k
    · rw [if_pos ((label_iff ℓ lab hl _ k).mpr h), if_pos h, cOne_eq]
    · rw [if_neg (fun h' => h ((label_iff ℓ lab hl _ k).mp h')), if_neg h, EReal.coe_zero]
  unfold countR
  rw [cZero_eq, zero_add, Finset.sum_congr rfl (fun q _ => hq q), ← coe_sum,
    sum_stack (fun (_ : Fin 3) (r : Fin 16384) => if ℓ r = k then (1 : ℝ) else 0)]
  refine congrArg Real.toEReal ?_
  unfold Real.cnt
  rw [Finset.sum_const, Finset.card_univ, Fintype.card_fin, Finset.sum_boole, nsmul_eq_mul, Nat.cast_ofNat]

/-- The sum of the probabilities of the stacked rows labelled k is S[k, c]. -/
private theorem mixSumR_coe (h0 : ∀ r c, x0 (ix2 r c) = ((a 0 r c : ℝ) : EReal))
    (h1 : ∀ r c, x1 (ix2 r c) = ((a 1 r c : ℝ) : EReal)) (h2 : ∀ r c, x2 (ix2 r c) = ((a 2 r c : ℝ) : EReal))
    (hl : ∀ r, (lab (ix1 r)).toInt = (((ℓ r).val : ℕ) : Int)) (k c : Fin 1000) :
    mixSumR x0 x1 x2 lab k c = ((Real.S a ℓ k c : ℝ) : EReal) := by
  have hq : ∀ q : Fin 49152, (if (lab3 lab q).toInt = (k.val : Int) then probs x0 x1 x2 q c else 0)
      = (((fun (v : Fin 3) (r : Fin 16384) => if ℓ r = k then Real.P (a v r) c else 0) (viewOf q) (rowOf q) : ℝ)
          : EReal) := by
    intro q
    show (if (lab (ix1 (rowOf q))).toInt = (k.val : Int) then probs x0 x1 x2 q c else 0)
      = ((if ℓ (rowOf q) = k then Real.P (a (viewOf q) (rowOf q)) c else 0 : ℝ) : EReal)
    by_cases h : ℓ (rowOf q) = k
    · rw [if_pos ((label_iff ℓ lab hl _ k).mpr h), if_pos h, probs_coe a x0 x1 x2 h0 h1 h2]
    · rw [if_neg (fun h' => h ((label_iff ℓ lab hl _ k).mp h')), if_neg h, EReal.coe_zero]
  unfold mixSumR
  rw [cZero_eq, zero_add, Finset.sum_congr rfl (fun q _ => hq q), ← coe_sum,
    sum_stack (fun (v : Fin 3) (r : Fin 16384) => if ℓ r = k then Real.P (a v r) c else 0)]
  refine congrArg Real.toEReal ?_
  unfold Real.S
  rw [Fin.sum_univ_three, ← Finset.sum_add_distrib, ← Finset.sum_add_distrib]
  refine Finset.sum_congr rfl (fun r _ => ?_)
  by_cases h : ℓ r = k
  · simp only [if_pos h]
  · simp only [if_neg h, add_zero]

/-! ## The clamped log-mixture -/

private theorem logMixR_coe (h0 : ∀ r c, x0 (ix2 r c) = ((a 0 r c : ℝ) : EReal))
    (h1 : ∀ r c, x1 (ix2 r c) = ((a 1 r c : ℝ) : EReal)) (h2 : ∀ r c, x2 (ix2 r c) = ((a 2 r c : ℝ) : EReal))
    (hl : ∀ r, (lab (ix1 r)).toInt = (((ℓ r).val : ℕ) : Int)) (k c : Fin 1000) :
    logMixR x0 x1 x2 lab k c = ((Real.lm a ℓ epsR k c : ℝ) : EReal) := by
  have hm : max (Real.cnt ℓ k) 1 ≠ 0 := by
    have : (1 : ℝ) ≤ max (Real.cnt ℓ k) 1 := le_max_right _ _
    linarith
  have hmix : mixR x0 x1 x2 lab k c = ((Real.S a ℓ k c / max (Real.cnt ℓ k) 1 : ℝ) : EReal) := by
    unfold mixR
    rw [mixSumR_coe a ℓ x0 x1 x2 lab h0 h1 h2 hl, countR_coe ℓ lab hl, cOne_eq, ← coe_max',
      Ideal.div_coe hm, ← EReal.coe_mul, mul_one_div]
  have hpos : ¬ max epsR (Real.S a ℓ k c / max (Real.cnt ℓ k) 1) ≤ 0 := by
    have h1 : epsR ≤ max epsR (Real.S a ℓ k c / max (Real.cnt ℓ k) 1) := le_max_left _ _
    have h2 := epsR_pos
    linarith
  unfold logMixR
  rw [hmix, cEps_eq, ← coe_max', Ideal.log_coe, if_neg hpos]
  rfl

/-! ## One row's term, and the total -/

private theorem rowKl_coe (h0 : ∀ r c, x0 (ix2 r c) = ((a 0 r c : ℝ) : EReal))
    (h1 : ∀ r c, x1 (ix2 r c) = ((a 1 r c : ℝ) : EReal)) (h2 : ∀ r c, x2 (ix2 r c) = ((a 2 r c : ℝ) : EReal))
    (hl : ∀ r, (lab (ix1 r)).toInt = (((ℓ r).val : ℕ) : Int)) (q : Fin 49152) :
    rowKl x0 x1 x2 lab q
      = ((∑ c : Fin 1000, (Real.P (a (viewOf q) (rowOf q)) c * Real.LP (a (viewOf q) (rowOf q)) c
            - Real.P (a (viewOf q) (rowOf q)) c * Real.lm a ℓ epsR (ℓ (rowOf q)) c) : ℝ) : EReal) := by
  unfold rowKl
  rw [cZero_eq, zero_add, coe_sum]
  refine Finset.sum_congr rfl (fun c _ => ?_)
  rw [gatherRow_lab3 ℓ lab hl, probs_coe a x0 x1 x2 h0 h1 h2, xlogx_coe,
    logMixR_coe a ℓ x0 x1 x2 lab h0 h1 h2 hl, ← EReal.coe_mul, ← EReal.coe_sub]

/-- The term of row r of array v in the row-by-row loss. -/
private def rowTerm (v : Fin 3) (r : Fin 16384) : ℝ :=
  ((∑ c : Fin 1000, (Real.P (a v r) c * Real.LP (a v r) c - Real.P (a v r) c * Real.lm a ℓ epsR (ℓ r) c))
    / 1000) / Real.cnt ℓ (ℓ r)

/-- Every row lies among the rows carrying its own label, so its label's count is positive. -/
private theorem cnt_label_pos (r : Fin 16384) : 0 < Real.cnt ℓ (ℓ r) := by
  unfold Real.cnt
  have h : 0 < (Finset.univ.filter fun r' : Fin 16384 => ℓ r' = ℓ r).card :=
    Finset.card_pos.mpr ⟨r, by simp⟩
  have h' : (0 : ℝ) < ((Finset.univ.filter fun r' : Fin 16384 => ℓ r' = ℓ r).card : ℝ) := by exact_mod_cast h
  linarith

private theorem perRow_coe (h0 : ∀ r c, x0 (ix2 r c) = ((a 0 r c : ℝ) : EReal))
    (h1 : ∀ r c, x1 (ix2 r c) = ((a 1 r c : ℝ) : EReal)) (h2 : ∀ r c, x2 (ix2 r c) = ((a 2 r c : ℝ) : EReal))
    (hl : ∀ r, (lab (ix1 r)).toInt = (((ℓ r).val : ℕ) : Int)) (q : Fin 49152) :
    perRow x0 x1 x2 lab q = ((rowTerm a ℓ (viewOf q) (rowOf q) : ℝ) : EReal) := by
  unfold perRow rowTerm
  rw [gatherRow_lab3 ℓ lab hl, rowKl_coe a ℓ x0 x1 x2 lab h0 h1 h2 hl, cThousand_eq, countR_coe ℓ lab hl,
    Ideal.div_coe (by norm_num : (1000 : ℝ) ≠ 0), Ideal.div_coe (ne_of_gt (cnt_label_pos ℓ (rowOf q))),
    ← EReal.coe_mul, ← EReal.coe_mul, mul_one_div, mul_one_div]

end

theorem resR_coe (a : Fin 3 → Fin 16384 → Fin 1000 → ℝ) (ℓ : Fin 16384 → Fin 1000) (x0 x1 x2 : Logits) (lab : Labels)
    (h0 : ∀ r c, x0 (ix2 r c) = ((a 0 r c : ℝ) : EReal)) (h1 : ∀ r c, x1 (ix2 r c) = ((a 1 r c : ℝ) : EReal))
    (h2 : ∀ r c, x2 (ix2 r c) = ((a 2 r c : ℝ) : EReal)) (hl : ∀ r, (lab (ix1 r)).toInt = (((ℓ r).val : ℕ) : Int)) :
    resR x0 x1 x2 lab = ((Real.RR a ℓ epsR : ℝ) : EReal) := by
  unfold resR
  rw [cZero_eq, zero_add, Finset.sum_congr rfl (fun q _ => perRow_coe a ℓ x0 x1 x2 lab h0 h1 h2 hl q), ← coe_sum,
    sum_stack (rowTerm a ℓ)]
  rfl

end SupJsd

end
-- ==== Proof.RealIdentity.lean ====
/-
  Over the reals the two arrangements of the loss agree: summing a row quantity weighted by a function of the row's
  label is summing, label by label, that function times the label's rows' total.
-/
import proofs.«417588_j592705487350_3_alg».proof.Proof.SpecReal
import Mathlib.Algebra.BigOperators.Field
import Mathlib.Algebra.BigOperators.Fin
import Mathlib.Algebra.Order.BigOperators.Group.Finset
import Mathlib.Tactic.Ring
import Mathlib.Tactic.Linarith

noncomputable section

namespace SupJsd.Real

open scoped BigOperators

/-- A row lies in the fibre of its own label, so that fibre has at least one element and the label's count
    n = 3 · (fibre size) is at least 3, in particular at least 1. -/
private theorem one_le_cnt (ℓ : Fin 16384 → Fin 1000) (r : Fin 16384) : 1 ≤ cnt ℓ (ℓ r) := by
  unfold cnt
  have hpos : 0 < (Finset.univ.filter fun r' : Fin 16384 => ℓ r' = ℓ r).card :=
    Finset.card_pos.mpr ⟨r, Finset.mem_filter.mpr ⟨Finset.mem_univ r, rfl⟩⟩
  have hone : (1 : ℝ) ≤ ((Finset.univ.filter fun r' : Fin 16384 => ℓ r' = ℓ r).card : ℝ) := by
    exact_mod_cast hpos
  linarith

/-- Hence the clamp `max n 1` does nothing at the label of an actual row. -/
private theorem max_cnt (ℓ : Fin 16384 → Fin 1000) (r : Fin 16384) :
    max (cnt ℓ (ℓ r)) 1 = cnt ℓ (ℓ r) :=
  max_eq_left (one_le_cnt ℓ r)

/-- Regrouping by label.  For any row quantity `p r c` and any label weight `g k c`:
    Σ_k Σ_c (Σ_{r : ℓ r = k} p r c) · g k c = Σ_r Σ_c p r c · g (ℓ r) c.
    The fibre sum is written with an indicator, so the weight moves inside it, the three sums are
    exchanged to put the sum over k innermost, and that sum keeps only the term k = ℓ r.
    Labels with an empty fibre contribute nothing on either side, whatever g is there. -/
private theorem regroup (ℓ : Fin 16384 → Fin 1000) (p : Fin 16384 → Fin 1000 → ℝ)
    (g : Fin 1000 → Fin 1000 → ℝ) :
    ∑ k : Fin 1000, ∑ c : Fin 1000, (∑ r : Fin 16384, if ℓ r = k then p r c else 0) * g k c
      = ∑ r : Fin 16384, ∑ c : Fin 1000, p r c * g (ℓ r) c := by
  have hin : ∀ k c : Fin 1000, (∑ r : Fin 16384, if ℓ r = k then p r c else 0) * g k c
      = ∑ r : Fin 16384, if ℓ r = k then p r c * g k c else 0 := by
    intro k c
    rw [Finset.sum_mul]
    refine Finset.sum_congr rfl fun r _ => ?_
    rw [ite_mul, zero_mul]
  calc ∑ k : Fin 1000, ∑ c : Fin 1000, (∑ r : Fin 16384, if ℓ r = k then p r c else 0) * g k c
      = ∑ k : Fin 1000, ∑ c : Fin 1000, ∑ r : Fin 16384, if ℓ r = k then p r c * g k c else 0 :=
        Finset.sum_congr rfl fun k _ => Finset.sum_congr rfl fun c _ => hin k c
    _ = ∑ k : Fin 1000, ∑ r : Fin 16384, ∑ c : Fin 1000, if ℓ r = k then p r c * g k c else 0 :=
        Finset.sum_congr rfl fun k _ => Finset.sum_comm
    _ = ∑ r : Fin 16384, ∑ k : Fin 1000, ∑ c : Fin 1000, if ℓ r = k then p r c * g k c else 0 :=
        Finset.sum_comm
    _ = ∑ r : Fin 16384, ∑ c : Fin 1000, ∑ k : Fin 1000, if ℓ r = k then p r c * g k c else 0 :=
        Finset.sum_congr rfl fun r _ => Finset.sum_comm
    _ = ∑ r : Fin 16384, ∑ c : Fin 1000, p r c * g (ℓ r) c :=
        Finset.sum_congr rfl fun r _ => Finset.sum_congr rfl fun c _ => by
          rw [Finset.sum_ite_eq, if_pos (Finset.mem_univ _)]

/-- One row.  With n the row's count, p_v the three softmax rows, q_v the three log-softmax rows and L the row's
    log-mixture: ((Σ_v Σ_c p_v q_v)/n − Σ_c (p_0+p_1+p_2)·(L/n))/1000 = Σ_v ((Σ_c (p_v q_v − p_v L))/1000)/n.
    Division is multiplication by the inverse, so this is linear algebra of finite sums; n ≠ 0 is not needed. -/
private theorem row_identity (n : ℝ) (p0 p1 p2 q0 q1 q2 L : Fin 1000 → ℝ) :
    (((∑ c : Fin 1000, p0 c * q0 c) + (∑ c : Fin 1000, p1 c * q1 c) + (∑ c : Fin 1000, p2 c * q2 c)) / n
        - ∑ c : Fin 1000, (p0 c + p1 c + p2 c) * (L c / n)) / 1000
      = (∑ c : Fin 1000, (p0 c * q0 c - p0 c * L c)) / 1000 / n
        + (∑ c : Fin 1000, (p1 c * q1 c - p1 c * L c)) / 1000 / n
        + (∑ c : Fin 1000, (p2 c * q2 c - p2 c * L c)) / 1000 / n := by
  have hcross : ∑ c : Fin 1000, (p0 c + p1 c + p2 c) * (L c / n)
      = ((∑ c : Fin 1000, p0 c * L c) + (∑ c : Fin 1000, p1 c * L c) + (∑ c : Fin 1000, p2 c * L c)) / n := by
    rw [← Finset.sum_add_distrib, ← Finset.sum_add_distrib, Finset.sum_div]
    refine Finset.sum_congr rfl fun c _ => ?_
    ring
  rw [hcross, Finset.sum_sub_distrib, Finset.sum_sub_distrib, Finset.sum_sub_distrib]
  ring

theorem RK_eq_RR (a : Fin 3 → Fin 16384 → Fin 1000 → ℝ) (ℓ : Fin 16384 → Fin 1000) (ε : ℝ) :
    RK a ℓ ε = RR a ℓ ε := by
  -- the cross term of the per-label arrangement, regrouped row by row; at a row's label the clamp disappears
  have hcross : ∑ k : Fin 1000, ∑ c : Fin 1000, S a ℓ k c * (lm a ℓ ε k c / max (cnt ℓ k) 1)
      = ∑ r : Fin 16384, ∑ c : Fin 1000,
          (P (a 0 r) c + P (a 1 r) c + P (a 2 r) c) * (lm a ℓ ε (ℓ r) c / cnt ℓ (ℓ r)) := by
    have h := regroup ℓ (fun r c => P (a 0 r) c + P (a 1 r) c + P (a 2 r) c)
      (fun k c => lm a ℓ ε k c / max (cnt ℓ k) 1)
    refine h.trans ?_
    refine Finset.sum_congr rfl fun r _ => Finset.sum_congr rfl fun c _ => ?_
    rw [max_cnt]
  unfold RK RR
  rw [hcross, Fin.sum_univ_three, ← Finset.sum_sub_distrib, Finset.sum_div,
    ← Finset.sum_add_distrib, ← Finset.sum_add_distrib]
  refine Finset.sum_congr rfl fun r _ => ?_
  rw [max_cnt]
  unfold H
  exact row_identity _ _ _ _ _ _ _ _

end SupJsd.Real

end
-- ==== Proof.SpecEq.lean ====
/-
  The two programs' values agree on finite logits and labels in range: both are the coercion of one real number.
-/
import proofs.«417588_j592705487350_3_alg».proof.Proof.KernelReal
import proofs.«417588_j592705487350_3_alg».proof.Proof.RefReal
import proofs.«417588_j592705487350_3_alg».proof.Proof.RealIdentity

noncomputable section

namespace SupJsd

open Idealize.ShloMosaic Idealize.ShloMosaic.ValueIdx
open scoped BigOperators

theorem resK_eq_resR (x0 x1 x2 : Logits) (lab : Labels)
    (h0 : ∀ i, ∃ a : ℝ, x0 i = (a : EReal)) (h1 : ∀ i, ∃ a : ℝ, x1 i = (a : EReal)) (h2 : ∀ i, ∃ a : ℝ, x2 i = (a : EReal))
    (hl : ∀ i, 0 ≤ (lab i).toInt ∧ (lab i).toInt < 1000) :
    resK x0 x1 x2 lab = resR x0 x1 x2 lab := by
  choose a0 ha0 using h0
  choose a1 ha1 using h1
  choose a2 ha2 using h2
  let a : Fin 3 → Fin 16384 → Fin 1000 → ℝ := fun v r c => (![a0, a1, a2] v) (ix2 r c)
  let ℓ : Fin 16384 → Fin 1000 := fun r => ⟨(lab (ix1 r)).toInt.toNat, by have := hl (ix1 r); omega⟩
  have hℓ : ∀ r, (lab (ix1 r)).toInt = (((ℓ r).val : ℕ) : Int) := fun r => by
    have := hl (ix1 r)
    show _ = (((lab (ix1 r)).toInt.toNat : ℕ) : Int)
    omega
  rw [resK_coe a ℓ x0 x1 x2 lab (fun r c => ha0 _) (fun r c => ha1 _) (fun r c => ha2 _) hℓ,
    resR_coe a ℓ x0 x1 x2 lab (fun r c => ha0 _) (fun r c => ha1 _) (fun r c => ha2 _) hℓ, Real.RK_eq_RR]

end SupJsd

end
-- ==== Proof.PreDecode.lean ====
/-
  What the precondition says of the arguments: every logit is a real number, and every label lies in [0, 1000).
-/
import proofs.«417588_j592705487350_3_alg».proof.Pre_finite_inputs
import proofs.«417588_j592705487350_3_alg».proof.Proof.Gen.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

namespace Cert.Pre_finite_inputs.Decode

open Idealize.ShloMosaic Idealize.ShloMosaic.ValueIdx Cert.Pre_finite_inputs

variable [Cert.Pre_finite_inputs.Facts]

/-- The scalar shape has exactly one index. -/
private instance : Subsingleton S_.Idx := ⟨fun _ _ => funext fun d => d.elim0⟩

/-- The pattern with all exponent bits set and no fraction bit denotes +∞. -/
private theorem inf_pat : Ideal.ofBits .f32 0x7F800000#32 = (⊤ : EReal) := by
  simp [Ideal.ofBits, Ideal.ieee]

/-- An extended real whose absolute value max(a, −a) lies strictly below +∞ is a real number. -/
private theorem real_of_abs_lt_top (a : EReal) (h : max a (-a) < ⊤) : ∃ r : ℝ, a = ((r : ℝ) : EReal) := by
  induction a using EReal.rec with
  | bot => simp at h
  | top => simp at h
  | coe r => exact ⟨r, rfl⟩

/-- If the conjunction over all entries of |x| < +∞ holds, every entry of x is a real number. -/
private theorem finite_of_all (x : FVec Ideal S16384x1000 .f32) (c : IVec S_ 1)
    (e : Host.reduce IntOp.andi
          (cmpf .olt (Host.absf x)
            (broadcastInDim S16384x1000 ![] Facts.bcast_S_S16384x1000 (constant S_ .f32 0x7F800000#32)))
          c Facts.reducesTo_S16384x1000_S_d0_1 Facts.h_S_ ix0 = 1#1) :
    ∀ i, ∃ a : ℝ, x i = ((a : ℝ) : EReal) := by
  intro i
  have h1 := Host.reduce_andi_all _ _ _ _ _ e i
  have h2 : Ideal.cmp .olt (max (x i) (-(x i))) (Ideal.ofBits .f32 0x7F800000#32) = 1#1 := h1
  rw [inf_pat] at h2
  simp only [Ideal.cmp, StableHlo.Predicate.ofBool_eq_one_iff, decide_eq_true_eq] at h2
  exact real_of_abs_lt_top _ h2

/-- If the conjunction over all labels of a signed comparison against a broadcast constant holds, it holds at each label. -/
private theorem cmp_of_all (p : CmpIPredicate) (k : BitVec 32) (x : IVec S16384 32) (c : IVec S_ 1)
    (e : Host.reduce IntOp.andi
          (cmpi p x (broadcastInDim S16384 ![] Facts.bcast_S_S16384 (constantI S_ 32 k)))
          c Facts.reducesTo_S16384_S_d0 Facts.h_S_ ix0 = 1#1) :
    ∀ i, IntOp.cmpi p (x i) k = 1#1 := by
  intro i
  exact Host.reduce_andi_all _ _ _ _ _ e i

theorem of_pre (x0 x1 x2 : FVec Ideal S16384x1000 .f32) (x3 : IVec S16384 32)
    (h : Cert.Pre_finite_inputs.fn (F := Ideal) x0 x1 x2 x3 = fun _ => 1#1) :
    (∀ i, ∃ a : ℝ, x0 i = ((a : ℝ) : EReal)) ∧ (∀ i, ∃ a : ℝ, x1 i = ((a : ℝ) : EReal)) ∧ (∀ i, ∃ a : ℝ, x2 i = ((a : ℝ) : EReal))
      ∧ ∀ i, 0 ≤ (x3 i).toInt ∧ (x3 i).toInt < 1000 := by
  have z : (0#32 : BitVec 32).toInt = 0 := by decide
  have k : (1000#32 : BitVec 32).toInt = 1000 := by decide
  have h0 := congrFun h ix0
  dsimp only [fn, fn_part1] at h0
  -- the result is a conjunction of five scalar bits: peel them off from the outside in
  obtain ⟨h1, e4⟩ := IntOp.andi_eq_one.1 (show IntOp.andi _ _ = 1#1 from h0)
  obtain ⟨h2, e3⟩ := IntOp.andi_eq_one.1 (show IntOp.andi _ _ = 1#1 from h1)
  obtain ⟨h3, e2⟩ := IntOp.andi_eq_one.1 (show IntOp.andi _ _ = 1#1 from h2)
  obtain ⟨e0, e1⟩ := IntOp.andi_eq_one.1 (show IntOp.andi _ _ = 1#1 from h3)
  refine ⟨finite_of_all x0 _ e0, finite_of_all x1 _ e1, finite_of_all x2 _ e2, fun i => ⟨?_, ?_⟩⟩
  · have c := IntOp.cmpi_sge.1 (cmp_of_all .sge 0#32 x3 _ e3 i)
    rwa [z] at c
  · have c := IntOp.cmpi_slt.1 (cmp_of_all .slt 1000#32 x3 _ e4 i)
    rwa [k] at c

end Cert.Pre_finite_inputs.Decode

end
-- ==== Proof.LibRowIndex.lean ====
/-
  Reading a row gather and a row scatter-add at an index.

  `x[idx]` over the rows of a matrix `x : [N, C]` at a column of row numbers `idx : [n, 1]` is the gather whose
  result row `i` is row `idx[i]` of `x`, the number read signed and clamped into `[0, N - 1]`.
  `segment_sum` of the rows of `upd : [n, C]` by the row numbers `idx : [n, 1]` into `x : [R, C]` is the
  scatter with an add body: at the ideal instance element `(r, c)` of the result is `x (r, c)` plus the sum over
  the update rows `i` whose number, read signed and NOT clamped, is `r`, of `upd (i, c)`; a row whose number is
  outside `[0, R)` contributes nowhere.
-/
import Idealize.ShloMosaic.PureOps.Ideal
import Idealize.ShloMosaic.Lib.ValueIdx

noncomputable section

namespace Idealize.ShloMosaic.RowIndex

open Idealize.ShloMosaic Idealize.ShloMosaic.ValueIdx

/-- The dimension numbers of a gather of whole rows: operand `[N, C]`, row numbers `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Result element `(i, j)` of a row gather is the operand at row `idx[i, 0]` (signed, clamped), column `j`. -/
theorem gather_rows_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (i : Fin n) (j : Fin C) :
    Host.gather (rowGatherDims N C n wf) x idx (ix2 i j)
      = x (ix2 (⟨min (idx (ix2 i (0 : Fin 1))).toInt.toNat (N - 1), by omega⟩ : Fin N) j) := by
  unfold Host.gather
  congr 1
  funext a
  refine Fin.ext ?_
  match a with
  | ⟨0, _⟩ =>
    -- the row axis is collapsed and named by the start index map: the clamped row number, no batch or offset part
    show (rowGatherDims N C n wf).start (ix2 i j) idx 0 + (rowGatherDims N C n wf).batchCoord (ix2 i j) 0
        + (rowGatherDims N C n wf).offCoord (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 i j) ⟨List.idxOf (0 : Fin 2) (rowGatherDims N C n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    -- the column axis is the one offset axis: the slice starts at 0 and the offset is the result's column
    show (rowGatherDims N C n wf).start (ix2 i j) idx 1 + (rowGatherDims N C n wf).batchCoord (ix2 i j) 1
        + (rowGatherDims N C n wf).offCoord (ix2 i j) 1 = j.val
    rw [GatherDims.batchCoord_eq_zero _ _ _ List.not_mem_nil]
    have hs : (rowGatherDims N C n wf).start (ix2 i j) idx 1 = 0 := by
      unfold GatherDims.start
      rw [dif_neg (show (1 : Fin 2) ∉ ([0] : List (Fin 2)) by decide)]
    have ho : (rowGatherDims N C n wf).offCoord (ix2 i j) 1 = j.val := by
      unfold GatherDims.offCoord
      rw [dif_pos ((GatherDims.mem_sKept _ _).2 ⟨show (1 : Fin 2) ∉ ([0] : List (Fin 2)) by decide, List.not_mem_nil⟩)]
      rfl
    rw [hs, ho]; omega

/-- The dimension numbers of a scatter of whole rows: operand `[R, C]`, row numbers `[n, 1]`, updates `[n, C]`. -/
abbrev rowScatterDims (R C n : Nat)
    (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

/-- On the row axis the window of update element `(i, c')` starts at row `i`'s number, read signed. -/
theorem start_rows_zero {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 0 = (idx (ix2 i (0 : Fin 1))).toInt := by
  unfold ScatterDims.start
  rw [dif_pos (show (0 : Fin 2) ∈ (rowScatterDims R C n wf).scatterDimsToOperandDims from List.mem_singleton.mpr rfl)]
  have hsi : (rowScatterDims R C n wf).siIdx (ix2 i c')
      ⟨List.idxOf (0 : Fin 2) (rowScatterDims R C n wf).scatterDimsToOperandDims,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]

/-- On the column axis, which the scatter indices do not name, the window starts at `0`. -/
theorem start_rows_one {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 1 = 0 := by
  unfold ScatterDims.start
  rw [dif_neg (show (1 : Fin 2) ∉ ([0] : List (Fin 2)) by decide)]

/-- The row axis is inserted: the window coordinate there is `0`. -/
theorem window_rows_zero {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 0 = 0 := by
  unfold ScatterDims.window
  have h : (0 : Fin 2) ∉ (rowScatterDims R C n wf).sKept := by
    show (0 : Fin 2) ∉ (List.finRange 2).filter (· ∉ ([0] : List (Fin 2)))
    decide
  rw [dif_neg h]

/-- The column axis is the one window axis: the window coordinate there is the update's column. -/
theorem window_rows_one {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 1 = c'.val := by
  unfold ScatterDims.window
  have h : (1 : Fin 2) ∈ (rowScatterDims R C n wf).sKept := by
    show (1 : Fin 2) ∈ (List.finRange 2).filter (· ∉ ([0] : List (Fin 2)))
    decide
  rw [dif_pos h]
  rfl

/-- Where update element `(i, c')` of a row scatter lands: at `(r, c)` exactly when row `i`'s number is `r` and
    `c' = c`. -/
theorem resultIdx_rows_iff {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) (r : Fin R) (c : Fin C) :
    (rowScatterDims R C n wf).resultIdx? (ix2 i c') idx = some (ix2 r c)
      ↔ (idx (ix2 i (0 : Fin 1))).toInt = (r.val : Int) ∧ c' = c := by
  have hs0 := start_rows_zero wf idx i c'
  have hs1 := start_rows_one wf idx i c'
  have hw0 := window_rows_zero wf i c'
  have hw1 := window_rows_one wf i c'
  have hr := r.isLt
  have hc := c.isLt
  have hc' := c'.isLt
  unfold ScatterDims.resultIdx?
  by_cases h : ∀ a : Fin 2, 0 ≤ (rowScatterDims R C n wf).start (ix2 i c') idx a + (rowScatterDims R C n wf).window (ix2 i c') a
      ∧ (rowScatterDims R C n wf).start (ix2 i c') idx a + (rowScatterDims R C n wf).window (ix2 i c') a
          < ((⟨2, ![R, C]⟩ : Shape).size a : Int)
  · -- the window is inside the operand: the landing index is (row number + 0, 0 + c')
    rw [dif_pos h, Option.some.injEq]
    have h0 := h 0
    have h1 := h 1
    rw [hs0, hw0] at h0
    rw [hs1, hw1] at h1
    constructor
    · intro hEq
      have e0 : ((rowScatterDims R C n wf).start (ix2 i c') idx 0 + (rowScatterDims R C n wf).window (ix2 i c') 0).toNat = r.val :=
        congrArg Fin.val (congrFun hEq 0)
      have e1 : ((rowScatterDims R C n wf).start (ix2 i c') idx 1 + (rowScatterDims R C n wf).window (ix2 i c') 1).toNat = c.val :=
        congrArg Fin.val (congrFun hEq 1)
      rw [hs0, hw0] at e0
      rw [hs1, hw1] at e1
      exact ⟨by omega, Fin.ext (by omega)⟩
    · rintro ⟨hrow, hcol⟩
      funext a
      refine Fin.ext ?_
      match a with
      | ⟨0, _⟩ =>
        show ((rowScatterDims R C n wf).start (ix2 i c') idx 0 + (rowScatterDims R C n wf).window (ix2 i c') 0).toNat = r.val
        rw [hs0, hw0]; omega
      | ⟨1, _⟩ =>
        show ((rowScatterDims R C n wf).start (ix2 i c') idx 1 + (rowScatterDims R C n wf).window (ix2 i c') 1).toNat = c.val
        rw [hs1, hw1, hcol]; omega
  · -- the window leaves the operand: the update is dropped, and a row number equal to some `r < R` would be inside
    rw [dif_neg h]
    constructor
    · intro hEq; cases hEq
    · rintro ⟨hrow, hcol⟩
      exfalso; apply h
      intro a
      match a with
      | ⟨0, _⟩ =>
        show 0 ≤ (rowScatterDims R C n wf).start (ix2 i c') idx 0 + (rowScatterDims R C n wf).window (ix2 i c') 0
          ∧ (rowScatterDims R C n wf).start (ix2 i c') idx 0 + (rowScatterDims R C n wf).window (ix2 i c') 0 < (R : Int)
        rw [hs0, hw0]; omega
      | ⟨1, _⟩ =>
        show 0 ≤ (rowScatterDims R C n wf).start (ix2 i c') idx 1 + (rowScatterDims R C n wf).window (ix2 i c') 1
          ∧ (rowScatterDims R C n wf).start (ix2 i c') idx 1 + (rowScatterDims R C n wf).window (ix2 i c') 1 < (C : Int)
        rw [hs1, hw1]; omega

/-- Element `(r, c)` of a row scatter-add at the ideal instance: the operand's element plus the updates of the rows
    numbered `r`. -/
theorem scatterAdd_rows_apply {R C n w : Nat}
    (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (c : Fin C) :
    Ideal.hostScatterAdd (rowScatterDims R C n wf) x idx upd (ix2 r c)
      = x (ix2 r c) + ∑ i : Fin n, if (idx (ix2 i (0 : Fin 1))).toInt = (r.val : Int) then upd (ix2 i c) else 0 := by
  unfold Ideal.hostScatterAdd
  show _ + _ = _ + _
  congr 1
  rw [Finset.sum_filter, sum_idx2]
  refine Finset.sum_congr rfl fun i _ => ?_
  -- row by row: a row numbered `r` contributes its column-`c` element alone, any other row nothing
  by_cases hrow : (idx (ix2 i (0 : Fin 1))).toInt = (r.val : Int)
  · rw [if_pos hrow, Finset.sum_eq_single c]
    · rw [if_pos ((resultIdx_rows_iff wf idx i c r c).2 ⟨hrow, rfl⟩)]
    · intro c' _ hne
      rw [if_neg fun h => hne ((resultIdx_rows_iff wf idx i c' r c).1 h).2]
    · intro h; exact absurd (Finset.mem_univ c) h
  · rw [if_neg hrow]
    refine Finset.sum_eq_zero fun c' _ => ?_
    rw [if_neg fun h => hrow ((resultIdx_rows_iff wf idx i c' r c).1 h).1]

end Idealize.ShloMosaic.RowIndex

end
-- ==== Proof.LibStack3.lean ====
/-
  Two layout readings used where per-type arrays are stacked: three N × K matrices, each given a leading unit axis and
  concatenated along it, read at (t, n, k) give the t-th matrix at (n, k); and a 3 × K matrix reshaped to 3 × 1 × K,
  read at (t, 0, k), gives the matrix at (t, k).
-/
import Idealize.ShloMosaic.Lib.Pipeline.Value
import Idealize.ShloMosaic.Lib.ValueIdx

noncomputable section

namespace Idealize.ShloMosaic

open Idealize.ShloMosaic.ValueIdx

/-- A matrix given a leading unit axis, read at an index: the matrix at the two trailing coordinates. -/
theorem lead_apply {α : Type} {N K : Nat}
    (hb : (⟨2, ![N, K]⟩ : Shape).BroadcastsInDim ⟨3, ![1, N, K]⟩ ![1, 2]) (x : (⟨2, ![N, K]⟩ : Shape).Idx → α)
    (n : Fin N) (k : Fin K) :
    broadcastInDim ⟨3, ![1, N, K]⟩ ![1, 2] hb x (ix3 0 n k) = x (ix2 n k) := by
  refine broadcastInDim_apply _ hb x _ (ix2 n k) fun a => ?_
  match a with
  | ⟨0, _⟩ =>
    show n.val = if N = 1 then 0 else n.val
    split
    · have := n.isLt; omega
    · rfl
  | ⟨1, _⟩ =>
    show k.val = if K = 1 then 0 else k.val
    split
    · have := k.isLt; omega
    · rfl

/-- Three matrices stacked along a new leading axis, read at an index: the matrix the leading coordinate names, at the
    two trailing coordinates. -/
theorem stack3_apply {α : Type} {N K : Nat}
    (hb : (⟨2, ![N, K]⟩ : Shape).BroadcastsInDim ⟨3, ![1, N, K]⟩ ![1, 2])
    (hc : Shape.Concatenates [(⟨3, ![1, N, K]⟩ : Shape), ⟨3, ![1, N, K]⟩, ⟨3, ![1, N, K]⟩] ⟨3, ![3, N, K]⟩ 0)
    (x0 x1 x2 : (⟨2, ![N, K]⟩ : Shape).Idx → α) (t : Fin 3) (n : Fin N) (k : Fin K) :
    concatenate ⟨3, ![3, N, K]⟩ 0
        [⟨⟨3, ![1, N, K]⟩, broadcastInDim ⟨3, ![1, N, K]⟩ ![1, 2] hb x0⟩,
         ⟨⟨3, ![1, N, K]⟩, broadcastInDim ⟨3, ![1, N, K]⟩ ![1, 2] hb x1⟩,
         ⟨⟨3, ![1, N, K]⟩, broadcastInDim ⟨3, ![1, N, K]⟩ ![1, 2] hb x2⟩] hc (ix3 t n k)
      = (![x0, x1, x2] t) (ix2 n k) := by
  let xs : List ((s : Shape) × (s.Idx → α)) :=
    [⟨⟨3, ![1, N, K]⟩, broadcastInDim ⟨3, ![1, N, K]⟩ ![1, 2] hb x0⟩,
     ⟨⟨3, ![1, N, K]⟩, broadcastInDim ⟨3, ![1, N, K]⟩ ![1, 2] hb x1⟩,
     ⟨⟨3, ![1, N, K]⟩, broadcastInDim ⟨3, ![1, N, K]⟩ ![1, 2] hb x2⟩]
  have key : ∀ (q : Nat) (hq : q < xs.length) (x : (⟨2, ![N, K]⟩ : Shape).Idx → α),
      xs[q] = ⟨⟨3, ![1, N, K]⟩, broadcastInDim ⟨3, ![1, N, K]⟩ ![1, 2] hb x⟩ → t.val = q →
      concatenate ⟨3, ![3, N, K]⟩ 0 xs hc (ix3 t n k) = x (ix2 n k) := by
    intro q hq x hx ht
    rw [← lead_apply hb x n k]
    refine concatenate_apply_piece 0 xs hc (ix3 t n k) q hq _ _ hx rfl q ?_ (ix3 0 n k) ?_ ?_
    · have hq3 : q < 3 := hq
      interval_cases q <;> simp [xs]
    · intro b hb'
      match b with
      | ⟨0, _⟩ => exact absurd rfl hb'
      | ⟨1, _⟩ => rfl
      | ⟨2, _⟩ => rfl
    · show q + 0 = t.val
      omega
  show concatenate ⟨3, ![3, N, K]⟩ 0 xs hc (ix3 t n k) = _
  match t with
  | ⟨0, _⟩ => exact key 0 (show 0 < 3 by omega) x0 rfl rfl
  | ⟨1, _⟩ => exact key 1 (show 1 < 3 by omega) x1 rfl rfl
  | ⟨2, _⟩ => exact key 2 (show 2 < 3 by omega) x2 rfl rfl

/-- A 3 × K matrix reshaped to 3 × 1 × K, read at an index: the matrix at the outer coordinates. -/
theorem mid_apply {α : Type} {K : Nat}
    (hs : (⟨2, ![3, K]⟩ : Shape).ShapeCasts ⟨3, ![3, 1, K]⟩) (x : (⟨2, ![3, K]⟩ : Shape).Idx → α)
    (t : Fin 3) (k : Fin K) :
    shapeCast ⟨3, ![3, 1, K]⟩ x hs (ix3 t 0 k) = x (ix2 t k) := by
  refine shapeCast_apply x hs _ (ix2 t k) ?_
  rw [Shape.rowMajor_val_two, Shape.rowMajor_val_three]
  show t.val * K + k.val = (t.val * 1 + 0) * K + k.val
  rw [Nat.mul_one, Nat.add_zero]

end Idealize.ShloMosaic

end
-- ==== Proof.LibVecIndex.lean ====
/-
  Reading a vector gather and a vector scatter-add at an index.

  `x[idx]` over a vector `x : [N]` at a column of positions `idx : [n, 1]` is the gather whose result element `i` is
  `x` at position `idx[i]`, the number read signed and clamped into `[0, N - 1]`.
  `segment_sum` of a vector `upd : [n]` by the positions `idx : [n, 1]` into `x : [R]` is the scatter with an add
  body: at the ideal instance element `r` of the result is `x r` plus the sum over the update elements `i` whose
  position, read signed and NOT clamped, is `r`, of `upd i`; an element whose position is outside `[0, R)`
  contributes nowhere.
-/
import Idealize.ShloMosaic.PureOps.Ideal
import Idealize.ShloMosaic.Lib.ValueIdx

noncomputable section

namespace Idealize.ShloMosaic.VecIndex

open Idealize.ShloMosaic Idealize.ShloMosaic.ValueIdx

/-- The dimension numbers of a gather of single elements: operand `[N]`, positions `[n, 1]`, result `[n]`. -/
abbrev vecGatherDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- Result element `i` of a vector gather is the operand at position `idx[i, 0]` (signed, clamped). -/
theorem gather_vec_apply {α : Type} {N n w : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (i : Fin n) :
    Host.gather (vecGatherDims N n wf) x idx (ix1 i)
      = x (ix1 (⟨min (idx (ix2 i (0 : Fin 1))).toInt.toNat (N - 1), by omega⟩ : Fin N)) := by
  unfold Host.gather
  congr 1
  funext a
  -- the operand has one axis: it is collapsed and named by the start index map, so the coordinate read there is the
  -- clamped position alone, with no batch part and no offset part
  obtain rfl : a = 0 := Subsingleton.elim _ _
  refine Fin.ext ?_
  show (vecGatherDims N n wf).start (ix1 i) idx 0 + (vecGatherDims N n wf).batchCoord (ix1 i) 0
      + (vecGatherDims N n wf).offCoord (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N n wf).startIndexMap from List.mem_singleton.mpr rfl)]
  have hsi : (vecGatherDims N n wf).siIdx (ix1 i) ⟨List.idxOf (0 : Fin 1) (vecGatherDims N n wf).startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

/-- The dimension numbers of a scatter of single elements: operand `[R]`, positions `[n, 1]`, updates `[n]`. -/
abbrev vecScatterDims (R n : Nat)
    (wf : ScatterDims.WF ⟨1, ![R]⟩ ⟨2, ![n, 1]⟩ ⟨1, ![n]⟩ [] [0] [0] 1) :
    ScatterDims ⟨1, ![R]⟩ ⟨2, ![n, 1]⟩ ⟨1, ![n]⟩ where
  updateWindowDims := []
  insertedWindowDims := [0]
  scatterDimsToOperandDims := [0]
  indexVectorDim := 1
  wf := wf

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- On the operand's one axis the window of update element `i` starts at its position, read signed. -/
private theorem start_vec_zero {R n w : Nat}
    (wf : ScatterDims.WF ⟨1, ![R]⟩ ⟨2, ![n, 1]⟩ ⟨1, ![n]⟩ [] [0] [0] 1)
    (idx : IVec ⟨2, ![n, 1]⟩ w) (i : Fin n) :
    (vecScatterDims R n wf).start (ix1 i) idx 0 = (idx (ix2 i (0 : Fin 1))).toInt := by
  unfold ScatterDims.start
  rw [dif_pos (show (0 : Fin 1) ∈ (vecScatterDims R n wf).scatterDimsToOperandDims from List.mem_singleton.mpr rfl)]
  have hsi : (vecScatterDims R n wf).siIdx (ix1 i)
      ⟨List.idxOf (0 : Fin 1) (vecScatterDims R n wf).scatterDimsToOperandDims,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]

/-- The operand's one axis is inserted: the window coordinate there is `0`. -/
private theorem window_vec_zero {R n : Nat}
    (wf : ScatterDims.WF ⟨1, ![R]⟩ ⟨2, ![n, 1]⟩ ⟨1, ![n]⟩ [] [0] [0] 1) (i : Fin n) :
    (vecScatterDims R n wf).window (ix1 i) 0 = 0 := by
  unfold ScatterDims.window
  have h : (0 : Fin 1) ∉ (vecScatterDims R n wf).sKept := by
    show (0 : Fin 1) ∉ (List.finRange 1).filter (· ∉ ([0] : List (Fin 1)))
    decide
  rw [dif_neg h]

/-- Where update element `i` of a vector scatter lands: at `r` exactly when its position is `r`. -/
private theorem resultIdx_vec_iff {R n w : Nat}
    (wf : ScatterDims.WF ⟨1, ![R]⟩ ⟨2, ![n, 1]⟩ ⟨1, ![n]⟩ [] [0] [0] 1)
    (idx : IVec ⟨2, ![n, 1]⟩ w) (i : Fin n) (r : Fin R) :
    (vecScatterDims R n wf).resultIdx? (ix1 i) idx = some (ix1 r)
      ↔ (idx (ix2 i (0 : Fin 1))).toInt = (r.val : Int) := by
  have hs0 := start_vec_zero wf idx i
  have hw0 := window_vec_zero wf i
  have hr := r.isLt
  unfold ScatterDims.resultIdx?
  by_cases h : ∀ a : Fin 1, 0 ≤ (vecScatterDims R n wf).start (ix1 i) idx a + (vecScatterDims R n wf).window (ix1 i) a
      ∧ (vecScatterDims R n wf).start (ix1 i) idx a + (vecScatterDims R n wf).window (ix1 i) a
          < ((⟨1, ![R]⟩ : Shape).size a : Int)
  · -- the position is inside the operand: the landing index is the position itself
    rw [dif_pos h, Option.some.injEq]
    have h0 := h 0
    rw [hs0, hw0] at h0
    constructor
    · intro hEq
      have e0 : ((vecScatterDims R n wf).start (ix1 i) idx 0 + (vecScatterDims R n wf).window (ix1 i) 0).toNat = r.val :=
        congrArg Fin.val (congrFun hEq 0)
      rw [hs0, hw0] at e0
      omega
    · intro hpos
      funext a
      obtain rfl : a = 0 := Subsingleton.elim _ _
      refine Fin.ext ?_
      show ((vecScatterDims R n wf).start (ix1 i) idx 0 + (vecScatterDims R n wf).window (ix1 i) 0).toNat = r.val
      rw [hs0, hw0]; omega
  · -- the position is outside the operand: the update is dropped, and a position equal to some `r < R` would be inside
    rw [dif_neg h]
    constructor
    · intro hEq; cases hEq
    · intro hpos
      exfalso; apply h
      intro a
      obtain rfl : a = 0 := Subsingleton.elim _ _
      show 0 ≤ (vecScatterDims R n wf).start (ix1 i) idx 0 + (vecScatterDims R n wf).window (ix1 i) 0
        ∧ (vecScatterDims R n wf).start (ix1 i) idx 0 + (vecScatterDims R n wf).window (ix1 i) 0 < (R : Int)
      rw [hs0, hw0]; omega

/-- Element `r` of a vector scatter-add at the ideal instance: the operand's element plus the updates whose position
    is `r`. -/
theorem scatterAdd_vec_apply {R n w : Nat}
    (wf : ScatterDims.WF ⟨1, ![R]⟩ ⟨2, ![n, 1]⟩ ⟨1, ![n]⟩ [] [0] [0] 1)
    (x : (⟨1, ![R]⟩ : Shape).Idx → EReal) (idx : IVec ⟨2, ![n, 1]⟩ w)
    (upd : (⟨1, ![n]⟩ : Shape).Idx → EReal) (r : Fin R) :
    Ideal.hostScatterAdd (vecScatterDims R n wf) x idx upd (ix1 r)
      = x (ix1 r) + ∑ i : Fin n, if (idx (ix2 i (0 : Fin 1))).toInt = (r.val : Int) then upd (ix1 i) else 0 := by
  unfold Ideal.hostScatterAdd
  show _ + _ = _ + _
  congr 1
  rw [Finset.sum_filter, sum_idx1]
  refine Finset.sum_congr rfl fun i _ => ?_
  -- element by element: an update whose position is `r` lands at `r`, any other lands elsewhere or nowhere
  by_cases hpos : (idx (ix2 i (0 : Fin 1))).toInt = (r.val : Int)
  · rw [if_pos hpos, if_pos ((resultIdx_vec_iff wf idx i r).2 hpos)]
  · rw [if_neg hpos, if_neg fun h => hpos ((resultIdx_vec_iff wf idx i r).1 h)]

end Idealize.ShloMosaic.VecIndex

end
-- ==== Proof.RefValue.lean ====
/-
  The second program's run, read one operation at a time, is the specification's `resR` of its arguments.
-/
import proofs.«417588_j592705487350_3_alg».proof.Proof.Gen.ReferenceIdeal.Read
import proofs.«417588_j592705487350_3_alg».proof.Proof.Spec
import proofs.«417588_j592705487350_3_alg».proof.Proof.LibRowIndex
import proofs.«417588_j592705487350_3_alg».proof.Proof.LibStack3
import proofs.«417588_j592705487350_3_alg».proof.Proof.LibVecIndex
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx SupJsd
open scoped BigOperators

section Stages
variable (x0 x1 x2 : (⟨S16384x1000, .f32⟩ : BufTy).Contents (Elt Ideal)) (x3 : (⟨S16384, .i32⟩ : BufTy).Contents (Elt Ideal))

/-- The three arrays as one family indexed by the array's number. -/
private abbrev stk : Fin 3 → Logits := ![x0, x1, x2]

/-- The stacked array at (t, r, c) is array t at (r, c). -/
private theorem v3_at (t : Fin 3) (r : Fin 16384) (c : Fin 1000) :
    val_main_v3 (F := Ideal) x0 x1 x2 (ix3 t r c) = stk x0 x1 x2 t (ix2 r c) := by
  unfold val_main_v3 val_main_v0 val_main_v1 val_main_v2
  exact stack3_apply _ _ x0 x1 x2 t r c

/-- A row's index with the class coordinate put back. -/
private theorem lift_row (h : S3x16384x1000.Reduces [2] S3x16384) (t : Fin 3) (r : Fin 16384)
    (k : Fin (S3x16384x1000.size 2)) : h.lift (ix2 t r) k = ix3 t r (⟨k.val, k.isLt⟩ : Fin 1000) := by
  funext a; apply Fin.ext
  match a with
  | ⟨0, _⟩ => rfl
  | ⟨1, _⟩ => rfl
  | ⟨2, _⟩ => rfl

/-- The maximum-reduce at (t, r): the fold of max from −∞ over row r of array t. -/
private theorem v4_at (t : Fin 3) (r : Fin 16384) :
    val_main_v4 (F := Ideal) x0 x1 x2 (ix2 t r)
      = (Finset.univ : Finset (Fin 1000)).fold max cNegInf (row (stk x0 x1 x2 t) r) := by
  unfold val_main_v4
  have h : S3x16384x1000.Reduces [2] S3x16384 := by decide
  rw [Host.reduce_eq_fold_single FloatOps.maximumf _ _ reducesTo_S3x16384x1000_S3x16384_d2 h h_S_]
  have hf : (val_main_v3 (F := Ideal) x0 x1 x2 ∘ h.lift (ix2 t r)) = row (stk x0 x1 x2 t) r := by
    funext k
    show val_main_v3 (F := Ideal) x0 x1 x2 (h.lift (ix2 t r) k) = _
    rw [lift_row h t r k, v3_at]; rfl
  rw [hf]; rfl

/-- The row maximum at (t, r). -/
private theorem v6_at (t : Fin 3) (r : Fin 16384) :
    val_main_v6 (F := Ideal) x0 x1 x2 (ix2 t r) = rowMax (row (stk x0 x1 x2 t) r) := by
  rw [val_main_v6_apply, val_main_v5_apply, v4_at]; rfl

/-- The row maximum spread over the classes. -/
private theorem v8_at (t : Fin 3) (r : Fin 16384) (c : Fin 1000) :
    val_main_v8 (F := Ideal) x0 x1 x2 (ix3 t r c) = rowMax (row (stk x0 x1 x2 t) r) := by
  rw [val_main_v8_apply, val_main_v7_apply]
  have hi : idx_main_v7 (idx_main_v8 (ix3 t r c)) = ix2 t r := by
    funext a
    match a with
    | ⟨0, _⟩ => rfl
    | ⟨1, _⟩ => rfl
  rw [hi, v6_at]

/-- The shifted logits. -/
private theorem v9_at (t : Fin 3) (r : Fin 16384) (c : Fin 1000) :
    val_main_v9 (F := Ideal) x0 x1 x2 (ix3 t r c) = shifted (row (stk x0 x1 x2 t) r) c := by
  rw [val_main_v9_apply, v3_at, v8_at]; rfl

/-- Their exponentials. -/
private theorem v10_at (t : Fin 3) (r : Fin 16384) (c : Fin 1000) :
    val_main_v10 (F := Ideal) x0 x1 x2 (ix3 t r c) = Ideal.exp (shifted (row (stk x0 x1 x2 t) r) c) := by
  rw [val_main_v10_apply, v9_at]; rfl

/-- The normaliser of row (t, r). -/
private theorem v11_at (t : Fin 3) (r : Fin 16384) :
    val_main_v11 (F := Ideal) x0 x1 x2 (ix2 t r) = expSum (row (stk x0 x1 x2 t) r) := by
  rw [val_main_v11_apply]
  have hi : ∀ k : Fin 1000, idx_main_v11 (ix2 t r) k = ix3 t r k := by
    intro k; funext a
    match a with
    | ⟨0, _⟩ => rfl
    | ⟨1, _⟩ => rfl
    | ⟨2, _⟩ => rfl
  have h0 : val_main_cst_1 (F := Ideal) (Shape.Idx.first h_S_) = 0 := Ideal.ofBits_zero_f32
  rw [h0, zero_add]
  unfold expSum
  refine Finset.sum_congr rfl fun k _ => ?_
  rw [hi k, v10_at]

/-- The normaliser spread over the classes. -/
private theorem v13_at (t : Fin 3) (r : Fin 16384) (c : Fin 1000) :
    val_main_v13 (F := Ideal) x0 x1 x2 (ix3 t r c) = expSum (row (stk x0 x1 x2 t) r) := by
  rw [val_main_v13_apply, val_main_v12_apply]
  have hi : idx_main_v12 (idx_main_v13 (ix3 t r c)) = ix2 t r := by
    funext a
    match a with
    | ⟨0, _⟩ => rfl
    | ⟨1, _⟩ => rfl
  rw [hi, v11_at]

/-- The probabilities, still as three arrays. -/
private theorem v14_at (t : Fin 3) (r : Fin 16384) (c : Fin 1000) :
    val_main_v14 (F := Ideal) x0 x1 x2 (ix3 t r c) = probR (row (stk x0 x1 x2 t) r) c := by
  rw [val_main_v14_apply, v10_at, v13_at]; rfl

/-- The probabilities as 3 · 16384 stacked rows: row q is row q mod 16384 of array q div 16384. -/
private theorem v15_at (q : Fin 49152) (c : Fin 1000) :
    val_main_v15 (F := Ideal) x0 x1 x2 (ix2 q c) = probs x0 x1 x2 q c := by
  rw [val_main_v15_apply]
  have hi : idx_main_v15 (ix2 q c) = ix3 (viewOf q) (rowOf q) c := by
    have hq := q.isLt
    have hc := c.isLt
    funext a; apply Fin.ext
    match a with
    | ⟨0, _⟩ => show (q.val * 1000 + c.val) / 16384000 = q.val / 16384; omega
    | ⟨1, _⟩ => show (q.val * 1000 + c.val) / 1000 % 16384 = q.val % 16384; omega
    | ⟨2, _⟩ => show (q.val * 1000 + c.val) % 1000 = c.val; omega
  rw [hi, v14_at]; rfl

/-- The stacked labels: row q carries the label of row q mod 16384. -/
private theorem v18_at (q : Fin 49152) :
    val_main_v18 (F := Ideal) x3 (ix1 q) = lab3 x3 q := by
  rw [val_main_v18_apply, val_main_v17_apply, val_main_v16_apply]
  unfold lab3
  refine congrArg x3 ?_
  funext a; apply Fin.ext
  match a with
  | ⟨0, _⟩ => show 0 * 16384 + q.val % 16384 = q.val % 16384; omega

/-- The labels as a column. -/
private theorem v21_at (q : Fin 49152) :
    val_main_v21 (F := Ideal) x3 (ix2 q (0 : Fin 1)) = lab3 x3 q := by
  rw [val_main_v21_apply]
  have hi : idx_main_v21 (ix2 q (0 : Fin 1)) = ix1 q := by
    funext a
    match a with
    | ⟨0, _⟩ => rfl
  rw [hi, v18_at]

/-- The same column, as the second scatter reads it. -/
private theorem v24_at (q : Fin 49152) :
    val_main_v24 (F := Ideal) x3 (ix2 q (0 : Fin 1)) = lab3 x3 q := by
  rw [val_main_v24_apply]
  have hi : idx_main_v24 (ix2 q (0 : Fin 1)) = ix1 q := by
    funext a
    match a with
    | ⟨0, _⟩ => rfl
  rw [hi, v18_at]

/-- The counts: class k's is the number of stacked rows labelled k. -/
private theorem v22_at (k : Fin 1000) :
    val_main_v22 (F := Ideal) x3 (ix1 k) = countR x3 k := by
  unfold val_main_v22
  simp only [Host.scatterAdd, Ideal.hostScatterAdd_def]
  rw [show scatter_S1000_S49152x1_S49152_n_0_0_1
      = VecIndex.vecScatterDims 1000 49152 scatter_S1000_S49152x1_S49152_n_0_0_1_wf from rfl,
    VecIndex.scatterAdd_vec_apply]
  unfold countR
  rw [val_main_v20_apply]
  refine congrArg₂ (· + ·) rfl (Finset.sum_congr rfl fun q _ => ?_)
  rw [v21_at, val_main_v19_apply]; rfl

/-- The summed probabilities: (k, c) holds the sum over the stacked rows labelled k of their probability of c. -/
private theorem v25_at (k c : Fin 1000) :
    val_main_v25 (F := Ideal) x0 x1 x2 x3 (ix2 k c) = mixSumR x0 x1 x2 x3 k c := by
  unfold val_main_v25
  simp only [Host.scatterAdd, Ideal.hostScatterAdd_def]
  rw [show scatter_S1000x1000_S49152x1_S49152x1000_1_0_0_1
      = RowIndex.rowScatterDims 1000 1000 49152 scatter_S1000x1000_S49152x1_S49152x1000_1_0_0_1_wf from rfl,
    RowIndex.scatterAdd_rows_apply]
  unfold mixSumR
  rw [val_main_v23_apply]
  refine congrArg₂ (· + ·) rfl (Finset.sum_congr rfl fun q _ => ?_)
  rw [v24_at, v15_at]

/-- The counts, at least one. -/
private theorem v27_at (k : Fin 1000) :
    val_main_v27 (F := Ideal) x3 (ix1 k) = max (countR x3 k) cOne := by
  rw [val_main_v27_apply, v22_at, val_main_v26_apply]; rfl

/-- The clipped counts spread over the classes. -/
private theorem v29_at (k c : Fin 1000) :
    val_main_v29 (F := Ideal) x3 (ix2 k c) = max (countR x3 k) cOne := by
  rw [val_main_v29_apply, val_main_v28_apply]
  have hi : idx_main_v28 (idx_main_v29 (ix2 k c)) = ix1 k := by
    funext a
    match a with
    | ⟨0, _⟩ => rfl
  rw [hi, v27_at]

/-- The mixture: the summed probabilities over the clipped count. -/
private theorem v30_at (k c : Fin 1000) :
    val_main_v30 (F := Ideal) x0 x1 x2 x3 (ix2 k c) = mixR x0 x1 x2 x3 k c := by
  rw [val_main_v30_apply, v25_at, v29_at]; rfl

/-- The logarithm of the mixture clipped from below at ε. -/
private theorem v32_at (k c : Fin 1000) :
    val_main_v32 (F := Ideal) x0 x1 x2 x3 (ix2 k c) = logMixR x0 x1 x2 x3 k c := by
  rw [val_main_v32_apply, val_main_v31_apply, val_main_call0_v1_apply, val_main_call0_v0_apply, val_main_cst_6_apply, v30_at]
  unfold logMixR
  simp only [Ideal.hostUnary_log_def, Ideal.maximumf_def, Ideal.ofBits_def]

/-- The guarded product: on p ≠ 0 (the second test, p ≠ p, never holds) it is p · log p, else 0. -/
private theorem where_xlogx (p : EReal) :
    Scalar.select (IntOp.ori (Ideal.cmp .une p cZero) (Ideal.cmp .une p p)) (p * Ideal.log p) cZero = xlogx p := by
  have e : ∀ a b : EReal, Ideal.cmp .une a b = BitVec.ofBool (decide (a ≠ b)) := fun _ _ => rfl
  rw [e, e]
  unfold xlogx
  have hpp : decide (p ≠ p) = false := decide_eq_false fun hh => hh rfl
  rw [hpp]
  by_cases h : p = cZero
  · rw [if_neg (not_not.2 h), decide_eq_false (not_not.2 h)]
    rfl
  · rw [if_pos h, decide_eq_true h]
    rfl

/-- p · log p over the stacked probabilities. -/
private theorem v40_at (q : Fin 49152) (c : Fin 1000) :
    val_main_v40 (F := Ideal) x0 x1 x2 (ix2 q c) = xlogx (probs x0 x1 x2 q c) := by
  rw [val_main_v40_apply, val_main_v36_apply, val_main_v34_apply, val_main_v35_apply, val_main_v38_apply,
    val_main_v37_apply, val_main_v39_apply, val_main_v33_apply, v15_at]
  exact where_xlogx _

/-- A negative word has 1000 added; any other is kept. -/
private theorem wrap_eq (b : BitVec 32) :
    Scalar.select (IntOp.cmpi .slt b 0#32) (IntOp.addi b 1000#32) b = wrapLabel b := by
  have e : IntOp.cmpi .slt b 0#32 = BitVec.ofBool (decide (b.toInt < 0)) := by
    show BitVec.ofBool (b.slt 0#32) = _
    simp [BitVec.slt]
  rw [e]
  unfold wrapLabel
  by_cases h : b.toInt < 0
  · simp [h, Scalar.select, IntOp.addi]
  · simp [h, Scalar.select, IntOp.addi]

/-- The wrapped labels. -/
private theorem v45_at (q : Fin 49152) :
    val_main_v45 (F := Ideal) x3 (ix1 q) = wrapLabel (lab3 x3 q) := by
  rw [val_main_v45_apply, val_main_v42_apply, val_main_v44_apply, val_main_v41_apply, val_main_v43_apply, v18_at]
  exact wrap_eq _

/-- The wrapped labels as a column. -/
private theorem v46_at (q : Fin 49152) :
    val_main_v46 (F := Ideal) x3 (ix2 q (0 : Fin 1)) = wrapLabel (lab3 x3 q) := by
  rw [val_main_v46_apply]
  have hi : idx_main_v46 (ix2 q (0 : Fin 1)) = ix1 q := by
    funext a
    match a with
    | ⟨0, _⟩ => rfl
  rw [hi, v45_at]

/-- Each stacked row reads the log-mixture row its label names. -/
private theorem v47_at (q : Fin 49152) (c : Fin 1000) :
    val_main_v47 (F := Ideal) x0 x1 x2 x3 (ix2 q c) = logMixR x0 x1 x2 x3 (gatherRow (lab3 x3 q)) c := by
  unfold val_main_v47
  rw [show gather_S1000x1000_S49152x1_S49152x1000_1_0_n_n_0_1_11000
      = RowIndex.rowGatherDims 1000 1000 49152 gather_S1000x1000_S49152x1_S49152x1000_1_0_n_n_0_1_11000_wf from rfl,
    RowIndex.gather_rows_apply (by decide : 0 < 1000), v32_at]
  refine congrArg (fun k => logMixR x0 x1 x2 x3 k c) (Fin.ext ?_)
  show min (val_main_v46 (F := Ideal) x3 (ix2 q (0 : Fin 1))).toInt.toNat (1000 - 1)
    = min (wrapLabel (lab3 x3 q)).toInt.toNat 999
  rw [v46_at]

/-- One term of a row's divergence. -/
private theorem v49_at (q : Fin 49152) (c : Fin 1000) :
    val_main_v49 (F := Ideal) x0 x1 x2 x3 (ix2 q c)
      = xlogx (probs x0 x1 x2 q c) - probs x0 x1 x2 q c * logMixR x0 x1 x2 x3 (gatherRow (lab3 x3 q)) c := by
  rw [val_main_v49_apply, val_main_v48_apply, v40_at, v15_at, v47_at]; rfl

/-- A row's divergence: the sum of its terms over the classes. -/
private theorem v50_at (q : Fin 49152) :
    val_main_v50 (F := Ideal) x0 x1 x2 x3 (ix1 q) = rowKl x0 x1 x2 x3 q := by
  rw [val_main_v50_apply]
  unfold rowKl
  refine congrArg₂ (· + ·) rfl (Finset.sum_congr rfl fun c _ => ?_)
  have hi : idx_main_v50 (ix1 q) c = ix2 q c := by
    funext a
    match a with
    | ⟨0, _⟩ => rfl
    | ⟨1, _⟩ => rfl
  rw [hi, v49_at]

/-- … over the number of classes. -/
private theorem v52_at (q : Fin 49152) :
    val_main_v52 (F := Ideal) x0 x1 x2 x3 (ix1 q) = Ideal.div (rowKl x0 x1 x2 x3 q) cThousand := by
  rw [val_main_v52_apply, v50_at, val_main_v51_apply]; rfl

/-- The wrapped labels, computed a second time. -/
private theorem v57_at (q : Fin 49152) :
    val_main_v57 (F := Ideal) x3 (ix1 q) = wrapLabel (lab3 x3 q) := by
  rw [val_main_v57_apply, val_main_v54_apply, val_main_v56_apply, val_main_v53_apply, val_main_v55_apply, v18_at]
  exact wrap_eq _

private theorem v58_at (q : Fin 49152) :
    val_main_v58 (F := Ideal) x3 (ix2 q (0 : Fin 1)) = wrapLabel (lab3 x3 q) := by
  rw [val_main_v58_apply]
  have hi : idx_main_v58 (ix2 q (0 : Fin 1)) = ix1 q := by
    funext a
    match a with
    | ⟨0, _⟩ => rfl
  rw [hi, v57_at]

/-- Each stacked row reads the count of the class its label names. -/
private theorem v59_at (q : Fin 49152) :
    val_main_v59 (F := Ideal) x3 (ix1 q) = countR x3 (gatherRow (lab3 x3 q)) := by
  unfold val_main_v59
  rw [show gather_S1000_S49152x1_S49152_n_0_n_n_0_1_1
      = VecIndex.vecGatherDims 1000 49152 gather_S1000_S49152x1_S49152_n_0_n_n_0_1_1_wf from rfl,
    VecIndex.gather_vec_apply (by decide : 0 < 1000), v22_at]
  refine congrArg (countR x3) (Fin.ext ?_)
  show min (val_main_v58 (F := Ideal) x3 (ix2 q (0 : Fin 1))).toInt.toNat (1000 - 1)
    = min (wrapLabel (lab3 x3 q)).toInt.toNat 999
  rw [v58_at]

/-- A row's share of the loss. -/
private theorem v60_at (q : Fin 49152) :
    val_main_v60 (F := Ideal) x0 x1 x2 x3 (ix1 q) = perRow x0 x1 x2 x3 q := by
  rw [val_main_v60_apply, v52_at, v59_at]; rfl

/-- A sum over a one-axis index set is the sum over the axis's coordinates. -/
private theorem sum_idx1 {M : Type} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _ fun i => congrArg f (eq_ix1 i)

end Stages

/-- The second program's result is the specification's: the shares of the 3 · 16384 stacked rows, summed from zero. -/
theorem result_eq (x0 x1 x2 : (⟨S16384x1000, .f32⟩ : BufTy).Contents (Elt Ideal)) (x3 : (⟨S16384, .i32⟩ : BufTy).Contents (Elt Ideal)) :
    val_main_v61 (F := Ideal) x0 x1 x2 x3 = fun _ => resR x0 x1 x2 x3 := by
  funext i
  rw [val_main_v61_apply]
  unfold resR
  refine congrArg₂ (· + ·) rfl ?_
  rw [sum_idx1]
  exact Finset.sum_congr rfl fun q _ => v60_at x0 x1 x2 x3 q

end Cert.ReferenceIdeal.RefValue

end
-- ==== Proof.KernelArgs.lean ====
/-
  The first program's four arguments on a core, typed as the specification's arrays.
-/
import proofs.«417588_j592705487350_3_alg».proof.Proof.Gen.KernelIdeal.Frame
import proofs.«417588_j592705487350_3_alg».proof.Proof.Spec

noncomputable section

namespace Cert.KernelIdeal.KArgs

open Cert.KernelIdeal Idealize.ShloMosaic Idealize.SL.Sem SupJsd

variable (m : (ℓ : Loc nD τ sig) → Buf (Elt Ideal) ℓ)

abbrev X0 (c : Dev nD) : SupJsd.Logits := m ((c.tc : Thread nD τ).loc main_arg0)
abbrev X1 (c : Dev nD) : SupJsd.Logits := m ((c.tc : Thread nD τ).loc main_arg1)
abbrev X2 (c : Dev nD) : SupJsd.Logits := m ((c.tc : Thread nD τ).loc main_arg2)
abbrev LAB (c : Dev nD) : SupJsd.Labels := m ((c.tc : Thread nD τ).loc main_arg3)

end Cert.KernelIdeal.KArgs

end
-- ==== Proof.KernelPre.lean ====
/-
  What the host operations before the kernel region leave: the labels as a column, and the per-label counts
  n_k = 3 · #{rows labelled k}, as a vector and as the row the body reads.
-/
import proofs.«417588_j592705487350_3_alg».proof.Proof.Gen.KernelIdeal.Frame
import proofs.«417588_j592705487350_3_alg».proof.Proof.Spec
import proofs.«417588_j592705487350_3_alg».proof.Proof.KernelArgs
import proofs.«417588_j592705487350_3_alg».proof.Proof.LibVecIndex
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

set_option maxRecDepth 16384

noncomputable section

namespace Cert.KernelIdeal.KPre

open Cert.KernelIdeal Cert.KernelIdeal.Gen Idealize.ShloMosaic Idealize.ShloMosaic.TcCoe Idealize.ShloMosaic.ValueIdx Idealize.SL.Sem SupJsd
open Idealize.ShloMosaic.Pipeline (Dat)
open Cert.KernelIdeal.KArgs

variable (m : (ℓ : Loc nD τ sig) → Buf (Elt Ideal) ℓ)

/-- The labels column as the composed term: the labels argument, reshaped. -/
private theorem v0_term (c : Dev nD) :
    (V (F := Ideal) m c main_v0 : Vec Ideal S16384x1 .i32)
      = shapeCast S16384x1 (LAB m c) Facts₀.shapeCasts_S16384_S16384x1 := by
  show StableHlo.after hostOps0 (fun b => m (c, b)) (Proc.devRef .tc main_v0) = _
  after_results
  rfl

theorem V_v0 (c : Dev nD) :
    (V (F := Ideal) m c main_v0 : Vec Ideal S16384x1 .i32) = fun j => LAB m c (ix1 ⟨(j 0).val, (j 0).isLt⟩) := by
  rw [v0_term]
  funext j
  refine shapeCast_apply _ _ j _ ?_
  rw [Shape.rowMajor_val_one, Shape.rowMajor_val_two]
  have h1 := idx2_lt1 j
  show (j 0).val = (j 0).val * 1 + (j 1).val
  omega

/-- A scalar constant broadcast to any shape reads the constant's value everywhere. -/
private theorem bcast_const {t : Shape} (h : S_.BroadcastsInDim t (![] : Fin 0 → Fin t.rank)) (b : BitVec (FTy.bits .f32))
    (j : t.Idx) : broadcastInDim t ![] h (constant (F := Ideal) S_ .f32 b) j = Ideal.ofBits .f32 b := rfl

/-- The labels broadcast to a column read, at row `i`, label `i`. -/
private theorem labCol_apply (lab : SupJsd.Labels) (i : Fin 16384) :
    broadcastInDim S16384x1 ![0] Facts₀.bcast_S16384_S16384x1_0 lab (ix2 i (0 : Fin 1)) = lab (ix1 i) := by
  refine broadcastInDim_apply _ _ lab _ (ix1 i) ?_
  intro a
  match a with
  | ⟨0, _⟩ =>
    show i.val = if (16384 : Nat) = 1 then 0 else i.val
    rw [if_neg (by decide)]

/-- The counts vector as the host operations compose it: 3 times the scatter-add of ones, by label, into zeros. -/
private abbrev countTerm (lab : SupJsd.Labels) : Vec Ideal S1000 .f32 :=
  mulf (broadcastInDim S1000 ![] Facts₀.bcast_S_S1000 (constant (F := Ideal) S_ .f32 0x40400000#32))
    (Host.scatterAdd (F := Ideal) scatter_S1000_S16384x1_S16384_n_0_0_1
      (broadcastInDim S1000 ![] Facts₀.bcast_S_S1000 (constant (F := Ideal) S_ .f32 0x00000000#32))
      (broadcastInDim S16384x1 ![0] Facts₀.bcast_S16384_S16384x1_0 lab)
      (broadcastInDim S16384 ![] Facts₀.bcast_S_S16384 (constant (F := Ideal) S_ .f32 0x3F800000#32)))

/-- Element `k` of that vector is n_k. -/
private theorem countTerm_apply (lab : SupJsd.Labels) (k : Fin 1000) : countTerm lab (ix1 k) = countK lab k := by
  show cThree * Ideal.hostScatterAdd
      (VecIndex.vecScatterDims 1000 16384 Facts₀.scatter_S1000_S16384x1_S16384_n_0_0_1_wf) _ _ _ (ix1 k) = _
  rw [VecIndex.scatterAdd_vec_apply]
  unfold countK
  rw [bcast_const]
  refine congrArg (fun z => cThree * (cZero + z)) (Finset.sum_congr rfl fun i _ => ?_)
  rw [labCol_apply, bcast_const]

private theorem v6_term (c : Dev nD) :
    (V (F := Ideal) m c main_v6 : Vec Ideal S1000 .f32) = countTerm (LAB m c) := by
  show StableHlo.after hostOps0 (fun b => m (c, b)) (Proc.devRef .tc main_v6) = _
  after_results

theorem V_v6 (c : Dev nD) :
    (V (F := Ideal) m c main_v6 : Vec Ideal S1000 .f32) = fun j => countK (LAB m c) ⟨(j 0).val, (j 0).isLt⟩ := by
  rw [v6_term]
  funext j
  obtain ⟨k, rfl⟩ : ∃ k : Fin 1000, j = ix1 k := ⟨j 0, eq_ix1 j⟩
  exact countTerm_apply (LAB m c) k

/-- The counts row as the composed term: the counts vector, reshaped. -/
private theorem v7_term (c : Dev nD) :
    (V (F := Ideal) m c main_v7 : Vec Ideal S1x1000 .f32)
      = shapeCast S1x1000 (countTerm (LAB m c)) Facts₀.shapeCasts_S1000_S1x1000 := by
  show StableHlo.after hostOps0 (fun b => m (c, b)) (Proc.devRef .tc main_v7) = _
  after_results
  rfl

theorem V_v7 (c : Dev nD) :
    (V (F := Ideal) m c main_v7 : Vec Ideal S1x1000 .f32) = countRow (LAB m c) := by
  rw [v7_term]
  funext j
  have h0 := idx2_lt0 j
  refine (shapeCast_apply _ _ j (ix1 ⟨(j 1).val, (j 1).isLt⟩) ?_).trans (countTerm_apply (LAB m c) _)
  rw [Shape.rowMajor_val_one, Shape.rowMajor_val_two]
  show (j 1).val = (j 0).val * 1000 + (j 1).val
  omega

end Cert.KernelIdeal.KPre

end
-- ==== Proof.KernelTile.lean ====
/-
  What the kernel body leaves in its two accumulators at one grid point, as functions of the point's input blocks:
  at a core's first point, zero plus the tile's contribution; at a later point, the previous contents plus it.
-/
import proofs.«417588_j592705487350_3_alg».proof.Proof.Gen.KernelIdeal.Frame
import proofs.«417588_j592705487350_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

set_option maxRecDepth 16384

noncomputable section

namespace Cert.KernelIdeal.KTile

open Cert.KernelIdeal Cert.KernelIdeal.Gen Idealize.ShloMosaic Idealize.ShloMosaic.TcCoe Idealize.ShloMosaic.ValueIdx Idealize.SL.Sem SupJsd
open Idealize.ShloMosaic.Pipeline (Dat)

/-! ## Each accumulator block after one run of the body, as the body's stored value over the input blocks -/

section Pieces
variable {F : FTy → Type} [FloatOps F]

private theorem hz3 : (![0, 0, 0] : Fin 3 → Nat) = fun _ => 0 := funext fun a => by fin_cases a <;> rfl
private theorem hz2 : (![0, 0] : Fin 2 → Nat) = fun _ => 0 := funext fun a => by fin_cases a <;> rfl

/-- A later point, class sums: the one store's value, its loads reading the whole blocks. -/
private theorem piece_B_5 (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S1024x1000 .f32) (harg4 : arg4.IsWhole) (arg5 : Memref sig .tc .vmem S1024x1 .i32) (harg5 : arg5.IsWhole) (arg6 : Memref sig .tc .vmem S1x1000 .f32) (harg6 : arg6.IsWhole) (arg7 : Memref sig .tc .vmem S1x1000x1000 .f32) (harg7 : arg7.IsWhole) (arg8 : Memref sig .tc .vmem S1x1x1 .f32) (harg8 : arg8.IsWhole) (hc0 : ¬cond0_0 i) (x0 x1 x2 : Vec F S1024x1000 .f32) (x3 : Vec F S1024x1 .i32) (x4 : Vec F S1x1000 .f32) (xo5 : Vec F S1x1000x1000 .f32) (xo6 : Vec F S1x1x1 .f32) :
    out0_B_5 c i arg2 harg2 arg3 harg3 arg4 harg4 arg5 harg5 arg6 harg6 arg7 harg7 arg8 harg8 hc0 x0 x1 x2 x3 x4 xo5 xo6
      = k0_pay2 (k0_pay6 x3) (k0_pay17 (k0_pay9 x0) x1 (k0_pay11 x1) k0_pay12 x2) xo5 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread,
    View.ld_unit_zero (S := S1024x1000) hz2, View.ld_unit_zero (S := S1024x1) hz2, View.ld_unit_zero (S := S1x1000) hz2,
    View.ld_unit_zero (S := S1x1000x1000) hz3, View.ld_unit_zero (S := S1x1x1) hz3]

/-- A later point, entropy term. -/
private theorem piece_B_6 (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S1024x1000 .f32) (harg4 : arg4.IsWhole) (arg5 : Memref sig .tc .vmem S1024x1 .i32) (harg5 : arg5.IsWhole) (arg6 : Memref sig .tc .vmem S1x1000 .f32) (harg6 : arg6.IsWhole) (arg7 : Memref sig .tc .vmem S1x1000x1000 .f32) (harg7 : arg7.IsWhole) (arg8 : Memref sig .tc .vmem S1x1x1 .f32) (harg8 : arg8.IsWhole) (hc0 : ¬cond0_0 i) (x0 x1 x2 : Vec F S1024x1000 .f32) (x3 : Vec F S1024x1 .i32) (x4 : Vec F S1x1000 .f32) (xo5 : Vec F S1x1000x1000 .f32) (xo6 : Vec F S1x1x1 .f32) :
    out0_B_6 c i arg2 harg2 arg3 harg3 arg4 harg4 arg5 harg5 arg6 harg6 arg7 harg7 arg8 harg8 hc0 x0 x1 x2 x3 x4 xo5 xo6
      = k0_pay1 (k0_pay18 (k0_pay7 x3 x4) (k0_pay10 x0) x1 (k0_pay11 x1) k0_pay12 x2 xo6) := by
  unfold out0_B_6
  rw [View.read_writes_eq_canon _ _ _ (cover0_B_6 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread,
    View.ld_unit_zero (S := S1024x1000) hz2, View.ld_unit_zero (S := S1024x1) hz2, View.ld_unit_zero (S := S1x1000) hz2,
    View.ld_unit_zero (S := S1x1000x1000) hz3, View.ld_unit_zero (S := S1x1x1) hz3]

/-- A core's first point, class sums: the zero block is stored first and read back as the previous contents. -/
private theorem piece_A_5 (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S1024x1000 .f32) (harg4 : arg4.IsWhole) (arg5 : Memref sig .tc .vmem S1024x1 .i32) (harg5 : arg5.IsWhole) (arg6 : Memref sig .tc .vmem S1x1000 .f32) (harg6 : arg6.IsWhole) (arg7 : Memref sig .tc .vmem S1x1000x1000 .f32) (harg7 : arg7.IsWhole) (arg8 : Memref sig .tc .vmem S1x1x1 .f32) (harg8 : arg8.IsWhole) (hc0 : cond0_0 i) (x0 x1 x2 : Vec F S1024x1000 .f32) (x3 : Vec F S1024x1 .i32) (x4 : Vec F S1x1000 .f32) :
    out0_A_5 c i arg2 harg2 arg3 harg3 arg4 harg4 arg5 harg5 arg6 harg6 arg7 harg7 arg8 harg8 hc0 x0 x1 x2 x3 x4
      = k0_pay2 (k0_pay6 x3) (k0_pay17 (k0_pay9 x0) x1 (k0_pay11 x1) k0_pay12 x2) k0_pay3 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x1000x1000) hz3, View.readCov_unit_zero (S := S1x1000x1000) _ hz3]
  simp only [View.readAt_eq_ld, harg2.read_unread, harg3.read_unread, harg4.read_unread, harg5.read_unread, harg6.read_unread, harg7.read_unread, harg8.read_unread,
    View.ld_unit_zero (S := S1024x1000) hz2, View.ld_unit_zero (S := S1024x1) hz2, View.ld_unit_zero (S := S1x1000) hz2,
    View.ld_unit_zero (S := S1x1000x1000) hz3, View.ld_unit_zero (S := S1x1x1) hz3]

/-- A core's first point, entropy term. -/
private theorem piece_A_6 (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S1024x1000 .f32) (harg4 : arg4.IsWhole) (arg5 : Memref sig .tc .vmem S1024x1 .i32) (harg5 : arg5.IsWhole) (arg6 : Memref sig .tc .vmem S1x1000 .f32) (harg6 : arg6.IsWhole) (arg7 : Memref sig .tc .vmem S1x1000x1000 .f32) (harg7 : arg7.IsWhole) (arg8 : Memref sig .tc .vmem S1x1x1 .f32) (harg8 : arg8.IsWhole) (hc0 : cond0_0 i) (x0 x1 x2 : Vec F S1024x1000 .f32) (x3 : Vec F S1024x1 .i32) (x4 : Vec F S1x1000 .f32) :
    out0_A_6 c i arg2 harg2 arg3 harg3 arg4 harg4 arg5 harg5 arg6 harg6 arg7 harg7 arg8 harg8 hc0 x0 x1 x2 x3 x4
      = k0_pay1 (k0_pay18 (k0_pay7 x3 x4) (k0_pay10 x0) x1 (k0_pay11 x1) k0_pay12 x2 k0_pay4) := by
  unfold out0_A_6
  rw [View.read_writes_eq_canon _ _ _ (cover0_A_6 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread, harg7.read_unread, harg8.read_unread,
    View.ld_unit_zero (S := S1024x1000) hz2, View.ld_unit_zero (S := S1024x1) hz2, View.ld_unit_zero (S := S1x1000) hz2,
    View.ld_unit_zero (S := S1x1000x1000) hz3, View.ld_unit_zero (S := S1x1x1) hz3]

end Pieces

/-! ## Layout steps read at a row and a class -/

section Layout
variable {α : Type}

/-- A vector over the tile's rows viewed as a column: the column's entry at a row is the vector's. -/
private theorem col_apply (v : S1024.Idx → α) (h : S1024.ShapeCasts S1024x1) (q : Fin 1024) (u : Fin 1) :
    shapeCast S1024x1 v h (ix2 q u) = v (ix1 q) :=
  shapeCast_apply v h _ _ (by
    have hu : u.val = 0 := by omega
    rw [Shape.rowMajor_val_two, Shape.rowMajor_val_one]
    show q.val = q.val * 1 + u.val
    omega)

/-- A column repeated along the classes: every class of a row reads the column's entry at that row. -/
private theorem colBcast_apply (v : S1024x1.Idx → α) (h : S1024x1.Broadcasts S1024x1000) (q : Fin 1024) (c : Fin 1000) :
    broadcastTo S1024x1000 v h (ix2 q c) = v (ix2 q (0 : Fin 1)) := by
  refine broadcastTo_apply v h (ix2 q c) (ix2 q (0 : Fin 1)) fun ax => ?_
  match ax with
  | ⟨0, _⟩ => rfl
  | ⟨1, _⟩ => rfl

end Layout

/-! ## Reductions along the classes of one row -/

/-- The index of class `k` in row `q`, as the reduction along the classes inserts it. -/
private theorem lift_row (h : S1024x1000.Reduces [1] S1024) (q : Fin 1024) (k : Fin 1000) :
    h.lift (ix1 q) k = ix2 q k := by
  funext a
  match a with
  | ⟨0, _⟩ => exact Fin.ext rfl
  | ⟨1, _⟩ => exact Fin.ext rfl

/-- A sum along the classes, at a row, is the sum of the row's entries. -/
private theorem rowSum_apply (y : FVec Ideal S1024x1000 .f32) (h : S1024x1000.Reduces [1] S1024) (hφ : FKind.Formats .f32)
    (hacc : @Eq (BitVec FTy.f32.bits) 0x00000000#32 0x00000000#32) (q : Fin 1024) :
    multiReduction .add [1] S1024 y 0x00000000#32 h hφ hacc (ix1 q) = ∑ c : Fin 1000, y (ix2 q c) := by
  refine (Ideal.multiReduction_add_single y 0x00000000#32 h hφ hacc (ix1 q)).trans ?_
  exact Finset.sum_congr rfl fun c _ => congrArg y (lift_row h q c)

/-- A maximum along the classes, at a row, is the fold of `max` from −∞ over the row's entries. -/
private theorem rowMaxFold_apply (x : FVec Ideal S1024x1000 .f32) (h : S1024x1000.Reduces [1] S1024) (hφ : FKind.Formats .f32)
    (hacc : @Eq (BitVec FTy.f32.bits) 0xFF800000#32 0xFF800000#32) (q : Fin 1024) :
    multiReduction .maximumf [1] S1024 x 0xFF800000#32 h hφ hacc (ix1 q)
      = (Finset.univ : Finset (Fin 1000)).fold max cNegInf (brow x q) := by
  refine (Ideal.multiReduction_maximumf_single x 0xFF800000#32 h hφ hacc (ix1 q)).trans ?_
  have e : (x ∘ h.lift (ix1 q) : Fin 1000 → EReal) = brow x q := funext fun k => congrArg x (lift_row h q k)
  exact congrArg (fun f : Fin 1000 → EReal => (Finset.univ : Finset (Fin 1000)).fold max cNegInf f) e

/-! ## The exponential and the logarithm of a vector, at an index -/

private theorem exp_apply {s : Shape} {φ : FTy} (a : FVec Ideal s φ) (i : s.Idx) : exp a i = Ideal.exp (a i) := rfl
private theorem log_apply {s : Shape} {φ : FTy} (a : FVec Ideal s φ) (i : s.Idx) : log a i = Ideal.log (a i) := rfl

/-! ## One row of a tile, as the body's steps compute it -/

/-- The row maximum: the maximum with −∞ of the fold of `max` from −∞ along the row. -/
private theorem rmax_apply (x : FVec Ideal S1024x1000 .f32) (h : S1024x1000.Reduces [1] S1024) (hφ : FKind.Formats .f32)
    (hacc : @Eq (BitVec FTy.f32.bits) 0xFF800000#32 0xFF800000#32) (q : Fin 1024) :
    maximumf (broadcast S1024 (FloatOps.ofBits (F := Ideal) .f32 0xFF800000#32))
      (multiReduction .maximumf [1] S1024 x 0xFF800000#32 h hφ hacc) (ix1 q) = rowMax (brow x q) := by
  rw [maximumf_apply, rowMaxFold_apply, broadcast_apply]
  rfl

/-- Subtracting a per-row value, spread as a column over the classes, that is the row's maximum: the shifted row. -/
private theorem shift_of (x : FVec Ideal S1024x1000 .f32) (m : FVec Ideal S1024 .f32) (hs : S1024.ShapeCasts S1024x1)
    (hb : S1024x1.Broadcasts S1024x1000) (q : Fin 1024) (c : Fin 1000) (hm : m (ix1 q) = rowMax (brow x q)) :
    subf x (broadcastTo S1024x1000 (shapeCast S1024x1 m hs) hb) (ix2 q c) = shifted (brow x q) c := by
  rw [subf_apply, colBcast_apply, col_apply, hm]
  rfl

/-- The shifted row minus the logarithm of the row sum of its exponentials: the log-softmax. -/
private theorem logProb_of (x : FVec Ideal S1024x1000 .f32) (m : FVec Ideal S1024 .f32) (hs : S1024.ShapeCasts S1024x1)
    (hb : S1024x1.Broadcasts S1024x1000) (h : S1024x1000.Reduces [1] S1024) (hφ : FKind.Formats .f32)
    (hacc : @Eq (BitVec FTy.f32.bits) 0x00000000#32 0x00000000#32) (q : Fin 1024) (c : Fin 1000)
    (hm : m (ix1 q) = rowMax (brow x q)) :
    subf (subf x (broadcastTo S1024x1000 (shapeCast S1024x1 m hs) hb))
      (broadcastTo S1024x1000 (log (shapeCast S1024x1
        (multiReduction .add [1] S1024 (exp (subf x (broadcastTo S1024x1000 (shapeCast S1024x1 m hs) hb))) 0x00000000#32 h hφ hacc) hs)) hb)
      (ix2 q c) = logProb (brow x q) c := by
  rw [subf_apply, shift_of x m hs hb q c hm, colBcast_apply, log_apply, col_apply, rowSum_apply]
  have e : ∀ c' : Fin 1000, exp (subf x (broadcastTo S1024x1000 (shapeCast S1024x1 m hs) hb)) (ix2 q c')
      = Ideal.exp (shifted (brow x q) c') := fun c' => by rw [exp_apply, shift_of x m hs hb q c' hm]
  rw [Finset.sum_congr rfl fun c' _ => e c']
  rfl

/-- The row sum of probability times log-probability, viewed as a column: the row's negative entropy. -/
private theorem negEnt_of (x : FVec Ideal S1024x1000 .f32) (P L : FVec Ideal S1024x1000 .f32) (hs : S1024.ShapeCasts S1024x1)
    (h : S1024x1000.Reduces [1] S1024) (hφ : FKind.Formats .f32)
    (hacc : @Eq (BitVec FTy.f32.bits) 0x00000000#32 0x00000000#32) (q : Fin 1024) (u : Fin 1)
    (hP : ∀ c, P (ix2 q c) = probK (brow x q) c) (hL : ∀ c, L (ix2 q c) = logProb (brow x q) c) :
    shapeCast S1024x1 (multiReduction .add [1] S1024 (mulf P L) 0x00000000#32 h hφ hacc) hs (ix2 q u)
      = negEnt (brow x q) := by
  rw [col_apply, rowSum_apply]
  exact Finset.sum_congr rfl fun c _ => by rw [mulf_apply, hP, hL]

/-! ## The three views' log-probabilities, probabilities and negative entropies at a row -/

private theorem pay8_apply (x : Vec Ideal S1024x1000 .f32) (q : Fin 1024) (c : Fin 1000) :
    k0_pay8 (F := Ideal) x (ix2 q c) = logProb (brow x q) c := by
  unfold k0_pay8
  refine logProb_of x _ _ _ _ _ _ q c ?_
  exact rmax_apply x _ _ _ q

private theorem pay9_apply (x : Vec Ideal S1024x1000 .f32) (q : Fin 1024) (c : Fin 1000) :
    k0_pay9 (F := Ideal) x (ix2 q c) = probK (brow x q) c := by
  unfold k0_pay9
  rw [exp_apply, pay8_apply]
  rfl

private theorem pay10_apply (x : Vec Ideal S1024x1000 .f32) (q : Fin 1024) (u : Fin 1) :
    k0_pay10 (F := Ideal) x (ix2 q u) = negEnt (brow x q) := by
  unfold k0_pay10
  exact negEnt_of x _ _ _ _ _ _ q u (pay9_apply x q) (pay8_apply x q)

private theorem pay13_apply (x : Vec Ideal S1024x1000 .f32) (q : Fin 1024) (c : Fin 1000) :
    k0_pay13 (F := Ideal) x (k0_pay11 x) k0_pay12 (ix2 q c) = logProb (brow x q) c := by
  unfold k0_pay13 k0_pay11 k0_pay12
  refine logProb_of x _ _ _ _ _ _ q c ?_
  exact rmax_apply x _ _ _ q

private theorem pay14_apply (x : Vec Ideal S1024x1000 .f32) (q : Fin 1024) (c : Fin 1000) :
    k0_pay14 (F := Ideal) x (k0_pay11 x) k0_pay12 (ix2 q c) = probK (brow x q) c := by
  unfold k0_pay14
  rw [exp_apply, pay13_apply]
  rfl

private theorem pay15_apply (x : Vec Ideal S1024x1000 .f32) (q : Fin 1024) (c : Fin 1000) :
    k0_pay15 (F := Ideal) x (ix2 q c) = logProb (brow x q) c := by
  unfold k0_pay15
  refine logProb_of x _ _ _ _ _ _ q c ?_
  exact rmax_apply x _ _ _ q

private theorem pay16_apply (x : Vec Ideal S1024x1000 .f32) (q : Fin 1024) (c : Fin 1000) :
    k0_pay16 (F := Ideal) x (ix2 q c) = probK (brow x q) c := by
  unfold k0_pay16
  rw [exp_apply, pay15_apply]
  rfl

/-- The three views' probabilities added: the row's probability sum at a class. -/
private theorem pay17_apply (x0 x1 x2 : Vec Ideal S1024x1000 .f32) (q : Fin 1024) (c : Fin 1000) :
    k0_pay17 (F := Ideal) (k0_pay9 x0) x1 (k0_pay11 x1) k0_pay12 x2 (ix2 q c)
      = psum3 (brow x0 q) (brow x1 q) (brow x2 q) c := by
  unfold k0_pay17
  rw [addf_apply, addf_apply, pay9_apply, pay14_apply, pay16_apply]
  rfl

/-! ## The one-hot entry and the row's count -/

/-- A class number, written as a 32-bit word, reads back signed as itself. -/
private theorem toInt_ofNat_class (k : Fin 1000) : (BitVec.ofNat 32 k.val).toInt = (k.val : Int) := by
  have hk := k.isLt
  have h1 : (BitVec.ofNat 32 k.val).toNat = k.val := by
    rw [BitVec.toNat_ofNat]; exact Nat.mod_eq_of_lt (by omega)
  rw [BitVec.toInt_eq_toNat_cond, h1, if_pos (by omega)]

/-- A label word is the word of class `k` exactly when its signed value is `k`. -/
private theorem label_eq_iff (b : BitVec 32) (k : Fin 1000) : b = BitVec.ofNat 32 k.val ↔ b.toInt = (k.val : Int) := by
  constructor
  · rintro rfl; exact toInt_ofNat_class k
  · intro h
    have e := congrArg (BitVec.ofInt 32) h
    rw [BitVec.ofInt_toInt, BitVec.ofInt_natCast] at e
    exact e

/-- The comparison bit of a label with a class, widened and converted: 1 when the label names the class, else 0. -/
private theorem hotWord (b : BitVec 32) (k : Fin 1000) :
    FloatOps.sitofp (F := Ideal) .f32 ((IntOp.cmpi .eq b (BitVec.ofNat 32 k.val)).setWidth 32) = hot b k := by
  show ((((BitVec.ofBool (b == BitVec.ofNat 32 k.val)).setWidth 32).toInt : ℝ) : EReal) = hot b k
  unfold hot
  by_cases h : b = BitVec.ofNat 32 k.val
  · have hb : (b == BitVec.ofNat 32 k.val) = true := by simpa using h
    have e1 : ((BitVec.ofBool true).setWidth 32).toInt = 1 := by decide
    rw [if_pos ((label_eq_iff b k).mp h), hb, e1]
    simp
  · have hb : (b == BitVec.ofNat 32 k.val) = false := by simpa using h
    have e0 : ((BitVec.ofBool false).setWidth 32).toInt = 0 := by decide
    rw [if_neg (fun h' => h ((label_eq_iff b k).mpr h')), hb, e0]
    simp

private theorem cmpi_apply {s : Shape} {w : Nat} (p : CmpIPredicate) (a b : IVec s w) (i : s.Idx) :
    cmpi p a b i = IntOp.cmpi p (a i) (b i) := rfl

private theorem pay5_apply (x3 : Vec Ideal S1024x1 .i32) (q : Fin 1024) (k : Fin 1000) :
    k0_pay5 (F := Ideal) x3 (ix2 q k) = hot (x3 (ix2 q 0)) k := by
  unfold k0_pay5
  rw [sitofp_apply, extui_apply, cmpi_apply, colBcast_apply, shapeCast_self, iota_single_apply]
  exact hotWord (x3 (ix2 q 0)) k

private theorem pay6_apply (x3 : Vec Ideal S1024x1 .i32) (q : Fin 1024) (k : Fin 1000) :
    k0_pay6 (F := Ideal) x3 (ix2 q k) = hot (x3 (ix2 q 0)) k := by
  unfold k0_pay6
  rw [truncf_apply, pay5_apply]

/-- The row's own count: its one-hot vector against the counts, and at least 1. -/
private theorem pay7_apply (x3 : Vec Ideal S1024x1 .i32) (x4 : Vec Ideal S1x1000 .f32) (q : Fin 1024) (u : Fin 1) :
    k0_pay7 (F := Ideal) x3 x4 (ix2 q u) = rowCount (x3 (ix2 q 0)) x4 := by
  unfold k0_pay7
  rw [maximumf_apply, col_apply, rowSum_apply, broadcast_apply]
  have e : ∀ k : Fin 1000, mulf (k0_pay5 (F := Ideal) x3)
      (broadcastTo S1024x1000 (shapeCast S1x1000 x4 shapeCasts_S1x1000_S1x1000) broadcasts_S1x1000_S1024x1000) (ix2 q k)
        = hot (x3 (ix2 q 0)) k * x4 (ix2 0 k) := fun k => by
    rw [mulf_apply, pay5_apply, broadcastTo_1b_ab_apply, shapeCast_self]
  rw [Finset.sum_congr rfl fun k _ => e k]
  rfl

/-! ## The tile's entropy term -/

/-- The indices of the [1, 1024, 1] arrangement are the tile's rows. -/
private def rowsEquiv : S1x1024x1.Idx ≃ Fin 1024 where
  toFun i := i 1
  invFun q := ix3 (0 : Fin 1) q (0 : Fin 1)
  left_inv i := by
    funext a
    match a with
    | ⟨0, _⟩ => exact Fin.ext (Nat.lt_one_iff.mp (i 0).isLt).symm
    | ⟨1, _⟩ => rfl
    | ⟨2, _⟩ => exact Fin.ext (Nat.lt_one_iff.mp (i 2).isLt).symm
  right_inv _ := rfl

/-- The sum over both axes of the [1, 1024, 1] arrangement is the sum over the tile's rows. -/
private theorem total_apply (y : FVec Ideal S1x1024x1 .f32) (h : S1x1024x1.Reduces [1, 2] S1) (hφ : FKind.Formats .f32)
    (hacc : @Eq (BitVec FTy.f32.bits) 0x00000000#32 0x00000000#32) (j : S1.Idx) :
    multiReduction .add [1, 2] S1 y 0x00000000#32 h hφ hacc j = ∑ q : Fin 1024, y (ix3 (0 : Fin 1) q (0 : Fin 1)) := by
  refine (Ideal.multiReduction_add_total y 0x00000000#32 h (fun b => ?_) hφ hacc j).trans ?_
  · match b with
    | ⟨0, _⟩ => rfl
  · exact (Equiv.sum_comp rowsEquiv.symm y).symm

/-- One row's share: the three negative entropies added, divided by the row's count. -/
private theorem entRow_of (x0 x1 x2 : FVec Ideal S1024x1000 .f32) (x3 : Vec Ideal S1024x1 .i32) (x4 : Vec Ideal S1x1000 .f32)
    (N0 N1 N2 C : FVec Ideal S1024x1 .f32) (hs : S1024x1.ShapeCasts S1x1024x1) (q : Fin 1024)
    (h0 : N0 (ix2 q (0 : Fin 1)) = negEnt (brow x0 q)) (h1 : N1 (ix2 q (0 : Fin 1)) = negEnt (brow x1 q))
    (h2 : N2 (ix2 q (0 : Fin 1)) = negEnt (brow x2 q)) (hC : C (ix2 q (0 : Fin 1)) = rowCount (x3 (ix2 q 0)) x4) :
    shapeCast S1x1024x1 (divf (addf (addf N0 N1) N2) C) hs (ix3 (0 : Fin 1) q (0 : Fin 1))
      = Ideal.div (ent3 (brow x0 q) (brow x1 q) (brow x2 q)) (rowCount (x3 (ix2 q 0)) x4) := by
  rw [shapeCast_ab_1ab_apply, divf_apply, addf_apply, addf_apply, h0, h1, h2, hC]
  rfl

/-- The rows' shares summed and read out as a scalar: what the tile adds to Σ H / n. -/
private theorem entTotal_of (x0 x1 x2 : FVec Ideal S1024x1000 .f32) (x3 : Vec Ideal S1024x1 .i32) (x4 : Vec Ideal S1x1000 .f32)
    (N0 N1 N2 C : FVec Ideal S1024x1 .f32) (hs : S1024x1.ShapeCasts S1x1024x1)
    (h : S1x1024x1.Reduces [1, 2] S1) (hφ : FKind.Formats .f32)
    (hacc : @Eq (BitVec FTy.f32.bits) 0x00000000#32 0x00000000#32) (hs1 : S1.ShapeCasts S1x1x1)
    (hp : ∀ a, (![0, 0, 0] : Fin 3 → Nat) a < S1x1x1.size a)
    (h0 : ∀ q : Fin 1024, N0 (ix2 q (0 : Fin 1)) = negEnt (brow x0 q))
    (h1 : ∀ q : Fin 1024, N1 (ix2 q (0 : Fin 1)) = negEnt (brow x1 q))
    (h2 : ∀ q : Fin 1024, N2 (ix2 q (0 : Fin 1)) = negEnt (brow x2 q))
    (hC : ∀ q : Fin 1024, C (ix2 q (0 : Fin 1)) = rowCount (x3 (ix2 q 0)) x4) :
    extractAt ![0, 0, 0] (shapeCast S1x1x1
      (multiReduction .add [1, 2] S1 (shapeCast S1x1024x1 (divf (addf (addf N0 N1) N2) C) hs) 0x00000000#32 h hφ hacc) hs1) hp
      = blkEnt x0 x1 x2 x3 x4 := by
  refine (total_apply _ h hφ hacc _).trans ?_
  exact Finset.sum_congr rfl fun q _ => entRow_of x0 x1 x2 x3 x4 N0 N1 N2 C hs q (h0 q) (h1 q) (h2 q) (hC q)

private theorem pay18_apply (x0 x1 x2 : Vec Ideal S1024x1000 .f32) (x3 : Vec Ideal S1024x1 .i32) (x4 : Vec Ideal S1x1000 .f32)
    (xo6 : Vec Ideal S1x1x1 .f32) :
    k0_pay18 (F := Ideal) (k0_pay7 x3 x4) (k0_pay10 x0) x1 (k0_pay11 x1) k0_pay12 x2 xo6 (ix2 (0 : Fin 1) (0 : Fin 1))
      = xo6 (ix3 (0 : Fin 1) (0 : Fin 1) (0 : Fin 1)) + blkEnt x0 x1 x2 x3 x4 := by
  unfold k0_pay18
  rw [addf_apply, broadcast_apply, shapeCast_1ab_ab_apply]
  refine congrArg (xo6 (ix3 (0 : Fin 1) (0 : Fin 1) (0 : Fin 1)) + ·) ?_
  refine entTotal_of x0 x1 x2 x3 x4 _ _ _ _ _ _ _ _ _ _ ?_ ?_ ?_ ?_
  · exact fun q => pay10_apply x0 q 0
  · exact fun q => negEnt_of x1 _ _ _ _ _ _ q 0 (pay14_apply x1 q) (pay13_apply x1 q)
  · exact fun q => negEnt_of x2 _ _ _ _ _ _ q 0 (pay16_apply x2 q) (pay15_apply x2 q)
  · exact fun q => pay7_apply x3 x4 q 0

private theorem pay1_apply (v : FVec Ideal S1x1 .f32) :
    k0_pay1 (F := Ideal) v (ix3 (0 : Fin 1) (0 : Fin 1) (0 : Fin 1)) = v (ix2 (0 : Fin 1) (0 : Fin 1)) := by
  unfold k0_pay1
  exact shapeCast_ab_1ab_apply v _ 0 0 0

private theorem pay4_apply : k0_pay4 (F := Ideal) (ix3 (0 : Fin 1) (0 : Fin 1) (0 : Fin 1)) = cZero := by
  unfold k0_pay4
  rw [shapeCast_ab_1ab_apply, broadcast_apply]
  rfl

/-! ## The products with the one-hot matrix: a sum over the tile's rows -/

/-- At output entry (k, c) and row `q` of the contraction, the left factor is read at (q, k). -/
private theorem lhsIdx_eq (k c' : Fin 1000) (q : Fin 1024) :
    dot_S1024x1000_S1024x1000_S1000x1000_0_0_1_1_n_n.lhsIdx (ix2 k c') ((contrEquiv1 dot_S1024x1000_S1024x1000_S1000x1000_0_0_1_1_n_n 1024 rfl rfl).symm q) = ix2 q k := by
  have cq := contrEquiv1_symm_val dot_S1024x1000_S1024x1000_S1000x1000_0_0_1_1_n_n 1024 rfl rfl q
  funext ax; apply Fin.ext
  match ax with
  | ⟨0, _⟩ => simp [DotDims.lhsIdx, dot_S1024x1000_S1024x1000_S1000x1000_0_0_1_1_n_n]; exact cq
  | ⟨1, _⟩ => simp [DotDims.lhsIdx, dot_S1024x1000_S1024x1000_S1000x1000_0_0_1_1_n_n]; rfl

/-- … and the right factor at (q, c). -/
private theorem rhsIdx_eq (k c' : Fin 1000) (q : Fin 1024) :
    dot_S1024x1000_S1024x1000_S1000x1000_0_0_1_1_n_n.rhsIdx (ix2 k c') ((contrEquiv1 dot_S1024x1000_S1024x1000_S1000x1000_0_0_1_1_n_n 1024 rfl rfl).symm q) = ix2 q c' := by
  have cq := contrEquiv1_symm_val dot_S1024x1000_S1024x1000_S1000x1000_0_0_1_1_n_n 1024 rfl rfl q
  funext ax; apply Fin.ext
  match ax with
  | ⟨0, _⟩ => simp [DotDims.rhsIdx, dot_S1024x1000_S1024x1000_S1000x1000_0_0_1_1_n_n]; exact cq
  | ⟨1, _⟩ => simp [DotDims.rhsIdx, dot_S1024x1000_S1024x1000_S1000x1000_0_0_1_1_n_n]; rfl

/-- The product contracting the tile's rows, from the zero accumulator, at (k, c): Σ over rows of left (q, k) · right (q, c). -/
private theorem rowsMatmul_apply (A B : FVec Ideal S1024x1000 .bf16) (k c' : Fin 1000) :
    matmul dot_S1024x1000_S1024x1000_S1000x1000_0_0_1_1_n_n none A B (constant S1000x1000 .f32 0x00000000#32) (ix2 k c')
      = ∑ q : Fin 1024, A (ix2 q k) * B (ix2 q c') := by
  refine (Ideal.matmul_constant_zero_apply dot_S1024x1000_S1024x1000_S1000x1000_0_0_1_1_n_n none A B (ix2 k c')).trans ?_
  rw [← Equiv.sum_comp (contrEquiv1 dot_S1024x1000_S1024x1000_S1000x1000_0_0_1_1_n_n 1024 rfl rfl).symm]
  refine Finset.sum_congr rfl fun q _ => ?_
  rw [lhsIdx_eq, rhsIdx_eq]

/-- The class-sum store value at (k, c): the previous contents plus the tile's two products. -/
private theorem pay2_apply (x0 x1 x2 : Vec Ideal S1024x1000 .f32) (x3 : Vec Ideal S1024x1 .i32)
    (xo5 : Vec Ideal S1x1000x1000 .f32) (k c' : Fin 1000) :
    k0_pay2 (F := Ideal) (k0_pay6 x3) (k0_pay17 (k0_pay9 x0) x1 (k0_pay11 x1) k0_pay12 x2) xo5 (ix3 (0 : Fin 1) k c')
      = xo5 (ix3 (0 : Fin 1) k c') + blkMix x0 x1 x2 x3 k c' := by
  unfold k0_pay2
  rw [shapeCast_ab_1ab_apply, addf_apply, addf_apply, shapeCast_1ab_ab_apply, rowsMatmul_apply, rowsMatmul_apply]
  refine congrArg (xo5 (ix3 (0 : Fin 1) k c') + ·) ?_
  unfold blkMix
  refine congrArg₂ (· + ·) (Finset.sum_congr rfl fun q _ => ?_) (Finset.sum_congr rfl fun q _ => ?_)
  · rw [pay6_apply, truncf_apply, pay17_apply]
  · rw [pay6_apply, truncf_apply, subf_apply, pay17_apply]

private theorem pay3_apply (k c' : Fin 1000) : k0_pay3 (F := Ideal) (ix3 (0 : Fin 1) k c') = cZero := by
  unfold k0_pay3
  rw [shapeCast_ab_1ab_apply, broadcast_apply]
  rfl

/-! ## The four accumulator blocks after one run of the body -/

theorem out_A_5 (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S1024x1000 .f32) (harg4 : arg4.IsWhole) (arg5 : Memref sig .tc .vmem S1024x1 .i32) (harg5 : arg5.IsWhole) (arg6 : Memref sig .tc .vmem S1x1000 .f32) (harg6 : arg6.IsWhole) (arg7 : Memref sig .tc .vmem S1x1000x1000 .f32) (harg7 : arg7.IsWhole) (arg8 : Memref sig .tc .vmem S1x1x1 .f32) (harg8 : arg8.IsWhole) (hc0 : cond0_0 i)
    (x0 x1 x2 : Vec Ideal S1024x1000 .f32) (x3 : Vec Ideal S1024x1 .i32) (x4 : Vec Ideal S1x1000 .f32) (k c' : Fin 1000) :
    out0_A_5 (F := Ideal) c i arg2 harg2 arg3 harg3 arg4 harg4 arg5 harg5 arg6 harg6 arg7 harg7 arg8 harg8 hc0 x0 x1 x2 x3 x4 (ix3 (0 : Fin 1) k c') = cZero + blkMix x0 x1 x2 x3 k c' := by
  refine (congrFun (piece_A_5 (F := Ideal) c i arg2 harg2 arg3 harg3 arg4 harg4 arg5 harg5 arg6 harg6 arg7 harg7 arg8 harg8 hc0 x0 x1 x2 x3 x4) (ix3 (0 : Fin 1) k c')).trans ?_
  rw [pay2_apply, pay3_apply]

theorem out_A_6 (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S1024x1000 .f32) (harg4 : arg4.IsWhole) (arg5 : Memref sig .tc .vmem S1024x1 .i32) (harg5 : arg5.IsWhole) (arg6 : Memref sig .tc .vmem S1x1000 .f32) (harg6 : arg6.IsWhole) (arg7 : Memref sig .tc .vmem S1x1000x1000 .f32) (harg7 : arg7.IsWhole) (arg8 : Memref sig .tc .vmem S1x1x1 .f32) (harg8 : arg8.IsWhole) (hc0 : cond0_0 i)
    (x0 x1 x2 : Vec Ideal S1024x1000 .f32) (x3 : Vec Ideal S1024x1 .i32) (x4 : Vec Ideal S1x1000 .f32) :
    out0_A_6 (F := Ideal) c i arg2 harg2 arg3 harg3 arg4 harg4 arg5 harg5 arg6 harg6 arg7 harg7 arg8 harg8 hc0 x0 x1 x2 x3 x4 (ix3 (0 : Fin 1) (0 : Fin 1) (0 : Fin 1)) = cZero + blkEnt x0 x1 x2 x3 x4 := by
  refine (congrFun (piece_A_6 (F := Ideal) c i arg2 harg2 arg3 harg3 arg4 harg4 arg5 harg5 arg6 harg6 arg7 harg7 arg8 harg8 hc0 x0 x1 x2 x3 x4) (ix3 (0 : Fin 1) (0 : Fin 1) (0 : Fin 1))).trans ?_
  rw [pay1_apply, pay18_apply, pay4_apply]

theorem out_B_5 (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S1024x1000 .f32) (harg4 : arg4.IsWhole) (arg5 : Memref sig .tc .vmem S1024x1 .i32) (harg5 : arg5.IsWhole) (arg6 : Memref sig .tc .vmem S1x1000 .f32) (harg6 : arg6.IsWhole) (arg7 : Memref sig .tc .vmem S1x1000x1000 .f32) (harg7 : arg7.IsWhole) (arg8 : Memref sig .tc .vmem S1x1x1 .f32) (harg8 : arg8.IsWhole) (hc0 : ¬cond0_0 i)
    (x0 x1 x2 : Vec Ideal S1024x1000 .f32) (x3 : Vec Ideal S1024x1 .i32) (x4 : Vec Ideal S1x1000 .f32)
    (xo5 : Vec Ideal S1x1000x1000 .f32) (xo6 : Vec Ideal S1x1x1 .f32) (k c' : Fin 1000) :
    out0_B_5 (F := Ideal) c i arg2 harg2 arg3 harg3 arg4 harg4 arg5 harg5 arg6 harg6 arg7 harg7 arg8 harg8 hc0 x0 x1 x2 x3 x4 xo5 xo6 (ix3 (0 : Fin 1) k c')
      = xo5 (ix3 (0 : Fin 1) k c') + blkMix x0 x1 x2 x3 k c' := by
  refine (congrFun (piece_B_5 (F := Ideal) c i arg2 harg2 arg3 harg3 arg4 harg4 arg5 harg5 arg6 harg6 arg7 harg7 arg8 harg8 hc0 x0 x1 x2 x3 x4 xo5 xo6) (ix3 (0 : Fin 1) k c')).trans ?_
  exact pay2_apply x0 x1 x2 x3 xo5 k c'

theorem out_B_6 (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S1024x1000 .f32) (harg4 : arg4.IsWhole) (arg5 : Memref sig .tc .vmem S1024x1 .i32) (harg5 : arg5.IsWhole) (arg6 : Memref sig .tc .vmem S1x1000 .f32) (harg6 : arg6.IsWhole) (arg7 : Memref sig .tc .vmem S1x1000x1000 .f32) (harg7 : arg7.IsWhole) (arg8 : Memref sig .tc .vmem S1x1x1 .f32) (harg8 : arg8.IsWhole) (hc0 : ¬cond0_0 i)
    (x0 x1 x2 : Vec Ideal S1024x1000 .f32) (x3 : Vec Ideal S1024x1 .i32) (x4 : Vec Ideal S1x1000 .f32)
    (xo5 : Vec Ideal S1x1000x1000 .f32) (xo6 : Vec Ideal S1x1x1 .f32) :
    out0_B_6 (F := Ideal) c i arg2 harg2 arg3 harg3 arg4 harg4 arg5 harg5 arg6 harg6 arg7 harg7 arg8 harg8 hc0 x0 x1 x2 x3 x4 xo5 xo6 (ix3 (0 : Fin 1) (0 : Fin 1) (0 : Fin 1))
      = xo6 (ix3 (0 : Fin 1) (0 : Fin 1) (0 : Fin 1)) + blkEnt x0 x1 x2 x3 x4 := by
  refine (congrFun (piece_B_6 (F := Ideal) c i arg2 harg2 arg3 harg3 arg4 harg4 arg5 harg5 arg6 harg6 arg7 harg7 arg8 harg8 hc0 x0 x1 x2 x3 x4 xo5 xo6) (ix3 (0 : Fin 1) (0 : Fin 1) (0 : Fin 1))).trans ?_
  rw [pay1_apply, pay18_apply]

end Cert.KernelIdeal.KTile

end
-- ==== Proof.KernelAccum.lean ====
/-
  The two result arrays of the kernel region after the run: core by core, zero plus the core's eight tiles'
  contributions.
-/
import proofs.«417588_j592705487350_3_alg».proof.Proof.Gen.KernelIdeal.Frame
import proofs.«417588_j592705487350_3_alg».proof.Proof.Spec
import proofs.«417588_j592705487350_3_alg».proof.Proof.KernelArgs
import proofs.«417588_j592705487350_3_alg».proof.Proof.KernelPre
import proofs.«417588_j592705487350_3_alg».proof.Proof.KernelTile
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

set_option maxRecDepth 16384

noncomputable section

namespace Cert.KernelIdeal.KAccum

open Cert.KernelIdeal Cert.KernelIdeal.Gen Idealize.ShloMosaic Idealize.ShloMosaic.TcCoe Idealize.ShloMosaic.ValueIdx Idealize.SL.Sem SupJsd
open Idealize.ShloMosaic.Pipeline (Dat)
open Cert.KernelIdeal.KArgs

variable (m : (ℓ : Loc nD τ sig) → Buf (Elt Ideal) ℓ)

/-! ## Where each window's block sits, decided once over the sixteen points -/

/-- The block indices: the logits and label tiles move with the point, the counts row stays, and the two results sit at
    the point's core. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 3) = t.val / 8 ∧ win0_5.index t (1 : Fin 3) = 0 ∧ win0_5.index t (2 : Fin 3) = 0
    ∧ win0_6.index t (0 : Fin 3) = t.val / 8 ∧ win0_6.index t (1 : Fin 3) = 0 ∧ win0_6.index t (2 : Fin 3) = 0 :=
  (by decide +kernel : ∀ t : Fin grid0.N, _)

/-- A grid point as a tile number. -/
def tileOf (t : Fin cfg0.N) : Fin 16 := ⟨t.val, lt_of_lt_of_eq t.isLt N_0⟩

/-! ## The input blocks, typed as the specification's tiles -/

abbrev xb0 (c : Dev nD) (t : Fin cfg0.N) : Vec Ideal S1024x1000 .f32 := iblk (F := Ideal) m c 0 t
abbrev xb1 (c : Dev nD) (t : Fin cfg0.N) : Vec Ideal S1024x1000 .f32 := iblk (F := Ideal) m c 1 t
abbrev xb2 (c : Dev nD) (t : Fin cfg0.N) : Vec Ideal S1024x1000 .f32 := iblk (F := Ideal) m c 2 t
abbrev lb (c : Dev nD) (t : Fin cfg0.N) : Vec Ideal S1024x1 .i32 := iblk (F := Ideal) m c 3 t
abbrev cb (c : Dev nD) (t : Fin cfg0.N) : Vec Ideal S1x1000 .f32 := iblk (F := Ideal) m c 4 t

/-- The first logits window's block at point t is tile t of the first argument. -/
theorem xb0_eq (c : Dev nD) (t : Fin cfg0.N) : xb0 m c t = blkOf (X0 m c) (tileOf t) := by
  obtain ⟨e0, e1, -⟩ := idx_facts t
  funext j
  obtain ⟨q, c', rfl⟩ : ∃ (q : Fin 1024) (c' : Fin 1000), j = ix2 q c' := ⟨j 0, j 1, eq_ix2 j⟩
  show iblk (F := Ideal) m c 0 t (ix2 q c') = X0 m c (ix2 (rowAt (tileOf t) q) c')
  unfold iblk
  rw [View.read_apply]
  show V m c main_arg0 (((cfg0.win 0).blk t).view.emb (ix2 q c')) = X0 m c (ix2 (rowAt (tileOf t) q) c')
  have hV := V_main_arg0 (F := Ideal) m c
  rw [hV]
  show m ((c.tc : Thread nD τ).loc main_arg0) _ = m ((c.tc : Thread nD τ).loc main_arg0) _
  congr 1
  funext a
  apply Fin.ext
  match a with
  | ⟨0, _⟩ => show win0_0.index t (0 : Fin 2) * 1024 + 1 * q.val = t.val * 1024 + q.val; rw [e0]; omega
  | ⟨1, _⟩ => show win0_0.index t (1 : Fin 2) * 1000 + 1 * c'.val = c'.val; rw [e1]; omega

/-- The second logits window's block at point t is tile t of the second argument. -/
theorem xb1_eq (c : Dev nD) (t : Fin cfg0.N) : xb1 m c t = blkOf (X1 m c) (tileOf t) := by
  obtain ⟨-, -, e0, e1, -⟩ := idx_facts t
  funext j
  obtain ⟨q, c', rfl⟩ : ∃ (q : Fin 1024) (c' : Fin 1000), j = ix2 q c' := ⟨j 0, j 1, eq_ix2 j⟩
  show iblk (F := Ideal) m c 1 t (ix2 q c') = X1 m c (ix2 (rowAt (tileOf t) q) c')
  unfold iblk
  rw [View.read_apply]
  show V m c main_arg1 (((cfg0.win 1).blk t).view.emb (ix2 q c')) = X1 m c (ix2 (rowAt (tileOf t) q) c')
  have hV := V_main_arg1 (F := Ideal) m c
  rw [hV]
  show m ((c.tc : Thread nD τ).loc main_arg1) _ = m ((c.tc : Thread nD τ).loc main_arg1) _
  congr 1
  funext a
  apply Fin.ext
  match a with
  | ⟨0, _⟩ => show win0_1.index t (0 : Fin 2) * 1024 + 1 * q.val = t.val * 1024 + q.val; rw [e0]; omega
  | ⟨1, _⟩ => show win0_1.index t (1 : Fin 2) * 1000 + 1 * c'.val = c'.val; rw [e1]; omega

/-- The third logits window's block at point t is tile t of the third argument. -/
theorem xb2_eq (c : Dev nD) (t : Fin cfg0.N) : xb2 m c t = blkOf (X2 m c) (tileOf t) := by
  obtain ⟨-, -, -, -, e0, e1, -⟩ := idx_facts t
  funext j
  obtain ⟨q, c', rfl⟩ : ∃ (q : Fin 1024) (c' : Fin 1000), j = ix2 q c' := ⟨j 0, j 1, eq_ix2 j⟩
  show iblk (F := Ideal) m c 2 t (ix2 q c') = X2 m c (ix2 (rowAt (tileOf t) q) c')
  unfold iblk
  rw [View.read_apply]
  show V m c main_arg2 (((cfg0.win 2).blk t).view.emb (ix2 q c')) = X2 m c (ix2 (rowAt (tileOf t) q) c')
  have hV := V_main_arg2 (F := Ideal) m c
  rw [hV]
  show m ((c.tc : Thread nD τ).loc main_arg2) _ = m ((c.tc : Thread nD τ).loc main_arg2) _
  congr 1
  funext a
  apply Fin.ext
  match a with
  | ⟨0, _⟩ => show win0_2.index t (0 : Fin 2) * 1024 + 1 * q.val = t.val * 1024 + q.val; rw [e0]; omega
  | ⟨1, _⟩ => show win0_2.index t (1 : Fin 2) * 1000 + 1 * c'.val = c'.val; rw [e1]; omega

/-- The labels window's block at point t is tile t of the labels, as a column: the labels column the region finds
    holds the label of row r at (r, 0). -/
theorem lb_eq (c : Dev nD) (t : Fin cfg0.N) : lb m c t = lblkOf (LAB m c) (tileOf t) := by
  obtain ⟨-, -, -, -, -, -, e0, e1, -⟩ := idx_facts t
  funext j
  obtain ⟨q, z, rfl⟩ : ∃ (q : Fin 1024) (z : Fin 1), j = ix2 q z := ⟨j 0, j 1, eq_ix2 j⟩
  show iblk (F := Ideal) m c 3 t (ix2 q z) = LAB m c (ix1 (rowAt (tileOf t) q))
  unfold iblk
  rw [View.read_apply]
  show V m c main_v0 (((cfg0.win 3).blk t).view.emb (ix2 q z)) = LAB m c (ix1 (rowAt (tileOf t) q))
  have hV := KPre.V_v0 m c
  rw [hV]
  refine congrArg (LAB m c) (congrArg (ix1 (n := 16384)) (Fin.ext ?_))
  show win0_3.index t (0 : Fin 2) * 1024 + 1 * q.val = t.val * 1024 + q.val
  rw [e0]; omega

/-- The counts window's block is the whole counts row at every point. -/
theorem cb_eq (c : Dev nD) (t : Fin cfg0.N) : cb m c t = countRow (LAB m c) := by
  obtain ⟨-, -, -, -, -, -, -, -, e0, e1, -⟩ := idx_facts t
  funext j
  obtain ⟨z, k, rfl⟩ : ∃ (z : Fin 1) (k : Fin 1000), j = ix2 z k := ⟨j 0, j 1, eq_ix2 j⟩
  show iblk (F := Ideal) m c 4 t (ix2 z k) = countRow (LAB m c) (ix2 z k)
  unfold iblk
  rw [View.read_apply]
  show V m c main_v7 (((cfg0.win 4).blk t).view.emb (ix2 z k)) = countRow (LAB m c) (ix2 z k)
  have hV := KPre.V_v7 m c
  rw [hV]
  refine congrArg (countRow (LAB m c)) ?_
  funext a
  apply Fin.ext
  match a with
  | ⟨0, _⟩ => show win0_4.index t (0 : Fin 2) * 1 + 1 * z.val = z.val; rw [e0]; omega
  | ⟨1, _⟩ => show win0_4.index t (1 : Fin 2) * 1000 + 1 * k.val = k.val; rw [e1]; omega

/-- So one point's contribution to the two accumulators is its tile's. -/
theorem mix_eq (c : Dev nD) (t : Fin cfg0.N) (k c' : Fin 1000) :
    blkMix (xb0 m c t) (xb1 m c t) (xb2 m c t) (lb m c t) k c'
      = tileMix (X0 m c) (X1 m c) (X2 m c) (LAB m c) (tileOf t) k c' := by
  rw [xb0_eq m c t, xb1_eq m c t, xb2_eq m c t, lb_eq m c t]
  rfl

theorem ent_eq (c : Dev nD) (t : Fin cfg0.N) :
    blkEnt (xb0 m c t) (xb1 m c t) (xb2 m c t) (lb m c t) (cb m c t)
      = tileEnt (X0 m c) (X1 m c) (X2 m c) (LAB m c) (tileOf t) := by
  rw [xb0_eq m c t, xb1_eq m c t, xb2_eq m c t, lb_eq m c t, cb_eq m c t]
  rfl

/-! ## The accumulators point by point -/

/-- The tile a natural number names (taken modulo sixteen). -/
def tileAt (n : ℕ) : Fin 16 := ⟨n % 16, Nat.mod_lt _ (by decide)⟩

/-- At a core's first point the mixture accumulator is zero plus the tile's contribution. -/
theorem mix_reset (c : Dev nD) (t : Fin cfg0.N) (h0 : t.val % 8 = 0) (k c' : Fin 1000) :
    (outsAt0 (F := Ideal) m c t.val t.isLt).1 (ix3 (0 : Fin 1) k c')
      = cZero + tileMix (X0 m c) (X1 m c) (X2 m c) (LAB m c) (tileOf t) k c' := by
  rw [outsAt0_A m c t h0]
  dsimp only
  refine (KTile.out_A_5 c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) ((hcond0_0 t).mpr h0)
    (xb0 m c t) (xb1 m c t) (xb2 m c t) (lb m c t) (cb m c t) k c').trans ?_
  rw [mix_eq m c t k c']

/-- At a later point it is what the point before left plus the tile's contribution. -/
theorem mix_step (c : Dev nD) (t : Fin cfg0.N) (h0 : ¬t.val % 8 = 0) (k c' : Fin 1000) :
    (outsAt0 (F := Ideal) m c t.val t.isLt).1 (ix3 (0 : Fin 1) k c')
      = (outsAt0 (F := Ideal) m c (t.val - 1) (Nat.lt_of_le_of_lt (Nat.sub_le _ _) t.isLt)).1 (ix3 (0 : Fin 1) k c')
        + tileMix (X0 m c) (X1 m c) (X2 m c) (LAB m c) (tileOf t) k c' := by
  rw [outsAt0_B m c t h0]
  dsimp only
  refine (KTile.out_B_5 c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (fun h => h0 ((hcond0_0 t).mp h))
    (xb0 m c t) (xb1 m c t) (xb2 m c t) (lb m c t) (cb m c t)
    (outsAt0 (F := Ideal) m c (t.val - 1) (Nat.lt_of_le_of_lt (Nat.sub_le _ _) t.isLt)).1
    (outsAt0 (F := Ideal) m c (t.val - 1) (Nat.lt_of_le_of_lt (Nat.sub_le _ _) t.isLt)).2 k c').trans ?_
  rw [mix_eq m c t k c']

/-- The same two facts for the entropy accumulator. -/
theorem ent_reset (c : Dev nD) (t : Fin cfg0.N) (h0 : t.val % 8 = 0) :
    (outsAt0 (F := Ideal) m c t.val t.isLt).2 (ix3 (0 : Fin 1) (0 : Fin 1) (0 : Fin 1))
      = cZero + tileEnt (X0 m c) (X1 m c) (X2 m c) (LAB m c) (tileOf t) := by
  rw [outsAt0_A m c t h0]
  dsimp only
  refine (KTile.out_A_6 c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) ((hcond0_0 t).mpr h0)
    (xb0 m c t) (xb1 m c t) (xb2 m c t) (lb m c t) (cb m c t)).trans ?_
  rw [ent_eq m c t]

theorem ent_step (c : Dev nD) (t : Fin cfg0.N) (h0 : ¬t.val % 8 = 0) :
    (outsAt0 (F := Ideal) m c t.val t.isLt).2 (ix3 (0 : Fin 1) (0 : Fin 1) (0 : Fin 1))
      = (outsAt0 (F := Ideal) m c (t.val - 1) (Nat.lt_of_le_of_lt (Nat.sub_le _ _) t.isLt)).2 (ix3 (0 : Fin 1) (0 : Fin 1) (0 : Fin 1))
        + tileEnt (X0 m c) (X1 m c) (X2 m c) (LAB m c) (tileOf t) := by
  rw [outsAt0_B m c t h0]
  dsimp only
  refine (KTile.out_B_6 c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (fun h => h0 ((hcond0_0 t).mp h))
    (xb0 m c t) (xb1 m c t) (xb2 m c t) (lb m c t) (cb m c t)
    (outsAt0 (F := Ideal) m c (t.val - 1) (Nat.lt_of_le_of_lt (Nat.sub_le _ _) t.isLt)).1
    (outsAt0 (F := Ideal) m c (t.val - 1) (Nat.lt_of_le_of_lt (Nat.sub_le _ _) t.isLt)).2).trans ?_
  rw [ent_eq m c t]

theorem tileOf_mk (n : ℕ) (h : n < cfg0.N) : tileOf ⟨n, h⟩ = tileAt n :=
  Fin.ext (by show n = n % 16; have := lt_of_lt_of_eq h N_0; omega)

/-- After point n the mixture accumulator holds zero plus the contributions of the tiles of n's core up to n. -/
theorem mix_at (c : Dev nD) (k c' : Fin 1000) : ∀ (n : ℕ) (h : n < cfg0.N),
    (outsAt0 (F := Ideal) m c n h).1 (ix3 (0 : Fin 1) k c')
      = cZero + ∑ i ∈ Finset.range (n % 8 + 1),
          tileMix (X0 m c) (X1 m c) (X2 m c) (LAB m c) (tileAt (n / 8 * 8 + i)) k c' := by
  intro n
  induction n using Nat.strong_induction_on with
  | _ n ih =>
    intro h
    have hN : n < 16 := lt_of_lt_of_eq h N_0
    by_cases h0 : n % 8 = 0
    · refine (mix_reset m c ⟨n, h⟩ h0 k c').trans ?_
      have hr : n % 8 + 1 = 1 := by omega
      have e : n / 8 * 8 + 0 = n := by omega
      rw [hr, Finset.sum_range_one, e, tileOf_mk]
    · refine (mix_step m c ⟨n, h⟩ h0 k c').trans ?_
      dsimp only
      have e1 : (n - 1) % 8 + 1 = n % 8 := by omega
      have e2 : (n - 1) / 8 = n / 8 := by omega
      have e3 : n / 8 * 8 + n % 8 = n := by omega
      rw [Finset.sum_range_succ, ← add_assoc cZero, e3, tileOf_mk,
        ih (n - 1) (by omega) (Nat.lt_of_le_of_lt (Nat.sub_le _ _) h), e1, e2]

/-- And the entropy accumulator likewise. -/
theorem ent_at (c : Dev nD) : ∀ (n : ℕ) (h : n < cfg0.N),
    (outsAt0 (F := Ideal) m c n h).2 (ix3 (0 : Fin 1) (0 : Fin 1) (0 : Fin 1))
      = cZero + ∑ i ∈ Finset.range (n % 8 + 1),
          tileEnt (X0 m c) (X1 m c) (X2 m c) (LAB m c) (tileAt (n / 8 * 8 + i)) := by
  intro n
  induction n using Nat.strong_induction_on with
  | _ n ih =>
    intro h
    have hN : n < 16 := lt_of_lt_of_eq h N_0
    by_cases h0 : n % 8 = 0
    · refine (ent_reset m c ⟨n, h⟩ h0).trans ?_
      have hr : n % 8 + 1 = 1 := by omega
      have e : n / 8 * 8 + 0 = n := by omega
      rw [hr, Finset.sum_range_one, e, tileOf_mk]
    · refine (ent_step m c ⟨n, h⟩ h0).trans ?_
      dsimp only
      have e1 : (n - 1) % 8 + 1 = n % 8 := by omega
      have e2 : (n - 1) / 8 = n / 8 := by omega
      have e3 : n / 8 * 8 + n % 8 = n := by omega
      rw [Finset.sum_range_succ, ← add_assoc cZero, e3, tileOf_mk,
        ih (n - 1) (by omega) (Nat.lt_of_le_of_lt (Nat.sub_le _ _) h), e1, e2]

/-- At a core's last point the sum runs over all eight of its tiles. -/
theorem sum_full (f : Fin 16 → EReal) (core : Fin 2) :
    ∑ i ∈ Finset.range 8, f (tileAt (core.val * 8 + i)) = ∑ j : Fin 8, f (pointOf core j) := by
  rw [Finset.sum_range]
  refine Finset.sum_congr rfl fun j _ => congrArg f (Fin.ext ?_)
  show (core.val * 8 + j.val) % 16 = core.val * 8 + j.val
  have := core.isLt; have := j.isLt; omega

/-! ## The two result arrays -/

/-- What the mixture array ends holding, and the entropy array. -/
abbrev G5 (c : Dev nD) : Vec Ideal S2x1000x1000 .f32 :=
  fun j => coreMix (X0 m c) (X1 m c) (X2 m c) (LAB m c) ⟨(j 0).val, (j 0).isLt⟩ ⟨(j 1).val, (j 1).isLt⟩ ⟨(j 2).val, (j 2).isLt⟩
abbrev G6 (c : Dev nD) : Vec Ideal S2x1x1 .f32 :=
  fun j => coreEnt (X0 m c) (X1 m c) (X2 m c) (LAB m c) ⟨(j 0).val, (j 0).isLt⟩

theorem G5_at (c : Dev nD) (j : S2x1000x1000.Idx) (core : Fin 2) (k c' : Fin 1000)
    (h0 : (j 0).val = core.val) (h1 : (j 1).val = k.val) (h2 : (j 2).val = c'.val) :
    G5 m c j = coreMix (X0 m c) (X1 m c) (X2 m c) (LAB m c) core k c' := by
  have a0 : (⟨(j 0).val, (j 0).isLt⟩ : Fin 2) = core := Fin.ext h0
  have a1 : (⟨(j 1).val, (j 1).isLt⟩ : Fin 1000) = k := Fin.ext h1
  have a2 : (⟨(j 2).val, (j 2).isLt⟩ : Fin 1000) = c' := Fin.ext h2
  show coreMix (X0 m c) (X1 m c) (X2 m c) (LAB m c) ⟨(j 0).val, (j 0).isLt⟩ ⟨(j 1).val, (j 1).isLt⟩ ⟨(j 2).val, (j 2).isLt⟩ = _
  rw [a0, a1, a2]

theorem G6_at (c : Dev nD) (j : S2x1x1.Idx) (core : Fin 2) (h0 : (j 0).val = core.val) :
    G6 m c j = coreEnt (X0 m c) (X1 m c) (X2 m c) (LAB m c) core := by
  have a0 : (⟨(j 0).val, (j 0).isLt⟩ : Fin 2) = core := Fin.ext h0
  show coreEnt (X0 m c) (X1 m c) (X2 m c) (LAB m c) ⟨(j 0).val, (j 0).isLt⟩ = _
  rw [a0]

/-- What a core's last point writes back is the core's block of the mixture array. -/
theorem flushed5 (c : Dev nD) (t : Fin cfg0.N) (hf : (cfg0.win 5).flush t = true) :
    (dats (F := Ideal) m 0 c).flushed 5 t = ((cfg0.win 5).blk t).view.read (Elt Ideal) (G5 m c) := by
  have hN : t.val < 16 := lt_of_lt_of_eq t.isLt N_0
  have h7 : t.val % 8 = 7 := (flush0_5 t).mp hf
  obtain ⟨-, -, -, -, -, -, -, -, -, -, e0, e1, e2, -⟩ := idx_facts t
  show (cfg0.win 5).cut (grid0.coords t) ((dats (F := Ideal) m 0 c).after 5 t) = _
  rw [after0_5]
  refine funext fun y => ?_
  rw [View.read_apply]
  revert y
  show ∀ y : S1x1000x1000.Idx, (outsAt0 (F := Ideal) m c t.val t.isLt).1 y = G5 m c (((cfg0.win 5).blk t).view.emb y)
  intro y
  obtain ⟨z, k, c', rfl⟩ : ∃ (z : Fin 1) (k c' : Fin 1000), y = ix3 z k c' := ⟨y 0, y 1, y 2, eq_ix3 y⟩
  obtain rfl : z = 0 := Subsingleton.elim _ _
  have hc : t.val / 8 < 2 := by omega
  have hcore : t.val / 8 * 8 = (⟨t.val / 8, hc⟩ : Fin 2).val * 8 := rfl
  rw [mix_at m c k c' t.val t.isLt, h7, hcore,
    sum_full (fun p => tileMix (X0 m c) (X1 m c) (X2 m c) (LAB m c) p k c') ⟨t.val / 8, hc⟩]
  refine Eq.trans (b := coreMix (X0 m c) (X1 m c) (X2 m c) (LAB m c) ⟨t.val / 8, hc⟩ k c') rfl
    (G5_at m c _ ⟨t.val / 8, hc⟩ k c' ?_ ?_ ?_).symm
  · show win0_5.index t (0 : Fin 3) * 1 + 1 * 0 = t.val / 8
    rw [e0]; omega
  · show win0_5.index t (1 : Fin 3) * 1000 + 1 * k.val = k.val
    rw [e1]; omega
  · show win0_5.index t (2 : Fin 3) * 1000 + 1 * c'.val = c'.val
    rw [e2]; omega

/-- The two cores' last points cover the mixture array. -/
theorem cover5 (i : S2x1000x1000.Idx) :
    ∃ t : Fin cfg0.N, (cfg0.win 5).flush t = true ∧ i ∈ ((cfg0.win 5).blk t).view.set := by
  have h0 : (i 0).val < 2 := (i 0).isLt
  have h1 : (i 1).val < 1000 := (i 1).isLt
  have h2 : (i 2).val < 1000 := (i 2).isLt
  have hN : cfg0.N = 16 := N_0
  have ht : (i 0).val * 8 + 7 < cfg0.N := by rw [hN]; omega
  refine ⟨⟨(i 0).val * 8 + 7, ht⟩, (flush0_5 _).mpr (by show ((i 0).val * 8 + 7) % 8 = 7; omega), ?_⟩
  obtain ⟨-, -, -, -, -, -, -, -, -, -, e0, e1, e2, -⟩ := idx_facts ⟨(i 0).val * 8 + 7, ht⟩
  have e0' : win0_5.index ⟨(i 0).val * 8 + 7, ht⟩ (0 : Fin 3) = ((i 0).val * 8 + 7) / 8 := e0
  show i ∈ ((View.whole main_v8_0).slice (win0_5.rect ⟨(i 0).val * 8 + 7, ht⟩)).set
  rw [View.set_slice_whole, Rect.mem_set_unit]
  intro a
  match a with
  | ⟨0, _⟩ =>
    show win0_5.index ⟨(i 0).val * 8 + 7, ht⟩ (0 : Fin 3) * 1 ≤ (i 0).val
      ∧ (i 0).val < win0_5.index ⟨(i 0).val * 8 + 7, ht⟩ (0 : Fin 3) * 1 + 1
    rw [e0']; omega
  | ⟨1, _⟩ =>
    show win0_5.index ⟨(i 0).val * 8 + 7, ht⟩ (1 : Fin 3) * 1000 ≤ (i 1).val
      ∧ (i 1).val < win0_5.index ⟨(i 0).val * 8 + 7, ht⟩ (1 : Fin 3) * 1000 + 1000
    rw [e1]; omega
  | ⟨2, _⟩ =>
    show win0_5.index ⟨(i 0).val * 8 + 7, ht⟩ (2 : Fin 3) * 1000 ≤ (i 2).val
      ∧ (i 2).val < win0_5.index ⟨(i 0).val * 8 + 7, ht⟩ (2 : Fin 3) * 1000 + 1000
    rw [e2]; omega

/-- What a core's last point writes back is the core's entry of the entropy array. -/
theorem flushed6 (c : Dev nD) (t : Fin cfg0.N) (hf : (cfg0.win 6).flush t = true) :
    (dats (F := Ideal) m 0 c).flushed 6 t = ((cfg0.win 6).blk t).view.read (Elt Ideal) (G6 m c) := by
  have hN : t.val < 16 := lt_of_lt_of_eq t.isLt N_0
  have h7 : t.val % 8 = 7 := (flush0_6 t).mp hf
  obtain ⟨-, -, -, -, -, -, -, -, -, -, -, -, -, e0, e1, e2⟩ := idx_facts t
  show (cfg0.win 6).cut (grid0.coords t) ((dats (F := Ideal) m 0 c).after 6 t) = _
  rw [after0_6]
  refine funext fun y => ?_
  rw [View.read_apply]
  revert y
  show ∀ y : S1x1x1.Idx, (outsAt0 (F := Ideal) m c t.val t.isLt).2 y = G6 m c (((cfg0.win 6).blk t).view.emb y)
  intro y
  obtain ⟨z, z', z'', rfl⟩ : ∃ (z z' z'' : Fin 1), y = ix3 z z' z'' := ⟨y 0, y 1, y 2, eq_ix3 y⟩
  obtain rfl : z = 0 := Subsingleton.elim _ _
  obtain rfl : z' = 0 := Subsingleton.elim _ _
  obtain rfl : z'' = 0 := Subsingleton.elim _ _
  have hc : t.val / 8 < 2 := by omega
  have hcore : t.val / 8 * 8 = (⟨t.val / 8, hc⟩ : Fin 2).val * 8 := rfl
  rw [ent_at m c t.val t.isLt, h7, hcore,
    sum_full (fun p => tileEnt (X0 m c) (X1 m c) (X2 m c) (LAB m c) p) ⟨t.val / 8, hc⟩]
  refine Eq.trans (b := coreEnt (X0 m c) (X1 m c) (X2 m c) (LAB m c) ⟨t.val / 8, hc⟩) rfl
    (G6_at m c _ ⟨t.val / 8, hc⟩ ?_).symm
  show win0_6.index t (0 : Fin 3) * 1 + 1 * 0 = t.val / 8
  rw [e0]; omega

/-- The two cores' last points cover the entropy array. -/
theorem cover6 (i : S2x1x1.Idx) :
    ∃ t : Fin cfg0.N, (cfg0.win 6).flush t = true ∧ i ∈ ((cfg0.win 6).blk t).view.set := by
  have h0 : (i 0).val < 2 := (i 0).isLt
  have h1 : (i 1).val < 1 := (i 1).isLt
  have h2 : (i 2).val < 1 := (i 2).isLt
  have hN : cfg0.N = 16 := N_0
  have ht : (i 0).val * 8 + 7 < cfg0.N := by rw [hN]; omega
  refine ⟨⟨(i 0).val * 8 + 7, ht⟩, (flush0_6 _).mpr (by show ((i 0).val * 8 + 7) % 8 = 7; omega), ?_⟩
  obtain ⟨-, -, -, -, -, -, -, -, -, -, -, -, -, e0, e1, e2⟩ := idx_facts ⟨(i 0).val * 8 + 7, ht⟩
  have e0' : win0_6.index ⟨(i 0).val * 8 + 7, ht⟩ (0 : Fin 3) = ((i 0).val * 8 + 7) / 8 := e0
  show i ∈ ((View.whole main_v8_1).slice (win0_6.rect ⟨(i 0).val * 8 + 7, ht⟩)).set
  rw [View.set_slice_whole, Rect.mem_set_unit]
  intro a
  match a with
  | ⟨0, _⟩ =>
    show win0_6.index ⟨(i 0).val * 8 + 7, ht⟩ (0 : Fin 3) * 1 ≤ (i 0).val
      ∧ (i 0).val < win0_6.index ⟨(i 0).val * 8 + 7, ht⟩ (0 : Fin 3) * 1 + 1
    rw [e0']; omega
  | ⟨1, _⟩ =>
    show win0_6.index ⟨(i 0).val * 8 + 7, ht⟩ (1 : Fin 3) * 1 ≤ (i 1).val
      ∧ (i 1).val < win0_6.index ⟨(i 0).val * 8 + 7, ht⟩ (1 : Fin 3) * 1 + 1
    rw [e1]; omega
  | ⟨2, _⟩ =>
    show win0_6.index ⟨(i 0).val * 8 + 7, ht⟩ (2 : Fin 3) * 1 ≤ (i 2).val
      ∧ (i 2).val < win0_6.index ⟨(i 0).val * 8 + 7, ht⟩ (2 : Fin 3) * 1 + 1
    rw [e2]; omega

theorem arr5 (c : Dev nD) :
    ((dats (F := Ideal) m 0 c).arrAt 5 cfg0.N : Vec Ideal S2x1000x1000 .f32)
      = fun j => coreMix (X0 m c) (X1 m c) (X2 m c) (LAB m c) ⟨(j 0).val, (j 0).isLt⟩ ⟨(j 1).val, (j 1).isLt⟩ ⟨(j 2).val, (j 2).isLt⟩ :=
  (dats (F := Ideal) m 0 c).arrAt_eq_of_cover 5 (G5 m c) (flushed5 m c) fun i => cover5 i

theorem arr6 (c : Dev nD) :
    ((dats (F := Ideal) m 0 c).arrAt 6 cfg0.N : Vec Ideal S2x1x1 .f32)
      = fun j => coreEnt (X0 m c) (X1 m c) (X2 m c) (LAB m c) ⟨(j 0).val, (j 0).isLt⟩ :=
  (dats (F := Ideal) m 0 c).arrAt_eq_of_cover 6 (G6 m c) (flushed6 m c) fun i => cover6 i

end Cert.KernelIdeal.KAccum

end
-- ==== Proof.KernelTail.lean ====
/-
  The host operations after the kernel region, applied to the region's two result arrays and the counts, give the
  specification's `resK`; and the first program's run with its result named.
-/
import proofs.«417588_j592705487350_3_alg».proof.Proof.Gen.KernelIdeal.Frame
import proofs.«417588_j592705487350_3_alg».proof.Proof.Spec
import proofs.«417588_j592705487350_3_alg».proof.Proof.KernelArgs
import proofs.«417588_j592705487350_3_alg».proof.Proof.KernelPre
import proofs.«417588_j592705487350_3_alg».proof.Proof.KernelAccum
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws
import Idealize.ShloMosaic.Lib.IdealHost

set_option maxRecDepth 16384

noncomputable section

namespace Cert.KernelIdeal.KTail

open Cert.KernelIdeal Cert.KernelIdeal.Gen Idealize.ShloMosaic Idealize.ShloMosaic.TcCoe Idealize.ShloMosaic.ValueIdx Idealize.SL.Sem SupJsd
open Idealize.ShloMosaic.Pipeline (Dat)
open Cert.KernelIdeal.KArgs
open scoped BigOperators

variable (m : (ℓ : Loc nD τ sig) → Buf (Elt Ideal) ℓ) (ρ : Dev nD → PrngReg)

/-! ## The closing operations read at an index -/

/-- An index of a [2, 1, 1] array is its first coordinate: the other two axes have one position each. -/
private def idxEquiv211 : (⟨3, ![2, 1, 1]⟩ : Shape).Idx ≃ Fin 2 where
  toFun i := i 0
  invFun a := ix3 a (0 : Fin 1) (0 : Fin 1)
  left_inv i := by
    funext d
    match d with
    | ⟨0, _⟩ => rfl
    | ⟨1, _⟩ => exact Fin.ext (by have h : (i 1).val < 1 := (i 1).isLt; show (0 : Nat) = (i 1).val; omega)
    | ⟨2, _⟩ => exact Fin.ext (by have h : (i 2).val < 1 := (i 2).isLt; show (0 : Nat) = (i 2).val; omega)
  right_inv _ := rfl

/-- So a sum over the indices of a [2, 1, 1] array is the sum over its first coordinate. -/
private theorem sum_idx211 (f : (⟨3, ![2, 1, 1]⟩ : Shape).Idx → EReal) :
    ∑ i, f i = ∑ a : Fin 2, f (ix3 a (0 : Fin 1) (0 : Fin 1)) := by
  rw [← Equiv.sum_comp idxEquiv211.symm f]
  rfl

/-- The sum of a [2, 1000, 1000] array over its first axis, at (k, c): the initial value plus the two cores' entries
    at (k, c). -/
private theorem reduce_cores_apply (x : FVec Ideal S2x1000x1000 .f32) (init : FVec Ideal S_ .f32)
    (h' : S2x1000x1000.ReducesTo [0] S1000x1000) (hu : 0 < S_.numel) (k c : Fin 1000) :
    Host.reduceAdd (F := Ideal) x init h' hu (ix2 k c) = init ix0 + ∑ core : Fin 2, x (ix3 core k c) := by
  have h : S2x1000x1000.Reduces [0] S1000x1000 := by decide
  refine (Ideal.hostReduceAdd_single h' h x (init (Shape.Idx.first hu)) (ix2 k c)).trans ?_
  rw [eq_ix0 (Shape.Idx.first hu)]
  refine congrArg (init ix0 + ·) ?_
  show ∑ core : Fin 2, x (h.lift (ix2 k c) core) = _
  -- (k, c) with the core's coordinate put back in front is (core, k, c)
  refine Finset.sum_congr rfl fun core _ => congrArg x ?_
  funext a
  match a with
  | ⟨0, _⟩ => exact Fin.ext rfl
  | ⟨1, _⟩ => exact Fin.ext rfl
  | ⟨2, _⟩ => exact Fin.ext rfl

/-- The sum of a [2, 1, 1] array over every axis: the initial value plus the two cores' entries. -/
private theorem reduce_all211_apply (x : FVec Ideal S2x1x1 .f32) (init : FVec Ideal S_ .f32)
    (h' : S2x1x1.ReducesTo [0, 1, 2] S_) (hu : 0 < S_.numel) (j : S_.Idx) :
    Host.reduceAdd (F := Ideal) x init h' hu j = init ix0 + ∑ core : Fin 2, x (ix3 core (0 : Fin 1) (0 : Fin 1)) := by
  refine (Ideal.hostReduceAdd_total h' (fun b => b.elim0) x (init (Shape.Idx.first hu)) j).trans ?_
  rw [eq_ix0 (Shape.Idx.first hu)]
  exact congrArg (init ix0 + ·) (sum_idx211 x)

/-- The sum of a [1000, 1000] array over every axis: the initial value plus the double sum over rows and columns. -/
private theorem reduce_all_apply (x : FVec Ideal S1000x1000 .f32) (init : FVec Ideal S_ .f32)
    (h' : S1000x1000.ReducesTo [0, 1] S_) (hu : 0 < S_.numel) (j : S_.Idx) :
    Host.reduceAdd (F := Ideal) x init h' hu j = init ix0 + ∑ k : Fin 1000, ∑ c : Fin 1000, x (ix2 k c) := by
  refine (Ideal.hostReduceAdd_total h' (fun b => b.elim0) x (init (Shape.Idx.first hu)) j).trans ?_
  rw [eq_ix0 (Shape.Idx.first hu)]
  exact congrArg (init ix0 + ·) (sum_idx2 x)

/-- A vector of per-class values, made a column and spread along the rows of a [1000, 1000] array, reads at (k, c)
    the value of class k. -/
private theorem spread_rows_apply (v : FVec Ideal S1000 .f32) (h0 : S1000.BroadcastsInDim S1000x1 ![0])
    (h1 : S1000x1.BroadcastsInDim S1000x1000 ![0, 1]) (k c : Fin 1000) :
    broadcastInDim S1000x1000 ![0, 1] h1 (broadcastInDim S1000x1 ![0] h0 v) (ix2 k c) = v (ix1 k) := by
  refine (broadcastInDim_apply ![0, 1] h1 _ (ix2 k c) (ix2 k (0 : Fin 1)) fun a => ?_).trans
    (broadcastInDim_apply ![0] h0 v (ix2 k (0 : Fin 1)) (ix1 k) fun a => ?_)
  · match a with
    | ⟨0, _⟩ => rfl
    | ⟨1, _⟩ => rfl
  · match a with
    | ⟨0, _⟩ => rfl

/-- The logarithm of an array at an index is the logarithm of the entry. -/
private theorem hostLog_apply {s : Shape} (x : FVec Ideal s .f32) (i : s.Idx) : Host.log (F := Ideal) x i = Ideal.log (x i) := rfl

/-! ## The result -/

/-- The closing operations, from the two arrays the region leaves (S[k, c] and Σ H / n, one slice per core) and the
    counts n_k: the sums over the two cores, the counts clipped below at 1, the mixture S / max (n, 1) clipped below
    at ε, its logarithm divided by the clipped count, the product with S summed over classes and columns, the
    difference from the summed entropies, and the division by 1000 — in the order the specification's `resK` takes
    them. -/
theorem tail (c : Dev nD) :
    (Pipeline.afterTail₀ cfgs (dats (F := Ideal) m) 0 (V0 m) [hostOps1, hostOps1_1, hostOps1_2] c main_v24 : Vec Ideal S_ .f32)
      = fun _ => resK (X0 m c) (X1 m c) (X2 m c) (LAB m c) := by
  unfold Pipeline.afterTail₀
  generalize hW : Pipeline.withArrays _ _ _ _ = W
  -- the three arrays the closing operations read, each at its literal shape
  obtain ⟨a5, ha5⟩ : ∃ a5 : FVec Ideal S2x1000x1000 .f32, a5 = W (Proc.devRef .tc main_v8_0) := ⟨_, rfl⟩
  obtain ⟨a6, ha6⟩ : ∃ a6 : FVec Ideal S2x1x1 .f32, a6 = W (Proc.devRef .tc main_v8_1) := ⟨_, rfl⟩
  obtain ⟨n, hn⟩ : ∃ n : FVec Ideal S1000 .f32, n = W (Proc.devRef .tc main_v6) := ⟨_, rfl⟩
  -- the region's first result: core by core, the core's share of S[k, c]
  have e5 : ∀ (core : Fin 2) (k c' : Fin 1000), a5 (ix3 core k c') = coreMix (X0 m c) (X1 m c) (X2 m c) (LAB m c) core k c' := by
    intro core k c'
    rw [ha5, ← hW]
    exact congrFun ((Pipeline.withArrays_arr spec0 launch0.win.arr_inj c (V0 m c) (fun w => (dats (F := Ideal) m 0 c).arrAt w cfg0.N) 5).trans
      (KAccum.arr5 m c)) (ix3 core k c')
  -- its second result: core by core, the core's share of Σ H / n
  have e6 : ∀ core : Fin 2, a6 (ix3 core (0 : Fin 1) (0 : Fin 1)) = coreEnt (X0 m c) (X1 m c) (X2 m c) (LAB m c) core := by
    intro core
    rw [ha6, ← hW]
    exact congrFun ((Pipeline.withArrays_arr spec0 launch0.win.arr_inj c (V0 m c) (fun w => (dats (F := Ideal) m 0 c).arrAt w cfg0.N) 6).trans
      (KAccum.arr6 m c)) (ix3 core (0 : Fin 1) (0 : Fin 1))
  -- the counts are no array of the region: they are what the operations before it left
  have en : ∀ k : Fin 1000, n (ix1 k) = countK (LAB m c) k := by
    intro k
    rw [hn, ← hW]
    exact congrFun ((Pipeline.withArrays_of_ne spec0 c (V0 m c) (fun w => (dats (F := Ideal) m 0 c).arrAt w cfg0.N) main_v6 (by decide)).trans
      (KPre.V_v6 m c)) (ix1 k)
  -- the result as one term over the three arrays
  simp only [Gen.hostOps1, Gen.hostOps1_1, Gen.hostOps1_2, List.flatten_cons, List.flatten_nil, List.append_nil, List.cons_append, List.nil_append]
  after_results_simp
  rw [← ha5, ← ha6, ← hn]
  clear ha5 ha6 hn hW W
  funext j
  simp only [StableHlo.TRef.ofBuf, StableHlo.TRef.toBuf, cast_eq, id_eq]
  -- read at its one index: every operation at an entry, every sum over coordinates
  simp only [hostDivf_apply, subf_apply, reduce_all211_apply, reduce_all_apply, mulf_apply, reduce_cores_apply, hostLog_apply,
    maximumf_apply, constant_apply, e5, e6]
  -- ε spread over the [1000, 1000] array is ε at every entry
  have t1 : ∀ k c' : Fin 1000, broadcastInDim S1000x1000 ![] bcast_S_S1000x1000 (constant (F := Ideal) S_ FTy.f32 0x33D6BF95#32) (ix2 k c') = cEps :=
    fun k c' => broadcastInDim_scalar_apply _ _ _
  -- the clipped counts spread along the rows read max (n_k, 1) at (k, c)
  have t2 : ∀ k c' : Fin 1000, broadcastInDim S1000x1000 ![0, 1] bcast_S1000x1_S1000x1000_0_1
      (broadcastInDim S1000x1 ![0] bcast_S1000_S1000x1_0
        (maximumf n (broadcastInDim S1000 ![] bcast_S_S1000 (constant (F := Ideal) S_ FTy.f32 0x3F800000#32)))) (ix2 k c')
      = max (n (ix1 k)) cOne :=
    fun k c' => (spread_rows_apply _ _ _ k c').trans (congrArg (max (n (ix1 k))) (broadcastInDim_scalar_apply _ _ _))
  simp only [t1, t2, en]
  -- what is left is the specification's definition, term for term
  rfl

/-- The first program's run, read: the result is `resK` of the four arguments, which end as they were launched. -/
theorem run : θ_run (defs (F := Ideal)) (onTc (τ := τ) (main (F := Ideal))) ⟨m, fun _ => 0, ρ⟩ (fun r => ∀ c : Dev nD,
      r.2.mem ((c.tc : Thread nD τ).loc main_v24) = (fun _ => resK (X0 m c) (X1 m c) (X2 m c) (LAB m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  -- the result and the labels are buffers no window stages: they end as the closing operations leave them; the three
  -- arrays of logits are input windows' arrays: they end at their contents on entry, which nothing before had written
  (θ_run defs _ _).mono (fun _ h c =>
    ⟨((h c).2 main_v24 (Pipeline.mem_restRefs_of main_v24 (by decide) (by decide))).trans (tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.KTail

end
-- ==== Proof.Claims.lean ====
/-
  The five claims.  The frames of the two kernel programs are the generated frame certificates; the reference's frame
  is its run with the result dropped.  The one idealization is a narrowing to bf16 followed by the widening back,
  the identity on extended reals.  For the value claim: under the precondition every logit is a real number and every
  label lies in [0, 1000); the first program ends with the loss in its per-label arrangement and the second with the
  loss taken row by row, of arguments that agree; on such arguments the two arrangements are one number.
-/
import proofs.«417588_j592705487350_3_alg».proof.Defs
import proofs.«417588_j592705487350_3_alg».proof.Proof.Gen.Kernel
import proofs.«417588_j592705487350_3_alg».proof.Proof.Gen.Kernel.Frame
import proofs.«417588_j592705487350_3_alg».proof.Proof.Gen.KernelIdeal
import proofs.«417588_j592705487350_3_alg».proof.Proof.Gen.KernelIdeal.Frame
import proofs.«417588_j592705487350_3_alg».proof.Proof.Gen.ReferenceIdeal
import proofs.«417588_j592705487350_3_alg».proof.Proof.Gen.ReferenceIdeal.Run
import proofs.«417588_j592705487350_3_alg».proof.Proof.Gen.ReferenceIdeal.Read
import proofs.«417588_j592705487350_3_alg».proof.Proof.Gen.Pre_finite_inputs
import proofs.«417588_j592705487350_3_alg».proof.Proof.SpecEq
import proofs.«417588_j592705487350_3_alg».proof.Proof.PreDecode
import proofs.«417588_j592705487350_3_alg».proof.Proof.RefValue
import proofs.«417588_j592705487350_3_alg».proof.Proof.KernelTail

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Narrowing a vector of extended reals to bf16 and widening it back changes nothing. -/
theorem preserves : Cert.preserves_Kernel_KernelIdeal :=
  IdealRules.truncf_extf.statement Cert.KernelIdeal.S1024x1000 .f32 .bf16

/-- Both programs end with one number: the first with the loss gathered per label, the second with the loss row by
    row, and on real logits with labels in range these agree. -/
theorem algebraic : Cert.algebraic_KernelIdeal_ReferenceIdeal := by
  intro m ρ m' ρ' hpre hagree
  refine ⟨fun c => fun _ => SupJsd.resK (Cert.KernelIdeal.KArgs.X0 m c) (Cert.KernelIdeal.KArgs.X1 m c)
      (Cert.KernelIdeal.KArgs.X2 m c) (Cert.KernelIdeal.KArgs.LAB m c), Cert.KernelIdeal.KTail.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, fl⟩ := Cert.Pre_finite_inputs.Decode.of_pre _ _ _ _ (hpre c)
  rw [Cert.ReferenceIdeal.Read.val_main_v61_eq, Cert.ReferenceIdeal.RefValue.result_eq,
    (hagree c).1, (hagree c).2.1, (hagree c).2.2.1, (hagree c).2.2.2]
  funext _
  exact (SupJsd.resK_eq_resR _ _ _ _ f0 f1 f2 fl).symm

end Cert.Proof.Claims

end
-- ==== Proof.lean ====
/- The proof of `Cert.Claim`: the three frames, the idealization's one rewrite and the value claim, assembled behind the
   witnesses of the programs' stated side conditions.  The two kernel programs compute a Jensen–Shannon-style loss over
   three softmax views by one pass over 16 tiles of rows, accumulating per-label probability sums and an entropy term;
   the reference computes the same loss row by row.  The value claim is proved through one specification of each
   program over the extended reals (Proof/Spec.lean), read off the kernel's frame run and off the reference's run, and
   an identity over the reals between the two arrangements (Proof/SpecReal.lean, Proof/RealIdentity.lean), under the
   precondition that the logits are finite and the labels lie in [0, 1000). -/
import proofs.«417588_j592705487350_3_alg».proof.Defs
import proofs.«417588_j592705487350_3_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
